-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x3 : Shape := ⟨3, ![4, 512, 3]⟩
abbrev S64x6 : Shape := ⟨2, ![64, 6]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S40x256 : Shape := ⟨2, ![40, 256]⟩
abbrev S40 : Shape := ⟨1, ![40]⟩
abbrev S_ : Shape := ⟨0, ![]⟩

class Facts : Prop where
  bcast_S_S4x512x3 : S_.BroadcastsInDim S4x512x3 (![] : Fin 0 → Fin S4x512x3.rank)
  reducesTo_S4x512x3_S_d0_1_2 : S4x512x3.ReducesTo [0, 1, 2] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40x256 .f32) (main_arg12 : FVec F S40 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S40x256 .f32 := Host.absf main_arg11
  let main_cst_20 : FVec F S_ .f32 := constant S_ .f32 0x7F800000#32
  let main_v55 : FVec F S40x256 .f32 := broadcastInDim S40x256 ![] bcast_S_S40x256 main_cst_20
  let main_v56 : IVec S40x256 1 := cmpf .olt main_v54 main_v55
  let main_c_21 : IVec S_ 1 := constantI S_ 1 1#1
  let main_v57 : IVec S_ 1 := (fun x v => Host.reduce IntOp.andi x v reducesTo_S40x256_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg7 : FVec F S512x256 .f32) (main_arg8 : FVec F S512 .f32) (main_arg9 : FVec F S256x512 .f32) (main_arg10 : FVec F S256 .f32) (main_arg11 : FVec F S40x256 .f32) (main_arg12 : FVec F S40 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S128 .f32) (main_arg5 : FVec F S256x128 .f32) (main_arg6 : FVec F S256 .f32) (main_arg7 : FVec F S512x256 .f32) (main_arg8 : FVec F S512 .f32) (main_arg9 : FVec F S256x512 .f32) (main_arg10 : FVec F S256 .f32) (main_arg11 : FVec F S40x256 .f32) (main_arg12 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x512x3 .f32) (main_arg1 : FVec F S64x6 .f32) (main_arg2 : FVec F S64 .f32) (main_arg3 : FVec F S128x64 .f32) (main_arg4 : FVec F S128 .f32) (main_arg5 : FVec F S256x128 .f32) (main_arg6 : FVec F S256 .f32) (main_arg7 : FVec F S512x256 .f32) (main_arg8 : FVec F S512 .f32) (main_arg9 : FVec F S256x512 .f32) (main_arg10 : FVec F S256 .f32) (main_arg11 : FVec F S40x256 .f32) (main_arg12 : FVec F S40 .f32) : IVec S_ 1 :=
  let main_v0 : FVec F S4x512x3 .f32 := Host.absf main_arg0
  let main_cst : FVec F S_ .f32 := constant S_ .f32 0x7F800000#32
  let main_v1 : FVec F S4x512x3 .f32 := broadcastInDim S4x512x3 ![] bcast_S_S4x512x3 main_cst
  let main_v2 : IVec S4x512x3 1 := cmpf .olt main_v0 main_v1
  let main_c : IVec S_ 1 := constantI S_ 1 1#1
  let main_v3 : IVec S_ 1 := (fun x v => Host.reduce IntOp.andi x v reducesTo_S4x512x3_S_d0_1_2 h_S_) main_v2 main_c
  let main_v4 : FVec F S64x6 .f32 := Host.absf main_arg1
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S4x512x3 : Shape := ⟨3, ![4, 512, 3]⟩
abbrev S64x6 : Shape := ⟨2, ![64, 6]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S40x256 : Shape := ⟨2, ![40, 256]⟩
abbrev S40 : Shape := ⟨1, ![40]⟩
abbrev S4x4x128x3 : Shape := ⟨4, ![4, 4, 128, 3]⟩
abbrev S16x128x3 : Shape := ⟨3, ![16, 128, 3]⟩
abbrev S16x1x40 : Shape := ⟨3, ![16, 1, 40]⟩
abbrev S1x128x3 : Shape := ⟨3, ![1, 128, 3]⟩
abbrev S1x16x3 : Shape := ⟨3, ![1, 16, 3]⟩
abbrev S1x1x40 : Shape := ⟨3, ![1, 1, 40]⟩
abbrev S256x1 : Shape := ⟨2, ![256, 1]⟩
abbrev S128x3 : Shape := ⟨2, ![128, 3]⟩
abbrev S16x3 : Shape := ⟨2, ![16, 3]⟩
abbrev S3x128 : Shape := ⟨2, ![3, 128]⟩
abbrev S3x16 : Shape := ⟨2, ![3, 16]⟩
abbrev S3x1x128 : Shape := ⟨3, ![3, 1, 128]⟩
abbrev S3x16x128 : Shape := ⟨3, ![3, 16, 128]⟩
abbrev S3x16x1 : Shape := ⟨3, ![3, 16, 1]⟩
abbrev S6x16x128 : Shape := ⟨3, ![6, 16, 128]⟩
abbrev S6x2048 : Shape := ⟨2, ![6, 2048]⟩
abbrev S64x2048 : Shape := ⟨2, ![64, 2048]⟩
abbrev S64x1 : Shape := ⟨2, ![64, 1]⟩
abbrev S128x2048 : Shape := ⟨2, ![128, 2048]⟩
abbrev S128x1 : Shape := ⟨2, ![128, 1]⟩
abbrev S256x2048 : Shape := ⟨2, ![256, 2048]⟩
abbrev S512x1 : Shape := ⟨2, ![512, 1]⟩
abbrev S40x1 : Shape := ⟨2, ![40, 1]⟩
abbrev S4x4x40 : Shape := ⟨3, ![4, 4, 40]⟩
abbrev S_ : Shape := ⟨0, ![]⟩
abbrev S4x40 : Shape := ⟨2, ![4, 40]⟩

abbrev nBuf : Space → Nat
  | .hbm => 19
  | .vmem => 19
  | .smem => 0
  | _ => 0

abbrev bufTy : (tb : Table) → Fin (tcTables nBuf tb) → BufTy
  | .hbm, ⟨0, _⟩ => ⟨S4x512x3, .f32⟩
  | .hbm, ⟨1, _⟩ => ⟨S64x6, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x512, .f32⟩
  | .hbm, ⟨10, _⟩ => ⟨S256, .f32⟩
  | .hbm, ⟨11, _⟩ => ⟨S40x256, .f32⟩
  | .hbm, ⟨12, _⟩ => ⟨S40, .f32⟩
  | .hbm, ⟨13, _⟩ => ⟨S4x4x128x3, .f32⟩
  | .hbm, ⟨14, _⟩ => ⟨S16x128x3, .f32⟩
  | .hbm, ⟨15, _⟩ => ⟨S16x1x40, .f32⟩
  | .hbm, ⟨16, _⟩ => ⟨S4x4x40, .f32⟩
  | .hbm, ⟨17, _⟩ => ⟨S_, .f32⟩
  | .hbm, ⟨18, _⟩ => ⟨S4x40, .f32⟩
  | .local _ .vmem, ⟨0, _⟩ => ⟨S1x128x3, .f32⟩
  | .local _ .vmem, ⟨1, _⟩ => ⟨S1x128x3, .f32⟩
  | .local _ .vmem, ⟨2, _⟩ => ⟨S1x16x3, .f32⟩
  | .local _ .vmem, ⟨3, _⟩ => ⟨S1x16x3, .f32⟩
  | .local _ .vmem, ⟨4, _⟩ => ⟨S64x6, .f32⟩
  | .local _ .vmem, ⟨5, _⟩ => ⟨S64, .f32⟩
  | .local _ .vmem, ⟨6, _⟩ => ⟨S128x64, .f32⟩
  | .local _ .vmem, ⟨7, _⟩ => ⟨S128, .f32⟩
  | .local _ .vmem, ⟨8, _⟩ => ⟨S256x128, .f32⟩
  | .local _ .vmem, ⟨9, _⟩ => ⟨S256, .f32⟩
  | .local _ .vmem, ⟨10, _⟩ => ⟨S512x256, .f32⟩
  | .local _ .vmem, ⟨11, _⟩ => ⟨S512, .f32⟩
  | .local _ .vmem, ⟨12, _⟩ => ⟨S256x512, .f32⟩
  | .local _ .vmem, ⟨13, _⟩ => ⟨S256, .f32⟩
  | .local _ .vmem, ⟨14, _⟩ => ⟨S40x256, .f32⟩
  | .local _ .vmem, ⟨15, _⟩ => ⟨S40, .f32⟩
  | .local _ .vmem, ⟨16, _⟩ => ⟨S1x1x40, .f32⟩
  | .local _ .vmem, ⟨17, _⟩ => ⟨S1x1x40, .f32⟩
  | .local _ .vmem, ⟨18, _⟩ => ⟨S256x1, .f32⟩
  | _, _ => ⟨S4x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_24 : BitVec 32 := 0#32
  let v54 : BitVec 1 := Scalar.cmpi .ne v53 c0_i32_24
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S40x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x40 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  shapeCasts_S4x512x3_S4x4x128x3 : S4x512x3.ShapeCasts S4x4x128x3
  shapeCasts_S4x4x128x3_S16x128x3 : S4x4x128x3.ShapeCasts S16x128x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x16x3_S1x16x3_0_0_0 : ∀ a, (![0, 0, 0] : Fin 3 → Nat) a + S1x16x3.size a ≤ S1x16x3.size a
  h_S1x16x3 : 0 < S1x16x3.numel
  shapeCasts_S1x16x3_S16x3 : S1x16x3.ShapeCasts S16x3
  transposes_S128x3_p1_0_S3x128 : S128x3.Transposes [1, 0] S3x128
  transposes_S16x3_p1_0_S3x16 : S16x3.Transposes [1, 0] S3x16
  shapeCasts_S3x128_S3x1x128 : S3x128.ShapeCasts S3x1x128
  shapeCasts_S3x1x128_S3x1x128 : S3x1x128.ShapeCasts S3x1x128
  broadcasts_S3x1x128_S3x16x128 : S3x1x128.Broadcasts S3x16x128
  shapeCasts_S3x16_S3x16x1 : S3x16.ShapeCasts S3x16x1
  shapeCasts_S3x16x1_S3x16x1 : S3x16x1.ShapeCasts S3x16x1
  broadcasts_S3x16x1_S3x16x128 : S3x16x1.Broadcasts S3x16x128
  concatenates_S3x16x128_S3x16x128_S6x16x128_d0 : Shape.Concatenates [S3x16x128, S3x16x128] S6x16x128 0
  shapeCasts_S6x16x128_S6x2048 : S6x16x128.ShapeCasts S6x2048
  bitsLt_bf16_f32 : FTy.bits .bf16 < FTy.bits .f32
  inb_S64x6_S64x6_0_0 : ∀ a, (![0, 0] : Fin 2 → Nat) a + S64x6.size a ≤ S64x6.size a
  h_S64x6 : 0 < S64x6.numel
  inb_S64_S64_0 : ∀ a, (![0] : Fin 1 → Nat) a + S64.size a ≤ S64.size a
  h_S64 : 0 < S64.numel
  shapeCasts_S64_S64x1 : S64.ShapeCasts S64x1
  broadcasts_S64x1_S64x2048 : S64x1.Broadcasts S64x2048
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S128x1 : S128.ShapeCasts S128x1
  broadcasts_S128x1_S128x2048 : S128x1.Broadcasts S128x2048
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S256x1 : S256.ShapeCasts S256x1
  broadcasts_S256x1_S256x2048 : S256x1.Broadcasts S256x2048
  reduces_S256x2048_S256 : S256x2048.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x256_S512x256_0_0 : ∀ a, (![0, 0] : Fin 2 → Nat) a + S512x256.size a ≤ S512x256.size a
  h_S512x256 : 0 < S512x256.numel
  inb_S512_S512_0 : ∀ a, (![0] : Fin 1 → Nat) a + S512.size a ≤ S512.size a
  h_S512 : 0 < S512.numel
  shapeCasts_S512_S512x1 : S512.ShapeCasts S512x1
  inb_S256x512_S256x512_0_0 : ∀ a, (![0, 0] : Fin 2 → Nat) a + S256x512.size a ≤ S256x512.size a
  h_S256x512 : 0 < S256x512.numel
  inb_S40x256_S40x256_0_0 : ∀ a, (![0, 0] : Fin 2 → Nat) a + S40x256.size a ≤ S40x256.size a
  h_S40x256 : 0 < S40x256.numel
  inb_S40_S40_0 : ∀ a, (![0] : Fin 1 → Nat) a + S40.size a ≤ S40.size a
  h_S40 : 0 < S40.numel
  shapeCasts_S40_S40x1 : S40.ShapeCasts S40x1
  shapeCasts_S40x1_S40 : S40x1.ShapeCasts S40
  shapeCasts_S40_S1x1x40 : S40.ShapeCasts S1x1x40
  inb_S1x1x40_S1x1x40_0_0_0 : ∀ a, (![0, 0, 0] : Fin 3 → Nat) a + S1x1x40.size a ≤ S1x1x40.size a
  h_S1x1x40 : 0 < S1x1x40.numel
  shapeCasts_S16x1x40_S4x4x40 : S16x1x40.ShapeCasts S4x4x40
  reducesTo_S4x4x40_S4x40_d1 : S4x4x40.ReducesTo [1] S4x40
  h_S_ : 0 < S_.numel
  dot_S64x6_S6x2048_S64x2048_1_0_0_1_n_n_wf : DotDims.WF S64x6 S6x2048 S64x2048 [1] [0] [0] [1] [] []
  dot_S128x64_S64x2048_S128x2048_1_0_0_1_n_n_wf : DotDims.WF S128x64 S64x2048 S128x2048 [1] [0] [0] [1] [] []
  dot_S256x128_S128x2048_S256x2048_1_0_0_1_n_n_wf : DotDims.WF S256x128 S128x2048 S256x2048 [1] [0] [0] [1] [] []
  dot_S512x256_S256x1_S512x1_1_0_0_1_n_n_wf : DotDims.WF S512x256 S256x1 S512x1 [1] [0] [0] [1] [] []
  dot_S256x512_S512x1_S256x1_1_0_0_1_n_n_wf : DotDims.WF S256x512 S512x1 S256x1 [1] [0] [0] [1] [] []
  dot_S40x256_S256x1_S40x1_1_0_0_1_n_n_wf : DotDims.WF S40x256 S256x1 S40x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S16x128x3.size a
  hwx0_0 : ∀ i : grid0.Coords, EltTy.bits .f32 = 32 ∨ (Rect.block (s := S16x128x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x3.size a ≤ S16x128x3.size a
  hwx0_1 : ∀ i : grid0.Coords, EltTy.bits .f32 = 32 ∨ (Rect.block (s := S16x128x3) S1x16x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x6.size a ≤ S64x6.size a
  hwx0_2 : ∀ i : grid0.Coords, EltTy.bits .f32 = 32 ∨ (Rect.block (s := S64x6) S64x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .f32 = 32 ∨ (Rect.block (s := S256x512) S256x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40x256.size a ≤ S40x256.size a
  hwx0_12 : ∀ i : grid0.Coords, EltTy.bits .f32 = 32 ∨ (Rect.block (s := S40x256) S40x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40.size a ≤ S40.size a
  hwx0_13 : ∀ i : grid0.Coords, EltTy.bits .f32 = 32 ∨ (Rect.block (s := S40) S40.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x40.size a ≤ S16x1x40.size a
  hwx0_14 : ∀ i : grid0.Coords, EltTy.bits .f32 = 32 ∨ (Rect.block (s := S16x1x40) S1x1x40.size (cc0_transform_14 i) (hinb0_14 i)).WholeWords (EltTy.packing .f32)

variable [Facts₀]

def dot_S64x6_S6x2048_S64x2048_1_0_0_1_n_n : DotDims S64x6 S6x2048 S64x2048 where
  lhsContracting := [1]
  rhsContracting := [0]
  lhsNonContracting := [0]
  rhsNonContracting := [1]
  lhsBatch := []
  rhsBatch := []
  wf := dot_S64x6_S6x2048_S64x2048_1_0_0_1_n_n_wf
def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf
def dot_S40x256_S256x1_S40x1_1_0_0_1_n_n : DotDims S40x256 S256x1 S40x1 where
  lhsContracting := [1]
  rhsContracting := [0]
  lhsNonContracting := [0]
  rhsNonContracting := [1]
  lhsBatch := []
  rhsBatch := []
  wf := dot_S40x256_S256x1_S40x1_1_0_0_1_n_n_wf

abbrev win0_0 : Pipeline.Window sig grid0 :=
  Pipeline.Window.ofSpec (Memref.whole main_v1) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S40x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v2) S1x1x40.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S4x512x3 : Shape := ⟨3, ![4, 512, 3]⟩
abbrev S64x6 : Shape := ⟨2, ![64, 6]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S40x256 : Shape := ⟨2, ![40, 256]⟩
abbrev S40 : Shape := ⟨1, ![40]⟩
abbrev S4x4x128x3 : Shape := ⟨4, ![4, 4, 128, 3]⟩
abbrev S4x4x1x128x3 : Shape := ⟨5, ![4, 4, 1, 128, 3]⟩
abbrev S4x4x128x128x3 : Shape := ⟨5, ![4, 4, 128, 128, 3]⟩
abbrev S4x4x128x1x3 : Shape := ⟨5, ![4, 4, 128, 1, 3]⟩
abbrev S4x4x128x128x6 : Shape := ⟨5, ![4, 4, 128, 128, 6]⟩
abbrev S4x4x128x128x64 : Shape := ⟨5, ![4, 4, 128, 128, 64]⟩
abbrev S1x1x1x1x64 : Shape := ⟨5, ![1, 1, 1, 1, 64]⟩
abbrev S_ : Shape := ⟨0, ![]⟩
abbrev S4x4x128x128x128 : Shape := ⟨5, ![4, 4, 128, 128, 128]⟩
abbrev S1x1x1x1x128 : Shape := ⟨5, ![1, 1, 1, 1, 128]⟩
abbrev S4x4x128x128x256 : Shape := ⟨5, ![4, 4, 128, 128, 256]⟩
abbrev S1x1x1x1x256 : Shape := ⟨5, ![1, 1, 1, 1, 256]⟩
abbrev S4x4x256 : Shape := ⟨3, ![4, 4, 256]⟩
abbrev S4x4x512 : Shape := ⟨3, ![4, 4, 512]⟩
abbrev S1x1x512 : Shape := ⟨3, ![1, 1, 512]⟩
abbrev S1x1x256 : Shape := ⟨3, ![1, 1, 256]⟩
abbrev S4x4x40 : Shape := ⟨3, ![4, 4, 40]⟩
abbrev S1x1x40 : Shape := ⟨3, ![1, 1, 40]⟩
abbrev S4x40 : Shape := ⟨2, ![4, 40]⟩

abbrev nBuf : Space → Nat
  | .hbm => 59
  | .vmem => 0
  | .smem => 0
  | _ => 0

abbrev bufTy : (tb : Table) → Fin (tcTables nBuf tb) → BufTy
  | .hbm, ⟨0, _⟩ => ⟨S4x512x3, .f32⟩
  | .hbm, ⟨1, _⟩ => ⟨S64x6, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x512, .f32⟩
  | .hbm, ⟨10, _⟩ => ⟨S256, .f32⟩
  | .hbm, ⟨11, _⟩ => ⟨S40x256, .f32⟩
  | .hbm, ⟨12, _⟩ => ⟨S40, .f32⟩
  | .hbm, ⟨13, _⟩ => ⟨S4x4x128x3, .f32⟩
  | .hbm, ⟨14, _⟩ => ⟨S4x4x1x128x3, .f32⟩
  | .hbm, ⟨15, _⟩ => ⟨S4x4x128x128x3, .f32⟩
  | .hbm, ⟨16, _⟩ => ⟨S4x4x128x1x3, .f32⟩
  | .hbm, ⟨17, _⟩ => ⟨S4x4x128x128x3, .f32⟩
  | .hbm, ⟨18, _⟩ => ⟨S4x4x128x128x6, .f32⟩
  | .hbm, ⟨19, _⟩ => ⟨S4x4x128x128x64, .f32⟩
  | .hbm, ⟨20, _⟩ => ⟨S1x1x1x1x64, .f32⟩
  | .hbm, ⟨21, _⟩ => ⟨S4x4x128x128x64, .f32⟩
  | .hbm, ⟨22, _⟩ => ⟨S4x4x128x128x64, .f32⟩
  | .hbm, ⟨23, _⟩ => ⟨S_, .f32⟩
  | .hbm, ⟨24, _⟩ => ⟨S4x4x128x128x64, .f32⟩
  | .hbm, ⟨25, _⟩ => ⟨S4x4x128x128x64, .f32⟩
  | .hbm, ⟨26, _⟩ => ⟨S4x4x128x128x128, .f32⟩
  | .hbm, ⟨27, _⟩ => ⟨S1x1x1x1x128, .f32⟩
  | .hbm, ⟨28, _⟩ => ⟨S4x4x128x128x128, .f32⟩
  | .hbm, ⟨29, _⟩ => ⟨S4x4x128x128x128, .f32⟩
  | .hbm, ⟨30, _⟩ => ⟨S_, .f32⟩
  | .hbm, ⟨31, _⟩ => ⟨S4x4x128x128x128, .f32⟩
  | .hbm, ⟨32, _⟩ => ⟨S4x4x128x128x128, .f32⟩
  | .hbm, ⟨33, _⟩ => ⟨S4x4x128x128x256, .f32⟩
  | .hbm, ⟨34, _⟩ => ⟨S1x1x1x1x256, .f32⟩
  | .hbm, ⟨35, _⟩ => ⟨S4x4x128x128x256, .f32⟩
  | .hbm, ⟨36, _⟩ => ⟨S4x4x128x128x256, .f32⟩
  | .hbm, ⟨37, _⟩ => ⟨S_, .f32⟩
  | .hbm, ⟨38, _⟩ => ⟨S4x4x256, .f32⟩
  | .hbm, ⟨39, _⟩ => ⟨S4x4x512, .f32⟩
  | .hbm, ⟨40, _⟩ => ⟨S1x1x512, .f32⟩
  | .hbm, ⟨41, _⟩ => ⟨S4x4x512, .f32⟩
  | .hbm, ⟨42, _⟩ => ⟨S4x4x512, .f32⟩
  | .hbm, ⟨43, _⟩ => ⟨S_, .f32⟩
  | .hbm, ⟨44, _⟩ => ⟨S4x4x512, .f32⟩
  | .hbm, ⟨45, _⟩ => ⟨S4x4x512, .f32⟩
  | .hbm, ⟨46, _⟩ => ⟨S4x4x256, .f32⟩
  | .hbm, ⟨47, _⟩ => ⟨S1x1x256, .f32⟩
  | .hbm, ⟨48, _⟩ => ⟨S4x4x256, .f32⟩
  | .hbm, ⟨49, _⟩ => ⟨S4x4x256, .f32⟩
  | .hbm, ⟨50, _⟩ => ⟨S_, .f32⟩
  | .hbm, ⟨51, _⟩ => ⟨S4x4x256, .f32⟩
  | .hbm, ⟨52, _⟩ => ⟨S4x4x256, .f32⟩
  | .hbm, ⟨53, _⟩ => ⟨S4x4x40, .f32⟩
  | .hbm, ⟨54, _⟩ => ⟨S1x1x40, .f32⟩
  | .hbm, ⟨55, _⟩ => ⟨S4x4x40, .f32⟩
  | .hbm, ⟨56, _⟩ => ⟨S4x4x40, .f32⟩
  | .hbm, ⟨57, _⟩ => ⟨S_, .f32⟩
  | .hbm, ⟨58, _⟩ => ⟨S4x40, .f32⟩
  | _, _ => ⟨S4x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call3_cst : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_0 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  shapeCasts_S4x512x3_S4x4x128x3 : S4x512x3.ShapeCasts S4x4x128x3
  bcast_S4x4x128x3_S4x4x1x128x3_0_1_3_4 : S4x4x128x3.BroadcastsInDim S4x4x1x128x3 (![0, 1, 3, 4] : Fin 4 → Fin S4x4x1x128x3.rank)
  bcast_S4x4x1x128x3_S4x4x128x128x3_0_1_2_3_4 : S4x4x1x128x3.BroadcastsInDim S4x4x128x128x3 (![0, 1, 2, 3, 4] : Fin 5 → Fin S4x4x128x128x3.rank)
  bcast_S4x4x128x3_S4x4x128x1x3_0_1_2_4 : S4x4x128x3.BroadcastsInDim S4x4x128x1x3 (![0, 1, 2, 4] : Fin 4 → Fin S4x4x128x1x3.rank)
  bcast_S4x4x128x1x3_S4x4x128x128x3_0_1_2_3_4 : S4x4x128x1x3.BroadcastsInDim S4x4x128x128x3 (![0, 1, 2, 3, 4] : Fin 5 → Fin S4x4x128x128x3.rank)
  concatenates_S4x4x128x128x3_S4x4x128x128x3_S4x4x128x128x6_d4 : Shape.Concatenates [S4x4x128x128x3, S4x4x128x128x3] S4x4x128x128x6 4
  bcast_S64_S1x1x1x1x64_4 : S64.BroadcastsInDim S1x1x1x1x64 (![4] : Fin 1 → Fin S1x1x1x1x64.rank)
  bcast_S1x1x1x1x64_S4x4x128x128x64_0_1_2_3_4 : S1x1x1x1x64.BroadcastsInDim S4x4x128x128x64 (![0, 1, 2, 3, 4] : Fin 5 → Fin S4x4x128x128x64.rank)
  bcast_S_S4x4x128x128x64 : S_.BroadcastsInDim S4x4x128x128x64 (![] : Fin 0 → Fin S4x4x128x128x64.rank)
  bcast_S128_S1x1x1x1x128_4 : S128.BroadcastsInDim S1x1x1x1x128 (![4] : Fin 1 → Fin S1x1x1x1x128.rank)
  bcast_S1x1x1x1x128_S4x4x128x128x128_0_1_2_3_4 : S1x1x1x1x128.BroadcastsInDim S4x4x128x128x128 (![0, 1, 2, 3, 4] : Fin 5 → Fin S4x4x128x128x128.rank)
  bcast_S_S4x4x128x128x128 : S_.BroadcastsInDim S4x4x128x128x128 (![] : Fin 0 → Fin S4x4x128x128x128.rank)
  bcast_S256_S1x1x1x1x256_4 : S256.BroadcastsInDim S1x1x1x1x256 (![4] : Fin 1 → Fin S1x1x1x1x256.rank)
  bcast_S1x1x1x1x256_S4x4x128x128x256_0_1_2_3_4 : S1x1x1x1x256.BroadcastsInDim S4x4x128x128x256 (![0, 1, 2, 3, 4] : Fin 5 → Fin S4x4x128x128x256.rank)
  reducesTo_S4x4x128x128x256_S4x4x256_d2_3 : S4x4x128x128x256.ReducesTo [2, 3] S4x4x256
  h_S_ : 0 < S_.numel
  bcast_S512_S1x1x512_2 : S512.BroadcastsInDim S1x1x512 (![2] : Fin 1 → Fin S1x1x512.rank)
  bcast_S1x1x512_S4x4x512_0_1_2 : S1x1x512.BroadcastsInDim S4x4x512 (![0, 1, 2] : Fin 3 → Fin S4x4x512.rank)
  bcast_S_S4x4x512 : S_.BroadcastsInDim S4x4x512 (![] : Fin 0 → Fin S4x4x512.rank)
  bcast_S256_S1x1x256_2 : S256.BroadcastsInDim S1x1x256 (![2] : Fin 1 → Fin S1x1x256.rank)
  bcast_S1x1x256_S4x4x256_0_1_2 : S1x1x256.BroadcastsInDim S4x4x256 (![0, 1, 2] : Fin 3 → Fin S4x4x256.rank)
  bcast_S_S4x4x256 : S_.BroadcastsInDim S4x4x256 (![] : Fin 0 → Fin S4x4x256.rank)
  bcast_S40_S1x1x40_2 : S40.BroadcastsInDim S1x1x40 (![2] : Fin 1 → Fin S1x1x40.rank)
  bcast_S1x1x40_S4x4x40_0_1_2 : S1x1x40.BroadcastsInDim S4x4x40 (![0, 1, 2] : Fin 3 → Fin S4x4x40.rank)
  reducesTo_S4x4x40_S4x40_d1 : S4x4x40.ReducesTo [1] S4x40
  dot_S4x4x128x128x6_S64x6_S4x4x128x128x64_4_1_0123_0_n_n_wf : DotDims.WF S4x4x128x128x6 S64x6 S4x4x128x128x64 [4] [1] [0, 1, 2, 3] [0] [] []
  dot_S4x4x128x128x64_S128x64_S4x4x128x128x128_4_1_0123_0_n_n_wf : DotDims.WF S4x4x128x128x64 S128x64 S4x4x128x128x128 [4] [1] [0, 1, 2, 3] [0] [] []
  dot_S4x4x128x128x128_S256x128_S4x4x128x128x256_4_1_0123_0_n_n_wf : DotDims.WF S4x4x128x128x128 S256x128 S4x4x128x128x256 [4] [1] [0, 1, 2, 3] [0] [] []
  dot_S4x4x256_S512x256_S4x4x512_2_1_01_0_n_n_wf : DotDims.WF S4x4x256 S512x256 S4x4x512 [2] [1] [0, 1] [0] [] []
  dot_S4x4x512_S256x512_S4x4x256_2_1_01_0_n_n_wf : DotDims.WF S4x4x512 S256x512 S4x4x256 [2] [1] [0, 1] [0] [] []
  dot_S4x4x256_S40x256_S4x4x40_2_1_01_0_n_n_wf : DotDims.WF S4x4x256 S40x256 S4x4x40 [2] [1] [0, 1] [0] [] []

variable [Facts₀]

def dot_S4x4x128x128x6_S64x6_S4x4x128x128x64_4_1_0123_0_n_n : DotDims S4x4x128x128x6 S64x6 S4x4x128x128x64 where
  lhsContracting := [4]
  rhsContracting := [1]
  lhsNonContracting := [0, 1, 2, 3]
  rhsNonContracting := [0]
  lhsBatch := []
  rhsBatch := []
  wf := dot_S4x4x128x128x6_S64x6_S4x4x128x128x64_4_1_0123_0_n_n_wf
def dot_S4x4x128x128x64_S128x64_S4x4x128x128x128_4_1_0123_0_n_n : DotDims S4x4x128x128x64 S128x64 S4x4x128x128x128 where
  lhsContracting := [4]
  rhsContracting := [1]
  lhsNonContracting := [0, 1, 2, 3]
  rhsNonContracting := [0]
  lhsBatch := []
  rhsBatch := []
  wf := dot_S4x4x128x128x64_S128x64_S4x4x128x128x128_4_1_0123_0_n_n_wf
def dot_S4x4x128x128x128_S256x128_S4x4x128x128x256_4_1_0123_0_n_n : DotDims S4x4x128x128x128 S256x128 S4x4x128x128x256 where
  lhsContracting := [4]
  rhsContracting := [1]
  lhsNonContracting := [0, 1, 2, 3]
  rhsNonContracting := [0]
  lhsBatch := []
  rhsBatch := []
  wf := dot_S4x4x128x128x128_S256x128_S4x4x128x128x256_4_1_0123_0_n_n_wf
def dot_S4x4x256_S512x256_S4x4x512_2_1_01_0_n_n : DotDims S4x4x256 S512x256 S4x4x512 where
  lhsContracting := [2]
  rhsContracting := [1]
  lhsNonContracting := [0, 1]
  rhsNonContracting := [0]
  lhsBatch := []
  rhsBatch := []
  wf := dot_S4x4x256_S512x256_S4x4x512_2_1_01_0_n_n_wf
def dot_S4x4x512_S256x512_S4x4x256_2_1_01_0_n_n : DotDims S4x4x512 S256x512 S4x4x256 where
  lhsContracting := [2]
  rhsContracting := [1]
  lhsNonContracting := [0, 1]
  rhsNonContracting := [0]
  lhsBatch := []
  rhsBatch := []
  wf := dot_S4x4x512_S256x512_S4x4x256_2_1_01_0_n_n_wf
def dot_S4x4x256_S40x256_S4x4x40_2_1_01_0_n_n : DotDims S4x4x256 S40x256 S4x4x40 where
  lhsContracting := [2]
  rhsContracting := [1]
  lhsNonContracting := [0, 1]
  rhsNonContracting := [0]
  lhsBatch := []
  rhsBatch := []
  wf := dot_S4x4x256_S40x256_S4x4x40_2_1_01_0_n_n_wf

class Facts : Prop extends Facts₀ where

variable [Facts]
-- ==== Proof.Bits.Base.lean ====
/-
  What every module of the frame proof is stated over: the resource algebra, the buffer contents at the
  region's entry (after the two reshapes of the point cloud), @main as host lines around the one region,
  a window's block at a grid point, the two branch conditions of the body in closed form over the
  16 × 8 grid (the first and the last chunk of an instance), where the result window is idle and where
  it is written back, and names for the staging memrefs the pipeline passes at a point.
-/
import proofs.«118771_j73547019976967_1_alg».proof.Proof.Gen.Kernel.Launch
import proofs.«118771_j73547019976967_1_alg».proof.Proof.Gen.Kernel.Skeleton
import proofs.«118771_j73547019976967_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the three host lines after it, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [_] from hostOps0_sub)
    (show List.Forall _ [_] from hostOps0_fresh) main_chain

/-! ## A window's block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body, over the grid -/

/-- The body resets the running maximum: the chunk is an instance's first. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The body runs the head network and stores the result block: the chunk is an instance's last. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The result window is idle exactly off an instance's last chunk, and is not written back there. -/
theorem idle_res : ∀ t : Fin cfg0.N, ¬isLast (grid0.coords t) → cfg0.idle 14 (grid0.coords t) = true := by decide +kernel
theorem live_res : ∀ t : Fin cfg0.N, isLast (grid0.coords t) → cfg0.idle 14 (grid0.coords t) = false := by decide +kernel
theorem noFlush_res : ∀ t : Fin cfg0.N, ¬isLast (grid0.coords t) → (cfg0.win 14).flush t = false := by decide +kernel

/-! ## The memrefs the body is called with -/

/-- The scratch holding the running maximum, a whole scoped buffer. -/
abbrev scM : Memref sig .tc .vmem S256x1 .f32 := Memref.whole cc0_scratch0

/-- The region invariant of a body that names no scratch contents: the scratch at anything, the generator register at any state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Net

end
-- ==== Proof.Bits.Blocks.lean ====
/-
  The input blocks of a grid point under the literal vector types the body loads them at, the running
  maximum the scratch holds after each point, and the result block an instance's last chunk stores:
  pure terms over the blocks, at any float instance.
-/
import proofs.«118771_j73547019976967_1_alg».proof.Proof.Bits.Base

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

/-- All 128 points of the instance (the pair's second member ranges over them). -/
abbrev ptsAt (c : Dev nD) (t : Fin cfg0.N) : Vec F S1x128x3 .f32 := iblk m c 0 t
/-- The 16 points of this chunk (the pair's first member). -/
abbrev chunkAt (c : Dev nD) (t : Fin cfg0.N) : Vec F S1x16x3 .f32 := iblk m c 1 t
abbrev w1At (c : Dev nD) (t : Fin cfg0.N) : Vec F S64x6 .f32 := iblk m c 2 t
abbrev b1At (c : Dev nD) (t : Fin cfg0.N) : Vec F S64 .f32 := iblk m c 3 t
abbrev w2At (c : Dev nD) (t : Fin cfg0.N) : Vec F S128x64 .f32 := iblk m c 4 t
abbrev b2At (c : Dev nD) (t : Fin cfg0.N) : Vec F S128 .f32 := iblk m c 5 t
abbrev w3At (c : Dev nD) (t : Fin cfg0.N) : Vec F S256x128 .f32 := iblk m c 6 t
abbrev b3At (c : Dev nD) (t : Fin cfg0.N) : Vec F S256 .f32 := iblk m c 7 t
abbrev v1At (c : Dev nD) (t : Fin cfg0.N) : Vec F S512x256 .f32 := iblk m c 8 t
abbrev c1At (c : Dev nD) (t : Fin cfg0.N) : Vec F S512 .f32 := iblk m c 9 t
abbrev v2At (c : Dev nD) (t : Fin cfg0.N) : Vec F S256x512 .f32 := iblk m c 10 t
abbrev c2At (c : Dev nD) (t : Fin cfg0.N) : Vec F S256 .f32 := iblk m c 11 t
abbrev v3At (c : Dev nD) (t : Fin cfg0.N) : Vec F S40x256 .f32 := iblk m c 12 t
abbrev c3At (c : Dev nD) (t : Fin cfg0.N) : Vec F S40 .f32 := iblk m c 13 t

/-! ## What the body computes at a point -/

/-- The chunk's third-layer activations before the bias: 256 channels × (16 · 128) pairs. -/
abbrev pairActs (c : Dev nD) (t : Fin cfg0.N) : FVec F S256x2048 .f32 :=
  k0_pay4 (ptsAt m c t) (chunkAt m c t) (w1At m c t) (b1At m c t) (w2At m c t) (b2At m c t) (w3At m c t)

/-- THE RUNNING MAXIMUM: what the scratch holds after the body at position `n` — the chunk's per-channel maximum
    joined with what the point before left, or with −∞ at an instance's first chunk. -/
def accAt (c : Dev nD) : (n : ℕ) → n < cfg0.N → Vec F S256x1 .f32
  | 0, hn => k0_pay2 (pairActs m c ⟨0, hn⟩) (b3At m c ⟨0, hn⟩) (k0_pay1 (F := F))
  | n + 1, hn => k0_pay2 (pairActs m c ⟨n + 1, hn⟩) (b3At m c ⟨n + 1, hn⟩)
      (if (n + 1) % 8 = 0 then (k0_pay1 (F := F)) else accAt c n (Nat.lt_of_succ_lt hn))

/-- At an instance's first chunk the maximum restarts from −∞. -/
theorem accAt_first (c : Dev nD) (t : Fin cfg0.N) (h : t.val % 8 = 0) :
    accAt m c t.val t.isLt = k0_pay2 (pairActs m c t) (b3At m c t) (k0_pay1 (F := F)) := by
  obtain ⟨n, hn⟩ := t
  cases n with
  | zero => rfl
  | succ n => show k0_pay2 _ _ (if (n + 1) % 8 = 0 then _ else _) = _; rw [if_pos h]

/-- At any other chunk it continues from what the point before left. -/
theorem accAt_next (c : Dev nD) (t : Fin cfg0.N) (h : ¬t.val % 8 = 0) :
    accAt m c t.val t.isLt = k0_pay2 (pairActs m c t) (b3At m c t) (accAt m c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 8 = 0 then _ else _) = _; rw [if_neg h]; rfl

/-- The result block an instance's last chunk stores: the head network on the finished maximum. -/
def headAt (c : Dev nD) (t : Fin cfg0.N) : Vec F S1x1x40 .f32 :=
  k0_pay3 (accAt m c t.val t.isLt) (v1At m c t) (c1At m c t) (v2At m c t) (c2At m c t) (v3At m c t) (c3At m c t)

end Cert.Kernel.Net

end
-- ==== Proof.Bits.Body.lean ====
/-
  The body of the kernel, run once per control case on whole staging memrefs: an instance's first chunk
  (the running maximum restarts from −∞), a middle chunk (it continues from what the scratch holds), and the last
  chunk (it continues, and the head network's result is stored into the result window). Each run hands the
  fourteen input buffers back as it found them and names what it leaves in the scratch, and in the result
  buffer where it stores one, by the body's own pure terms over the loaded blocks.
-/
import proofs.«118771_j73547019976967_1_alg».proof.Proof.Bits.Base
import Idealize.ShloMosaic.Lib.Pipeline.Value

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, however the zeros are spelt. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer whose LAST store went through the whole-shape rectangle at zero offsets reads as that store's
    payload, whatever was stored before and whatever the buffer held. -/
private theorem read_writes_whole_last {Val : EltTy → Type} [∀ e, Nonempty (Val e)] {sig' : RefSig} {κ : Kind} {sp : Space}
    {S : Shape} {e : EltTy} (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

variable (m : (ℓ : Loc nD τ sig) → Buf (Elt F) ℓ) (ρ : Dev nD → PrngReg)

set_option maxHeartbeats 4000000 in
/-- An instance's FIRST chunk: the scratch, at anything, ends at this chunk's maximum joined with −∞; the result
    buffer is handed back untouched. -/
theorem run_first (c : Dev nD) (i : grid0.Coords) (a2 : Memref sig .tc .vmem S1x128x3 .f32) (ha2 : a2.IsWhole) (a3 : Memref sig .tc .vmem S1x16x3 .f32) (ha3 : a3.IsWhole) (a4 : Memref sig .tc .vmem S64x6 .f32) (ha4 : a4.IsWhole) (a5 : Memref sig .tc .vmem S64 .f32) (ha5 : a5.IsWhole) (a6 : Memref sig .tc .vmem S128x64 .f32) (ha6 : a6.IsWhole) (a7 : Memref sig .tc .vmem S128 .f32) (ha7 : a7.IsWhole) (a8 : Memref sig .tc .vmem S256x128 .f32) (ha8 : a8.IsWhole) (a9 : Memref sig .tc .vmem S256 .f32) (ha9 : a9.IsWhole) (a10 : Memref sig .tc .vmem S512x256 .f32) (ha10 : a10.IsWhole) (a11 : Memref sig .tc .vmem S512 .f32) (ha11 : a11.IsWhole) (a12 : Memref sig .tc .vmem S256x512 .f32) (ha12 : a12.IsWhole) (a13 : Memref sig .tc .vmem S256 .f32) (ha13 : a13.IsWhole) (a14 : Memref sig .tc .vmem S40x256 .f32) (ha14 : a14.IsWhole) (a15 : Memref sig .tc .vmem S40 .f32) (ha15 : a15.IsWhole) (a16 : Memref sig .tc .vmem S1x1x40 .f32) (ha16 : a16.IsWhole) (a17 : Memref sig .tc .vmem S256x1 .f32) (ha17 : a17.IsWhole)
    (hf : isFirst i) (hl : ¬isLast i) (x0 : Vec F S1x128x3 .f32) (x1 : Vec F S1x16x3 .f32) (w1 : Vec F S64x6 .f32) (b1 : Vec F S64 .f32) (w2 : Vec F S128x64 .f32) (b2 : Vec F S128 .f32) (w3 : Vec F S256x128 .f32) (b3 : Vec F S256 .f32) (v1 : Vec F S512x256 .f32) (c1 : Vec F S512 .f32) (v2 : Vec F S256x512 .f32) (c2 : Vec F S256 .f32) (v3 : Vec F S40x256 .f32) (c3 : Vec F S40 .f32) (xo : Vec F S1x1x40 .f32) (E : Set ℕ) (K : PUnit → sProp 𝕄) :
    iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo ∗ (∃ d, owns (c : Thread nD τ) a17 fullShare d)
        ∗ (iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo
            ∗ owns (c : Thread nD τ) a17 fullShare (k0_pay2 (k0_pay4 x0 x1 w1 b1 w2 b2 w3) b3 (k0_pay1 (F := F)))) -∗ K ⟨⟩))
      ⊢ wp frame (wpE (defs₀ (F := F)) Variants.none c none) E (cc0__kernel i a2 ha2 a3 ha3 a4 ha4 a5 ha5 a6 ha6 a7 ha7 a8 ha8 a9 ha9 a10 ha10 a11 ha11 a12 ha12 a13 ha13 a14 ha14 a15 ha15 a16 ha16 a17 ha17) K := by
  -- the body is its sequence of memory operations over the named payloads; each buffer is opened at the raw
  -- contents that read as the stated value
  simp only [cc0__kernel_eq_skeleton]; unfold cc0__kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11; obtain rfl := ha12.eq_unread hf12; obtain rfl := ha13.eq_unread hf13; obtain rfl := ha14.eq_unread hf14; obtain rfl := ha15.eq_unread hf15; obtain rfl := ha16.eq_unread hf16
  sl_exec (disch := first | exact hf | exact hl)
  sl_step
  iapply Hk
  -- the buffers that were only loaded are handed back as found
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  -- the scratch is stored whole twice and the last store wins; the value loaded between the two stores is
  -- the first store's payload, −∞ everywhere
  iexists _; isplitr [H17]
  swap
  · iexact H17
  · ipureintro
    refine (read_writes_whole_last _ _ hz2 _ _ _).trans ?_
    sl_unfold_words
    simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]

set_option maxHeartbeats 4000000 in
/-- A MIDDLE chunk: the scratch, at `xs`, ends at this chunk's maximum joined with `xs`; the result buffer is
    handed back untouched. -/
theorem run_mid (c : Dev nD) (i : grid0.Coords) (a2 : Memref sig .tc .vmem S1x128x3 .f32) (ha2 : a2.IsWhole) (a3 : Memref sig .tc .vmem S1x16x3 .f32) (ha3 : a3.IsWhole) (a4 : Memref sig .tc .vmem S64x6 .f32) (ha4 : a4.IsWhole) (a5 : Memref sig .tc .vmem S64 .f32) (ha5 : a5.IsWhole) (a6 : Memref sig .tc .vmem S128x64 .f32) (ha6 : a6.IsWhole) (a7 : Memref sig .tc .vmem S128 .f32) (ha7 : a7.IsWhole) (a8 : Memref sig .tc .vmem S256x128 .f32) (ha8 : a8.IsWhole) (a9 : Memref sig .tc .vmem S256 .f32) (ha9 : a9.IsWhole) (a10 : Memref sig .tc .vmem S512x256 .f32) (ha10 : a10.IsWhole) (a11 : Memref sig .tc .vmem S512 .f32) (ha11 : a11.IsWhole) (a12 : Memref sig .tc .vmem S256x512 .f32) (ha12 : a12.IsWhole) (a13 : Memref sig .tc .vmem S256 .f32) (ha13 : a13.IsWhole) (a14 : Memref sig .tc .vmem S40x256 .f32) (ha14 : a14.IsWhole) (a15 : Memref sig .tc .vmem S40 .f32) (ha15 : a15.IsWhole) (a16 : Memref sig .tc .vmem S1x1x40 .f32) (ha16 : a16.IsWhole) (a17 : Memref sig .tc .vmem S256x1 .f32) (ha17 : a17.IsWhole)
    (hf : ¬isFirst i) (hl : ¬isLast i) (x0 : Vec F S1x128x3 .f32) (x1 : Vec F S1x16x3 .f32) (w1 : Vec F S64x6 .f32) (b1 : Vec F S64 .f32) (w2 : Vec F S128x64 .f32) (b2 : Vec F S128 .f32) (w3 : Vec F S256x128 .f32) (b3 : Vec F S256 .f32) (v1 : Vec F S512x256 .f32) (c1 : Vec F S512 .f32) (v2 : Vec F S256x512 .f32) (c2 : Vec F S256 .f32) (v3 : Vec F S40x256 .f32) (c3 : Vec F S40 .f32) (xo : Vec F S1x1x40 .f32) (xs : Vec F S256x1 .f32) (E : Set ℕ) (K : PUnit → sProp 𝕄) :
    iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo ∗ owns (c : Thread nD τ) a17 fullShare xs
        ∗ (iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo
            ∗ owns (c : Thread nD τ) a17 fullShare (k0_pay2 (k0_pay4 x0 x1 w1 b1 w2 b2 w3) b3 xs)) -∗ K ⟨⟩))
      ⊢ wp frame (wpE (defs₀ (F := F)) Variants.none c none) E (cc0__kernel i a2 ha2 a3 ha3 a4 ha4 a5 ha5 a6 ha6 a7 ha7 a8 ha8 a9 ha9 a10 ha10 a11 ha11 a12 ha12 a13 ha13 a14 ha14 a15 ha15 a16 ha16 a17 ha17) K := by
  -- the body is its sequence of memory operations over the named payloads; each buffer is opened at the raw
  -- contents that read as the stated value
  simp only [cc0__kernel_eq_skeleton]; unfold cc0__kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11; obtain rfl := ha12.eq_unread hf12; obtain rfl := ha13.eq_unread hf13; obtain rfl := ha14.eq_unread hf14; obtain rfl := ha15.eq_unread hf15; obtain rfl := ha16.eq_unread hf16; obtain rfl := ha17.eq_unread hf17
  sl_exec (disch := first | exact hf | exact hl)
  sl_step
  iapply Hk
  -- the buffers that were only loaded are handed back as found
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  -- the scratch: its one whole-buffer store is the running maximum joined with this chunk's
  iexists _; isplitr [H17]
  swap
  · iexact H17
  · ipureintro
    refine (read_writes_whole_last _ _ hz2 _ _ _).trans ?_
    sl_unfold_words
    simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]

set_option maxHeartbeats 4000000 in
/-- An instance's LAST chunk: the scratch, at `xs`, ends at the finished maximum, and the result buffer, at
    anything, at the head network's value on it. -/
theorem run_last (c : Dev nD) (i : grid0.Coords) (a2 : Memref sig .tc .vmem S1x128x3 .f32) (ha2 : a2.IsWhole) (a3 : Memref sig .tc .vmem S1x16x3 .f32) (ha3 : a3.IsWhole) (a4 : Memref sig .tc .vmem S64x6 .f32) (ha4 : a4.IsWhole) (a5 : Memref sig .tc .vmem S64 .f32) (ha5 : a5.IsWhole) (a6 : Memref sig .tc .vmem S128x64 .f32) (ha6 : a6.IsWhole) (a7 : Memref sig .tc .vmem S128 .f32) (ha7 : a7.IsWhole) (a8 : Memref sig .tc .vmem S256x128 .f32) (ha8 : a8.IsWhole) (a9 : Memref sig .tc .vmem S256 .f32) (ha9 : a9.IsWhole) (a10 : Memref sig .tc .vmem S512x256 .f32) (ha10 : a10.IsWhole) (a11 : Memref sig .tc .vmem S512 .f32) (ha11 : a11.IsWhole) (a12 : Memref sig .tc .vmem S256x512 .f32) (ha12 : a12.IsWhole) (a13 : Memref sig .tc .vmem S256 .f32) (ha13 : a13.IsWhole) (a14 : Memref sig .tc .vmem S40x256 .f32) (ha14 : a14.IsWhole) (a15 : Memref sig .tc .vmem S40 .f32) (ha15 : a15.IsWhole) (a16 : Memref sig .tc .vmem S1x1x40 .f32) (ha16 : a16.IsWhole) (a17 : Memref sig .tc .vmem S256x1 .f32) (ha17 : a17.IsWhole)
    (hf : ¬isFirst i) (hl : isLast i) (x0 : Vec F S1x128x3 .f32) (x1 : Vec F S1x16x3 .f32) (w1 : Vec F S64x6 .f32) (b1 : Vec F S64 .f32) (w2 : Vec F S128x64 .f32) (b2 : Vec F S128 .f32) (w3 : Vec F S256x128 .f32) (b3 : Vec F S256 .f32) (v1 : Vec F S512x256 .f32) (c1 : Vec F S512 .f32) (v2 : Vec F S256x512 .f32) (c2 : Vec F S256 .f32) (v3 : Vec F S40x256 .f32) (c3 : Vec F S40 .f32) (xs : Vec F S256x1 .f32) (E : Set ℕ) (K : PUnit → sProp 𝕄) :
    iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ (∃ d, owns (c : Thread nD τ) a16 fullShare d) ∗ owns (c : Thread nD τ) a17 fullShare xs
        ∗ (iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3
            ∗ owns (c : Thread nD τ) a16 fullShare (k0_pay3 (k0_pay2 (k0_pay4 x0 x1 w1 b1 w2 b2 w3) b3 xs) v1 c1 v2 c2 v3 c3)
            ∗ owns (c : Thread nD τ) a17 fullShare (k0_pay2 (k0_pay4 x0 x1 w1 b1 w2 b2 w3) b3 xs)) -∗ K ⟨⟩))
      ⊢ wp frame (wpE (defs₀ (F := F)) Variants.none c none) E (cc0__kernel i a2 ha2 a3 ha3 a4 ha4 a5 ha5 a6 ha6 a7 ha7 a8 ha8 a9 ha9 a10 ha10 a11 ha11 a12 ha12 a13 ha13 a14 ha14 a15 ha15 a16 ha16 a17 ha17) K := by
  -- the body is its sequence of memory operations over the named payloads; each buffer is opened at the raw
  -- contents that read as the stated value
  simp only [cc0__kernel_eq_skeleton]; unfold cc0__kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11; obtain rfl := ha12.eq_unread hf12; obtain rfl := ha13.eq_unread hf13; obtain rfl := ha14.eq_unread hf14; obtain rfl := ha15.eq_unread hf15; obtain rfl := ha17.eq_unread hf17
  sl_exec (disch := first | exact hf | exact hl)
  sl_step
  iapply Hk
  -- the buffers that were only loaded are handed back as found
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  -- the result buffer: one whole-buffer store of the head network's value on the scratch as loaded back
  -- after its store, which is that store's payload
  isplitl [H16]
  · iexists _; isplitr [H16]
    swap
    · iexact H16
    · ipureintro
      refine (read_writes_whole_last _ _ hz3 _ _ _).trans ?_
      sl_unfold_words
      simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]
  -- the scratch: its one whole-buffer store is the running maximum joined with this chunk's
  iexists _; isplitr [H17]
  swap
  · iexact H17
  · ipureintro
    refine (read_writes_whole_last _ _ hz2 _ _ _).trans ?_
    sl_unfold_words
    simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]

end Cert.Kernel.Net

end
-- ==== Proof.Bits.Data.lean ====
/-
  The proof data of the one pipeline: each array as the region finds it; after the body each input buffer at
  its block, the result buffer at the head network's value on the finished maximum (consulted only at an
  instance's last chunk: elsewhere the window is idle and its buffer is handed back as found); the invariant
  carrying the scratch at the running maximum the point before left; the point cloud's array, which two windows
  read, held half by each; nothing owed. Then the body obligation at every point, from the three runs.
-/
import proofs.«118771_j73547019976967_1_alg».proof.Proof.Bits.Blocks
import proofs.«118771_j73547019976967_1_alg».proof.Proof.Bits.Body

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant: the scratch at the running maximum -/

/-- Before the first point the scratch holds anything; before position `n + 1`, what position `n` left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => headAt m c t
  Φ t := PhiS m c t.val (Nat.le_of_lt_succ t.isLt)
  q w := match w with
    | ⟨0, _⟩ => fullShare.left
    | ⟨1, _⟩ => fullShare.right
    | ⟨2, _⟩ => fullShare | ⟨3, _⟩ => fullShare | ⟨4, _⟩ => fullShare | ⟨5, _⟩ => fullShare | ⟨6, _⟩ => fullShare
    | ⟨7, _⟩ => fullShare | ⟨8, _⟩ => fullShare | ⟨9, _⟩ => fullShare | ⟨10, _⟩ => fullShare | ⟨11, _⟩ => fullShare
    | ⟨12, _⟩ => fullShare | ⟨13, _⟩ => fullShare | ⟨14, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

/-! ## What the body leaves, and finds, window by window -/

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_in12 (c : Dev nD) (t : Fin cfg0.N) : (dats m 0 c).after 12 t = iblk m c 12 t := by dsimp only [dats]
theorem after_in13 (c : Dev nD) (t : Fin cfg0.N) : (dats m 0 c).after 13 t = iblk m c 13 t := by dsimp only [dats]
theorem after_res (c : Dev nD) (t : Fin cfg0.N) : (dats m 0 c).after 14 t = headAt m c t := by dsimp only [dats]

/-- Each input's current staging buffer holds its block at every point, fetched there or not: the window is
    uncut, never idle, and the body leaves the block in place. -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl)
    (fun t => by rw [after_in6]; unfold Dat.blockOf iblk; rw [A_eq]; try rfl) t d).trans
    (by unfold Dat.fetched Dat.blockOf iblk; rw [A_eq]; try rfl)
theorem before_in7 (c : Dev nD) (t : Fin cfg0.N) (d) : (dats m 0 c).before 7 t d = iblk m c 7 t :=
  ((dats m 0 c).before_in_eq_fetched 7 rfl (fun _ => rfl) (fun _ _ _ => rfl)
    (fun t => by rw [after_in7]; unfold Dat.blockOf iblk; rw [A_eq]; try rfl) t d).trans
    (by unfold Dat.fetched Dat.blockOf iblk; rw [A_eq]; try rfl)
theorem before_in8 (c : Dev nD) (t : Fin cfg0.N) (d) : (dats m 0 c).before 8 t d = iblk m c 8 t :=
  ((dats m 0 c).before_in_eq_fetched 8 rfl (fun _ => rfl) (fun _ _ _ => rfl)
    (fun t => by rw [after_in8]; unfold Dat.blockOf iblk; rw [A_eq]; try rfl) t d).trans
    (by unfold Dat.fetched Dat.blockOf iblk; rw [A_eq]; try rfl)
theorem before_in9 (c : Dev nD) (t : Fin cfg0.N) (d) : (dats m 0 c).before 9 t d = iblk m c 9 t :=
  ((dats m 0 c).before_in_eq_fetched 9 rfl (fun _ => rfl) (fun _ _ _ => rfl)
    (fun t => by rw [after_in9]; unfold Dat.blockOf iblk; rw [A_eq]; try rfl) t d).trans
    (by unfold Dat.fetched Dat.blockOf iblk; rw [A_eq]; try rfl)
theorem before_in10 (c : Dev nD) (t : Fin cfg0.N) (d) : (dats m 0 c).before 10 t d = iblk m c 10 t :=
  ((dats m 0 c).before_in_eq_fetched 10 rfl (fun _ => rfl) (fun _ _ _ => rfl)
    (fun t => by rw [after_in10]; unfold Dat.blockOf iblk; rw [A_eq]; try rfl) t d).trans
    (by unfold Dat.fetched Dat.blockOf iblk; rw [A_eq]; try rfl)
theorem before_in11 (c : Dev nD) (t : Fin cfg0.N) (d) : (dats m 0 c).before 11 t d = iblk m c 11 t :=
  ((dats m 0 c).before_in_eq_fetched 11 rfl (fun _ => rfl) (fun _ _ _ => rfl)
    (fun t => by rw [after_in11]; unfold Dat.blockOf iblk; rw [A_eq]; try rfl) t d).trans
    (by unfold Dat.fetched Dat.blockOf iblk; rw [A_eq]; try rfl)
theorem before_in12 (c : Dev nD) (t : Fin cfg0.N) (d) : (dats m 0 c).before 12 t d = iblk m c 12 t :=
  ((dats m 0 c).before_in_eq_fetched 12 rfl (fun _ => rfl) (fun _ _ _ => rfl)
    (fun t => by rw [after_in12]; unfold Dat.blockOf iblk; rw [A_eq]; try rfl) t d).trans
    (by unfold Dat.fetched Dat.blockOf iblk; rw [A_eq]; try rfl)
theorem before_in13 (c : Dev nD) (t : Fin cfg0.N) (d) : (dats m 0 c).before 13 t d = iblk m c 13 t :=
  ((dats m 0 c).before_in_eq_fetched 13 rfl (fun _ => rfl) (fun _ _ _ => rfl)
    (fun t => by rw [after_in13]; unfold Dat.blockOf iblk; rw [A_eq]; try rfl) t d).trans
    (by unfold Dat.fetched Dat.blockOf iblk; rw [A_eq]; try rfl)

/-! ## The memrefs the body is called with at a point -/

/-- Each window's current staging memref at point `t`, and its wholeness. -/
private abbrev ms0 (t : Fin cfg0.N) : Memref sig .tc .vmem S1x128x3 .f32 := win0_0.stage (cfg0.slots t 0)
private abbrev hs0 (t : Fin cfg0.N) : (ms0 t).IsWhole := hstage0_0 ((cfg0.slots t 0).cast nbuf0_0)
private abbrev ms1 (t : Fin cfg0.N) : Memref sig .tc .vmem S1x16x3 .f32 := win0_1.stage (cfg0.slots t 1)
private abbrev hs1 (t : Fin cfg0.N) : (ms1 t).IsWhole := hstage0_1 ((cfg0.slots t 1).cast nbuf0_1)
private abbrev ms2 (t : Fin cfg0.N) : Memref sig .tc .vmem S64x6 .f32 := win0_2.stage (cfg0.slots t 2)
private abbrev hs2 (t : Fin cfg0.N) : (ms2 t).IsWhole := hstage0_2 ((cfg0.slots t 2).cast nbuf0_2)
private abbrev ms3 (t : Fin cfg0.N) : Memref sig .tc .vmem S64 .f32 := win0_3.stage (cfg0.slots t 3)
private abbrev hs3 (t : Fin cfg0.N) : (ms3 t).IsWhole := hstage0_3 ((cfg0.slots t 3).cast nbuf0_3)
private abbrev ms4 (t : Fin cfg0.N) : Memref sig .tc .vmem S128x64 .f32 := win0_4.stage (cfg0.slots t 4)
private abbrev hs4 (t : Fin cfg0.N) : (ms4 t).IsWhole := hstage0_4 ((cfg0.slots t 4).cast nbuf0_4)
private abbrev ms5 (t : Fin cfg0.N) : Memref sig .tc .vmem S128 .f32 := win0_5.stage (cfg0.slots t 5)
private abbrev hs5 (t : Fin cfg0.N) : (ms5 t).IsWhole := hstage0_5 ((cfg0.slots t 5).cast nbuf0_5)
private abbrev ms6 (t : Fin cfg0.N) : Memref sig .tc .vmem S256x128 .f32 := win0_6.stage (cfg0.slots t 6)
private abbrev hs6 (t : Fin cfg0.N) : (ms6 t).IsWhole := hstage0_6 ((cfg0.slots t 6).cast nbuf0_6)
private abbrev ms7 (t : Fin cfg0.N) : Memref sig .tc .vmem S256 .f32 := win0_7.stage (cfg0.slots t 7)
private abbrev hs7 (t : Fin cfg0.N) : (ms7 t).IsWhole := hstage0_7 ((cfg0.slots t 7).cast nbuf0_7)
private abbrev ms8 (t : Fin cfg0.N) : Memref sig .tc .vmem S512x256 .f32 := win0_8.stage (cfg0.slots t 8)
private abbrev hs8 (t : Fin cfg0.N) : (ms8 t).IsWhole := hstage0_8 ((cfg0.slots t 8).cast nbuf0_8)
private abbrev ms9 (t : Fin cfg0.N) : Memref sig .tc .vmem S512 .f32 := win0_9.stage (cfg0.slots t 9)
private abbrev hs9 (t : Fin cfg0.N) : (ms9 t).IsWhole := hstage0_9 ((cfg0.slots t 9).cast nbuf0_9)
private abbrev ms10 (t : Fin cfg0.N) : Memref sig .tc .vmem S256x512 .f32 := win0_10.stage (cfg0.slots t 10)
private abbrev hs10 (t : Fin cfg0.N) : (ms10 t).IsWhole := hstage0_10 ((cfg0.slots t 10).cast nbuf0_10)
private abbrev ms11 (t : Fin cfg0.N) : Memref sig .tc .vmem S256 .f32 := win0_11.stage (cfg0.slots t 11)
private abbrev hs11 (t : Fin cfg0.N) : (ms11 t).IsWhole := hstage0_11 ((cfg0.slots t 11).cast nbuf0_11)
private abbrev ms12 (t : Fin cfg0.N) : Memref sig .tc .vmem S40x256 .f32 := win0_12.stage (cfg0.slots t 12)
private abbrev hs12 (t : Fin cfg0.N) : (ms12 t).IsWhole := hstage0_12 ((cfg0.slots t 12).cast nbuf0_12)
private abbrev ms13 (t : Fin cfg0.N) : Memref sig .tc .vmem S40 .f32 := win0_13.stage (cfg0.slots t 13)
private abbrev hs13 (t : Fin cfg0.N) : (ms13 t).IsWhole := hstage0_13 ((cfg0.slots t 13).cast nbuf0_13)
private abbrev ms14 (t : Fin cfg0.N) : Memref sig .tc .vmem S1x1x40 .f32 := win0_14.stage (cfg0.slots t 14)
private abbrev hs14 (t : Fin cfg0.N) : (ms14 t).IsWhole := hstage0_14 ((cfg0.slots t 14).cast nbuf0_14)

/-- No input window is ever idle. -/
private theorem live_in0 : ∀ t : Fin cfg0.N, cfg0.idle 0 (grid0.coords t) = false := fun _ => rfl
private theorem live_in1 : ∀ t : Fin cfg0.N, cfg0.idle 1 (grid0.coords t) = false := fun _ => rfl
private theorem live_in2 : ∀ t : Fin cfg0.N, cfg0.idle 2 (grid0.coords t) = false := fun _ => rfl
private theorem live_in3 : ∀ t : Fin cfg0.N, cfg0.idle 3 (grid0.coords t) = false := fun _ => rfl
private theorem live_in4 : ∀ t : Fin cfg0.N, cfg0.idle 4 (grid0.coords t) = false := fun _ => rfl
private theorem live_in5 : ∀ t : Fin cfg0.N, cfg0.idle 5 (grid0.coords t) = false := fun _ => rfl
private theorem live_in6 : ∀ t : Fin cfg0.N, cfg0.idle 6 (grid0.coords t) = false := fun _ => rfl
private theorem live_in7 : ∀ t : Fin cfg0.N, cfg0.idle 7 (grid0.coords t) = false := fun _ => rfl
private theorem live_in8 : ∀ t : Fin cfg0.N, cfg0.idle 8 (grid0.coords t) = false := fun _ => rfl
private theorem live_in9 : ∀ t : Fin cfg0.N, cfg0.idle 9 (grid0.coords t) = false := fun _ => rfl
private theorem live_in10 : ∀ t : Fin cfg0.N, cfg0.idle 10 (grid0.coords t) = false := fun _ => rfl
private theorem live_in11 : ∀ t : Fin cfg0.N, cfg0.idle 11 (grid0.coords t) = false := fun _ => rfl
private theorem live_in12 : ∀ t : Fin cfg0.N, cfg0.idle 12 (grid0.coords t) = false := fun _ => rfl
private theorem live_in13 : ∀ t : Fin cfg0.N, cfg0.idle 13 (grid0.coords t) = false := fun _ => rfl

/-- An input window's buffer is handed back at its block. -/
private theorem leaves_in0 (c : Dev nD) (t : Fin cfg0.N) :
    (dats m 0 c).leavesExact 0 t = owns (c : Thread nD τ) (ms0 t) fullShare (iblk m c 0 t) := by
  unfold Dat.leavesExact; rw [live_in0 t, after_in0]
private theorem leaves_in1 (c : Dev nD) (t : Fin cfg0.N) :
    (dats m 0 c).leavesExact 1 t = owns (c : Thread nD τ) (ms1 t) fullShare (iblk m c 1 t) := by
  unfold Dat.leavesExact; rw [live_in1 t, after_in1]
private theorem leaves_in2 (c : Dev nD) (t : Fin cfg0.N) :
    (dats m 0 c).leavesExact 2 t = owns (c : Thread nD τ) (ms2 t) fullShare (iblk m c 2 t) := by
  unfold Dat.leavesExact; rw [live_in2 t, after_in2]
private theorem leaves_in3 (c : Dev nD) (t : Fin cfg0.N) :
    (dats m 0 c).leavesExact 3 t = owns (c : Thread nD τ) (ms3 t) fullShare (iblk m c 3 t) := by
  unfold Dat.leavesExact; rw [live_in3 t, after_in3]
private theorem leaves_in4 (c : Dev nD) (t : Fin cfg0.N) :
    (dats m 0 c).leavesExact 4 t = owns (c : Thread nD τ) (ms4 t) fullShare (iblk m c 4 t) := by
  unfold Dat.leavesExact; rw [live_in4 t, after_in4]
private theorem leaves_in5 (c : Dev nD) (t : Fin cfg0.N) :
    (dats m 0 c).leavesExact 5 t = owns (c : Thread nD τ) (ms5 t) fullShare (iblk m c 5 t) := by
  unfold Dat.leavesExact; rw [live_in5 t, after_in5]
private theorem leaves_in6 (c : Dev nD) (t : Fin cfg0.N) :
    (dats m 0 c).leavesExact 6 t = owns (c : Thread nD τ) (ms6 t) fullShare (iblk m c 6 t) := by
  unfold Dat.leavesExact; rw [live_in6 t, after_in6]
private theorem leaves_in7 (c : Dev nD) (t : Fin cfg0.N) :
    (dats m 0 c).leavesExact 7 t = owns (c : Thread nD τ) (ms7 t) fullShare (iblk m c 7 t) := by
  unfold Dat.leavesExact; rw [live_in7 t, after_in7]
private theorem leaves_in8 (c : Dev nD) (t : Fin cfg0.N) :
    (dats m 0 c).leavesExact 8 t = owns (c : Thread nD τ) (ms8 t) fullShare (iblk m c 8 t) := by
  unfold Dat.leavesExact; rw [live_in8 t, after_in8]
private theorem leaves_in9 (c : Dev nD) (t : Fin cfg0.N) :
    (dats m 0 c).leavesExact 9 t = owns (c : Thread nD τ) (ms9 t) fullShare (iblk m c 9 t) := by
  unfold Dat.leavesExact; rw [live_in9 t, after_in9]
private theorem leaves_in10 (c : Dev nD) (t : Fin cfg0.N) :
    (dats m 0 c).leavesExact 10 t = owns (c : Thread nD τ) (ms10 t) fullShare (iblk m c 10 t) := by
  unfold Dat.leavesExact; rw [live_in10 t, after_in10]
private theorem leaves_in11 (c : Dev nD) (t : Fin cfg0.N) :
    (dats m 0 c).leavesExact 11 t = owns (c : Thread nD τ) (ms11 t) fullShare (iblk m c 11 t) := by
  unfold Dat.leavesExact; rw [live_in11 t, after_in11]
private theorem leaves_in12 (c : Dev nD) (t : Fin cfg0.N) :
    (dats m 0 c).leavesExact 12 t = owns (c : Thread nD τ) (ms12 t) fullShare (iblk m c 12 t) := by
  unfold Dat.leavesExact; rw [live_in12 t, after_in12]
private theorem leaves_in13 (c : Dev nD) (t : Fin cfg0.N) :
    (dats m 0 c).leavesExact 13 t = owns (c : Thread nD τ) (ms13 t) fullShare (iblk m c 13 t) := by
  unfold Dat.leavesExact; rw [live_in13 t, after_in13]

/-! ## The body obligation -/

/-- What the body is called with at point `t`: the invariant, what the core owes, and the windows' current buffers one by one, -/
private def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- An instance's first chunk: the scratch is handed over at whatever it holds and comes back at this chunk's
    maximum joined with −∞; the result window is idle. -/
private theorem sound_first (c : Dev nD) (t : Fin cfg0.N) (h0 : t.val % 8 = 0) : bodyPre m c t ⊢ wp frame (wpE (defs₀ (F := F)) Variants.none c none) Set.univ (bodyAt0 t) (fun _ => bodyPost m c t) := by
  have hf : isFirst (grid0.coords t) := (isFirst_iff t).mpr h0
  have hl : ¬isLast (grid0.coords t) := fun h => by have := (isLast_iff t).mp h; omega
  unfold bodyPre bodyPost bodyAt0
  simp only [before_in0, before_in1, before_in2, before_in3, before_in4, before_in5, before_in6, before_in7, before_in8, before_in9, before_in10, before_in11, before_in12, before_in13]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t, leaves_in7 m c t, leaves_in8 m c t, leaves_in9 m c t, leaves_in10 m c t, leaves_in11 m c t, leaves_in12 m c t, leaves_in13 m c t]
  rw [Dat.leavesExact_idle (dats m 0 c) 14 t (idle_res t hl) (noFlush_res t hl)]
  rw [accAt_first m c t h0]
  by_cases hz : t.val = 0
  · rw [Phi_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) ((dats m 0 c).before 14 t d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists d14; iexact H14
  · rw [Phi_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) ((dats m 0 c).before 14 t d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS]; · iexists _; iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists d14; iexact H14

/-- A middle chunk: the scratch comes at what the point before left and goes back joined with this chunk's
    maximum; the result window is idle. -/
private theorem sound_mid (c : Dev nD) (t : Fin cfg0.N) (h0 : ¬t.val % 8 = 0) (h7 : ¬t.val % 8 = 7) : bodyPre m c t ⊢ wp frame (wpE (defs₀ (F := F)) Variants.none c none) Set.univ (bodyAt0 t) (fun _ => bodyPost m c t) := by
  have hf : ¬isFirst (grid0.coords t) := fun h => h0 ((isFirst_iff t).mp h)
  have hl : ¬isLast (grid0.coords t) := fun h => h7 ((isLast_iff t).mp h)
  have hz : t.val ≠ 0 := fun e => h0 (by rw [e])
  unfold bodyPre bodyPost bodyAt0
  simp only [before_in0, before_in1, before_in2, before_in3, before_in4, before_in5, before_in6, before_in7, before_in8, before_in9, before_in10, before_in11, before_in12, before_in13]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t, leaves_in7 m c t, leaves_in8 m c t, leaves_in9 m c t, leaves_in10 m c t, leaves_in11 m c t, leaves_in12 m c t, leaves_in13 m c t]
  rw [Dat.leavesExact_idle (dats m 0 c) 14 t (idle_res t hl) (noFlush_res t hl)]
  rw [accAt_next m c t h0]
  rw [Phi_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) ((dats m 0 c).before 14 t d14) (accAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d14; iexact H14

/-- An instance's last chunk: the scratch as at a middle chunk; the result buffer, at anything, comes back at the
    head network's value on the finished maximum, which is what the window holds after the body there. -/
private theorem sound_last (c : Dev nD) (t : Fin cfg0.N) (h7 : t.val % 8 = 7) : bodyPre m c t ⊢ wp frame (wpE (defs₀ (F := F)) Variants.none c none) Set.univ (bodyAt0 t) (fun _ => bodyPost m c t) := by
  have h0 : ¬t.val % 8 = 0 := by omega
  have hf : ¬isFirst (grid0.coords t) := fun h => h0 ((isFirst_iff t).mp h)
  have hl : isLast (grid0.coords t) := (isLast_iff t).mpr h7
  have hz : t.val ≠ 0 := fun e => h0 (by rw [e])
  unfold bodyPre bodyPost bodyAt0
  simp only [before_in0, before_in1, before_in2, before_in3, before_in4, before_in5, before_in6, before_in7, before_in8, before_in9, before_in10, before_in11, before_in12, before_in13]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t, leaves_in7 m c t, leaves_in8 m c t, leaves_in9 m c t, leaves_in10 m c t, leaves_in11 m c t, leaves_in12 m c t, leaves_in13 m c t]
  rw [show (dats m 0 c).leavesExact 14 t = owns (c : Thread nD τ) (ms14 t) fullShare (headAt m c t) from by
    unfold Dat.leavesExact; rw [live_res t hl, after_res]]
  unfold headAt
  rw [accAt_next m c t h0]
  rw [Phi_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) (accAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point, by the point's case. -/
private theorem sound_body (c : Dev nD) (t : Fin cfg0.N) : bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h7
    · exact sound_mid m c t h0 h7

/-- The library's body obligation at every point: the point's case from the closed forms of the two conditions,
    that case's run on the point's memrefs, the scratch taken from and handed back to the invariant. -/
theorem body_obligation (c : Dev nD) : BodyObligation (dats (F := F) m 0 c) (defs₀ (F := F)) Variants.none () Set.univ := fun t => by
  rw [bigSep_W0, bigSep_W0]
  exact sound_body m c t

/-! ## The invariant's two ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, Hg⟩
  isplitl [HS0]
  · iexists _; iexact HS0
  iexact Hg

end Cert.Kernel.Net

end
-- ==== Proof.Bits.Split.lean ====
/-
  The buffers behind the windows' arrays, each held whole, make the pipeline's arrays at their entry contents:
  the re-laid point cloud, which the first two windows both read, is split into two halves, one per window;
  every other array is read by one window and is held outright. And the arrays the region only reads end as they
  began, which for the twelve weight and bias arguments is the launch memory.
-/
import proofs.«118771_j73547019976967_1_alg».proof.Proof.Bits.Data
import Idealize.ShloMosaic.Lib.StableHlo.Run

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the last window writes. -/
private theorem isOut_last : ∀ w : Fin cfg0.W, (cfg0.win w).isOut = true → w = 14 := by decide

/-- Every window but the last only reads. -/
private theorem isOut_in : ∀ w : Fin cfg0.W, w.val < 14 → (cfg0.win w).isOut = false := by decide

/-- The share a window's array is held at is the one the proof data name: the writing window's is the full share. -/
private theorem share_eq_q (c : Dev nD) (w : Fin cfg0.W) : (dats m 0 c).share w = (dats m 0 c).q w := by
  unfold Dat.share
  split
  · next h => rw [isOut_last w h]; dsimp only [dats]
  · rfl

/-- Every window's array is a whole buffer, so the arrays at entry are the buffers' points-tos, window by window. -/
private theorem arrays_entry (c : Dev nD) :
    (dats m 0 c).arrays ((dats m 0 c).arrAt · 0)
      = bigSep Finset.univ fun w : Fin 15 =>
          ((((c : Thread nD τ).loc (Pipeline.arrRef spec0 w)) ↦{(dats m 0 c).q w} V m c (Pipeline.arrRef spec0 w)) : sProp 𝕄) := by
  unfold Dat.arrays
  exact bigSep_congr fun w _ => by rw [(arr_whole0 w).set_eq_univ, share_eq_q m c w]; rfl

/-- The fifteen windows read fourteen distinct buffers: the one the first two windows share, the twelve arguments
    read by one window each, and the result. -/
private theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_arg5) ↦{fullShare} W main_arg5)
        ∗ (((c : Thread nD τ).loc main_arg6) ↦{fullShare} W main_arg6) ∗ (((c : Thread nD τ).loc main_arg7) ↦{fullShare} W main_arg7)
        ∗ (((c : Thread nD τ).loc main_arg8) ↦{fullShare} W main_arg8) ∗ (((c : Thread nD τ).loc main_arg9) ↦{fullShare} W main_arg9)
        ∗ (((c : Thread nD τ).loc main_arg10) ↦{fullShare} W main_arg10) ∗ (((c : Thread nD τ).loc main_arg11) ↦{fullShare} W main_arg11)
        ∗ (((c : Thread nD τ).loc main_arg12) ↦{fullShare} W main_arg12) ∗ (((c : Thread nD τ).loc main_v2) ↦{fullShare} W main_v2)) := by
  unfold Pipeline.arrBufs
  exact bigSep_eq_bigSepL_of_eq [main_v1, main_arg1, main_arg2, main_arg3, main_arg4, main_arg5, main_arg6, main_arg7,
    main_arg8, main_arg9, main_arg10, main_arg11, main_arg12, main_v2] (by decide) (by decide) _

/-- The launch's `hsplit`: from the distinct array buffers at `V` to `Dat.arrays` at entry, the shared array split
    by halves between windows 0 and 1. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, bigSep_W0, arrBufs_chain]
  dsimp only [dats]
  iintro ⟨H1, H2, H3, H4, H5, H6, H7, H8, H9, H10, H11, H12, H13, H14⟩
  -- the shared buffer's full share is its left half and its right half, one for each of the first two windows
  ihave H1 := (pointsTo_share (PosShare.mem_left_op_right fullShare)).1 $$ H1
  icases H1 with ⟨Ha, Hb⟩
  isplitl [Ha]; · iexact Ha
  isplitl [Hb]; · iexact Hb
  -- every other buffer goes whole to the one window that holds it
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The host lines before the region write no argument: each argument's entry contents are the launch memory's. -/
theorem V_arg (c : Dev nD) (b : Ref sig .tc)
    (hb : b ∈ ([main_arg0, main_arg1, main_arg2, main_arg3, main_arg4, main_arg5, main_arg6, main_arg7, main_arg8, main_arg9, main_arg10, main_arg11, main_arg12] : List (Ref sig .tc))) :
    V m c b = m ((c : Thread nD τ).loc b) := by
  -- the two reshapes before the region write the two intermediate buffers only, and no argument is one of them
  have hr : b ∉ ([main_v0, main_v1] : List (Ref sig .tc)) := by
    revert b; decide
  have hW : (hostOps0 : List (HloOp τ sig (Elt F))).Forall fun op =>
      op.writes ⊆ (([main_v0, main_v1] : List (Ref sig .tc)).map (Proc.devRef (τ := τ) .tc)).toFinset := by
    simp only [List.Forall, StableHlo.reshape_writes, List.map_cons, List.map_nil, List.toFinset_cons, List.toFinset_nil]
    constructor <;> simp
  show StableHlo.after (List.flatten [hostOps0]) (fun b => m (c, b)) (Proc.devRef .tc b) = _
  simp only [List.flatten_cons, List.flatten_nil, List.append_nil]
  rw [StableHlo.after_of_writes_sub hostOps0 _ hW hr]

/-- An input window's array is never written: after the region it is as the region found it. -/
theorem arr_kept (c : Dev nD) (w : Fin cfg0.W) (hw : w.val < 14) :
    (dats m 0 c).arrAt w cfg0.N = V m c (Pipeline.arrRef spec0 w) := by
  rw [(dats m 0 c).arrAt_in w (isOut_in w hw), A_eq]

end Cert.Kernel.Net

end
-- ==== Proof.Bits.Res.lean ====
/-
  The two arrays the value claim is about: what the region leaves in its result array, and the program's result,
  the host's re-laying of it as [4, 4, 40] reduced by maximum from −∞ over the sub-cloud axis.
-/
import proofs.«118771_j73547019976967_1_alg».proof.Proof.Bits.Data

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region leaves in its result array `[16, 1, 40]`: the write-backs of all 128 points. -/
abbrev resArr (c : Dev nD) : (⟨S16x1x40, .f32⟩ : BufTy).Contents (Elt F) := (dats m 0 c).arrAt 14 cfg0.N

/-- The program's result `[4, 40]`: the region's result re-laid as `[4, 4, 40]` and reduced by maximum, from −∞,
    over the sub-cloud axis. -/
def result (c : Dev nD) : (⟨S4x40, .f32⟩ : BufTy).Contents (Elt F) :=
  Host.reduce FloatOps.maximumf (shapeCast S4x4x40 (resArr m c) shapeCasts_S16x1x40_S4x4x40)
    (constant S_ .f32 0xFF800000#32) reducesTo_S4x4x40_S4x40_d1 h_S_

end Cert.Kernel.Net

end
-- ==== Proof.Bits.Launch.lean ====
/-
  The launch: from a memory with every counter at zero the program runs to the end, nothing faults, the
  thirteen arguments end as they began, and the result array holds the maximum over each cloud's four sub-clouds
  of what the region left in its result array. The region is entered after the two reshapes, its arrays split
  as the shared point cloud asks, and is continued by the three host lines that re-lay and reduce its result.
-/
import proofs.«118771_j73547019976967_1_alg».proof.Proof.Bits.Split
import proofs.«118771_j73547019976967_1_alg».proof.Proof.Bits.Res

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace LaunchAux

/-! ## The buffers when the region is left, and after the three host lines -/

/-- Core `c`'s buffer contents when the region is left: the result array at what the write-backs made of it,
    every other buffer as the region found it. -/
def Wexit (c : Dev nD) : Valuation τ sig (Elt F) := (StableHlo.nullary main_v2 (resArr m c)).result (V0 m c)

/-- Core `c`'s buffer contents after the three host lines that follow the region. -/
def Wend (c : Dev nD) : Valuation τ sig (Elt F) := StableHlo.after hostOps1 (Wexit m c)

/-- The same read at a TensorCore reference. -/
abbrev Vend (c : Dev nD) (b : Ref sig .tc) : Buf (Elt F) ((c : Thread nD τ).loc b) := Wend m c (Proc.devRef .tc b)

theorem Wexit_v2 (c : Dev nD) : Wexit m c (Proc.devRef .tc main_v2) = resArr m c := by
  unfold Wexit; rw [StableHlo.nullary_result]
theorem Wexit_v3 (c : Dev nD) : Wexit m c (Proc.devRef .tc main_v3) = V m c main_v3 := by
  unfold Wexit; rw [StableHlo.nullary_result_ne]; decide
theorem Wexit_cst (c : Dev nD) : Wexit m c (Proc.devRef .tc main_cst) = V m c main_cst := by
  unfold Wexit; rw [StableHlo.nullary_result_ne]; decide
theorem Wexit_v4 (c : Dev nD) : Wexit m c (Proc.devRef .tc main_v4) = V m c main_v4 := by
  unfold Wexit; rw [StableHlo.nullary_result_ne]; decide

/-- The lines leave the region's result array as it was. -/
theorem Wend_v2 (c : Dev nD) : Wend m c (Proc.devRef .tc main_v2) = resArr m c := by
  unfold Wend Wexit; after_results
/-- They write neither the point cloud nor its first re-laying. -/
theorem Wend_arg0 (c : Dev nD) : Wend m c (Proc.devRef .tc main_arg0) = V m c main_arg0 := by
  unfold Wend Wexit; after_results
theorem Wend_v0 (c : Dev nD) : Wend m c (Proc.devRef .tc main_v0) = V m c main_v0 := by
  unfold Wend Wexit; after_results
/-- The last line's buffer ends at the program's result. -/
theorem Wend_v4 (c : Dev nD) : Wend m c (Proc.devRef .tc main_v4) = result m c := by
  unfold Wend Wexit result; after_results; rfl

/-! ## The buffers the three lines touch -/

/-- The region's result array and the three buffers the lines write. -/
def tailRs : Finset (Ref sig .tc) := {main_v2, main_v3, main_cst, main_v4}
/-- The same as device buffers. -/
def tailS : Finset (DevRef τ sig) := tailRs.map ⟨Proc.devRef (sig := sig) .tc, Proc.devRef_injective _⟩

theorem mem_tailS {b : Ref sig .tc} (hb : b ∈ tailRs) : Proc.devRef (τ := τ) .tc b ∈ tailS :=
  Finset.mem_map_of_mem _ hb

/-- The four buffers held at a valuation, one by one. -/
theorem held_tailS (c : Dev nD) (W : Valuation τ sig (Elt F)) :
    (StableHlo.held (c.tc : Thread nD τ) tailS W : sProp 𝕄)
      = iprop((((c : Thread nD τ).loc main_v2) ↦{fullShare} W (Proc.devRef .tc main_v2))
          ∗ (((c : Thread nD τ).loc main_v3) ↦{fullShare} W (Proc.devRef .tc main_v3))
          ∗ (((c : Thread nD τ).loc main_cst) ↦{fullShare} W (Proc.devRef .tc main_cst))
          ∗ (((c : Thread nD τ).loc main_v4) ↦{fullShare} W (Proc.devRef .tc main_v4))) := by
  unfold StableHlo.held tailS tailRs
  rw [bigSep_map, bigSep_insert (by decide), bigSep_insert (by decide), bigSep_insert (by decide), bigSep_singleton]
  rfl

theorem hostOps1_tailS : ∀ op ∈ (hostOps1 : List (HloOp τ sig (Elt F))), op.bufs ⊆ tailS := by
  intro op hop
  simp only [hostOps1, List.mem_cons, List.mem_nil_iff, or_false] at hop
  rcases hop with rfl | rfl | rfl
  · rw [StableHlo.reshape_bufs]
    intro b hb
    simp only [Finset.mem_insert, Finset.mem_singleton] at hb
    rcases hb with rfl | rfl <;> exact mem_tailS (by decide)
  · rw [StableHlo.nullary_bufs]
    intro b hb
    simp only [Finset.mem_singleton] at hb
    rcases hb with rfl; exact mem_tailS (by decide)
  · rw [StableHlo.binary_bufs]
    intro b hb
    simp only [Finset.mem_insert, Finset.mem_singleton] at hb
    rcases hb with rfl | rfl | rfl <;> exact mem_tailS (by decide)

/-! ## The result window's array out of the pipeline's arrays -/

/-- The result window is an output: its array is held at the full share. -/
theorem share_res (c : Dev nD) : (dats m 0 c).share 14 = fullShare := rfl

/-- The input windows' arrays, each at its share. -/
def arrIn (c : Dev nD) (A : (w : Fin cfg0.W) → Buf (Elt F) ((cfg0.win w).arr.view.loc (c.tc : Thread nD τ))) : sProp 𝕄 :=
  bigSep (Finset.univ.erase (14 : Fin cfg0.W)) fun w : Fin cfg0.W =>
    (cfg0.win w).arr.view.loc (c.tc : Thread nD τ) ↦[(cfg0.win w).arr.view.set]{(dats m 0 c).share w} A w

/-- The pipeline's arrays are the result array, a whole buffer at the full share, and the input windows' arrays. -/
theorem arrays_res (c : Dev nD) (A : (w : Fin cfg0.W) → Buf (Elt F) ((cfg0.win w).arr.view.loc (c.tc : Thread nD τ))) :
    ((dats m 0 c).arrays A : sProp 𝕄)
      = iprop((((c : Thread nD τ).loc main_v2) ↦{fullShare} A 14) ∗ arrIn m c A) := by
  unfold Dat.arrays arrIn
  rw [bigSep_univ_split (14 : Fin cfg0.W), (arr_whole0 14).set_eq_univ, share_res]
  rfl

/-! ## Two of the buffers that bypass the region -/

theorem arg0_rest : main_arg0 ∈ (Finset.univ.filter fun b : Ref sig .tc => ¬ b.isScoped) \ Finset.univ.image (Pipeline.arrRef spec0) := by
  decide
theorem v4_rest : main_v4 ∈ (Finset.univ.filter fun b : Ref sig .tc => ¬ b.isScoped) \ Finset.univ.image (Pipeline.arrRef spec0) := by
  decide

/-- The three lines run from the four buffers at the region's exit contents to the same at the contents after them. -/
theorem tail_lines (c : Dev nD) (Q' : PUnit → sProp 𝕄) :
    iprop(boundary (c.tc : Thread nD τ)
        ∗ (((c : Thread nD τ).loc main_v2) ↦{fullShare} resArr m c)
        ∗ (((c : Thread nD τ).loc main_v3) ↦{fullShare} V m c main_v3)
        ∗ (((c : Thread nD τ).loc main_cst) ↦{fullShare} V m c main_cst)
        ∗ (((c : Thread nD τ).loc main_v4) ↦{fullShare} V m c main_v4))
      ⊢ iprop((iprop(boundary (c.tc : Thread nD τ)
            ∗ (((c : Thread nD τ).loc main_v2) ↦{fullShare} resArr m c)
            ∗ (((c : Thread nD τ).loc main_v3) ↦{fullShare} Vend m c main_v3)
            ∗ (((c : Thread nD τ).loc main_cst) ↦{fullShare} Vend m c main_cst)
            ∗ (((c : Thread nD τ).loc main_v4) ↦{fullShare} Vend m c main_v4)) -∗ |={Set.univ}=> Q' ⟨⟩)
        -∗ wp frame (wpE (Pipeline.defs (pcfgs (F := F)) defs₀) (Variants.lift Variants.none) (c.tc : Thread nD τ) none) Set.univ
            (Pipeline.chain [StableHlo.seq hostOps1]) Q') := by
  have hseq := StableHlo.wp_seq (defs := Pipeline.defs (pcfgs (F := F)) defs₀) (Ix := Unit) (Name := ℕ) (U := UR sig nD τ) (Lvl := ℕ)
    (Variants.lift Variants.none) none Set.univ c tailS (fun _ => Pipeline.chain []) (K := Q') hostOps1 hostOps1_tailS
    (fun op hop => (List.forall_iff_forall_mem.mp hostOps1_fresh) op hop) (Wexit m c)
  rw [held_tailS, held_tailS, Wexit_v2, Wexit_v3, Wexit_cst, Wexit_v4, Pipeline.chain_nil, wp_pure,
    show StableHlo.after hostOps1 (Wexit m c) (Proc.devRef .tc main_v2) = resArr m c from Wend_v2 m c] at hseq
  rw [Pipeline.chain_cons, Pipeline.chain_nil]
  exact hseq

/-- The lines after the region: from the region's exit they run within the result array and the three buffers they
    write, and hand back the arrays as they were and the bypassing buffers at the contents after the lines. -/
theorem htail (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_res, unscopedRest0_eq, unscopedRest0_eq,
    show Vend m c main_arg0 = V m c main_arg0 from Wend_arg0 m c, show Vend m c main_v0 = V m c main_v0 from Wend_v0 m c]
  iintro ⟨Hk, Hb, ⟨H2, HR⟩, Ha0, Hv0, Hv3, Hcst, Hv4⟩
  iapply (tail_lines m c Q') $$ [Hb H2 Hv3 Hcst Hv4]
  · isplitl [Hb]; · iexact Hb
    isplitl [H2]; · iexact H2
    isplitl [Hv3]; · iexact Hv3
    isplitl [Hcst]; · iexact Hcst
    iexact Hv4
  iintro ⟨Hb, H2, Hv3, Hcst, Hv4⟩
  imodintro
  iapply Hk
  isplitl [H2 HR]
  · isplitl [H2]
    · iexact H2
    · iexact HR
  isplitl [Ha0]; · iexact Ha0
  isplitl [Hv0]; · iexact Hv0
  isplitl [Hv3]; · iexact Hv3
  isplitl [Hcst]; · iexact Hcst
  iexact Hv4

end LaunchAux

open LaunchAux

/-- THE RUN, at any float instance. -/
theorem run_main : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  unfold defs
  refine Pipeline.θ_run_region_pf_tail (pcfgs (F := F)) (fun p => (cfgs p).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := ?hu) (V := V m) (hmain := hmain m Variants.none) (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := ?hX) (hin := ?hin) (hout := ?hout) (htail := htail m)
    (QY := fun c s => s.mem ((c.tc : Thread nD τ).loc main_arg0) = m ((c.tc : Thread nD τ).loc main_arg0)
        ∧ s.mem ((c.tc : Thread nD τ).loc main_v4) = result m c)
    (hY := ?hY) (hQ := ?hQ)
  case hu =>
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hX =>
    intro c
    rw [Pipeline.unscopedRestP_none]
    iintro ⟨HU, -, -, -, Hp, -⟩; imodintro
    isplitl [Hp]; · iexists _; iexact Hp
    iexact HU
  case hin =>
    intro c
    refine (show _ ⊢ Pipeline.ΦA spec0 c from ?_).trans (hin m c)
    unfold Pipeline.ΦA; iintro ⟨Hp, -, Hr⟩
    isplitl [Hr] <;> iassumption
  case hout =>
    intro c
    refine (hout m c).trans ?_
    rw [Pipeline.ownSems0_none]; unfold Pipeline.ΦA
    iintro ⟨Hr, Hp⟩
    isplitl [Hp]; · iexact Hp
    isplitr; · iempintro
    iexact Hr
  case hY =>
    intro c s'
    iintro ⟨-, HU, HSI⟩
    unfold Pipeline.unscopedRest
    imodintro
    ihave H := (pointsTo_read_all _ (fun b => (c.tc : Thread nD τ).loc b) (Vend m c) s') $$ [HU HSI]
    · isplitl [HU] <;> iassumption
    icases H with ⟨%h, HSI⟩
    isplitr
    · ipureintro
      refine ⟨?_, ?_⟩
      · rw [h main_arg0 arg0_rest]; exact (Wend_arg0 m c).trans (V_arg m c main_arg0 (by decide))
      · rw [h main_v4 v4_rest]; exact Wend_v4 m c
    · iexact HSI
  case hQ =>
    intro s h c
    obtain ⟨hw, -, h0, h4⟩ := h c
    refine ⟨h4, h0, ?_, ?_, ?_, ?_, ?_, ?_, ?_, ?_, ?_, ?_, ?_, ?_⟩
    · exact ((hw 2).trans (arr_kept m c 2 (by decide))).trans (V_arg m c main_arg1 (by decide))
    · exact ((hw 3).trans (arr_kept m c 3 (by decide))).trans (V_arg m c main_arg2 (by decide))
    · exact ((hw 4).trans (arr_kept m c 4 (by decide))).trans (V_arg m c main_arg3 (by decide))
    · exact ((hw 5).trans (arr_kept m c 5 (by decide))).trans (V_arg m c main_arg4 (by decide))
    · exact ((hw 6).trans (arr_kept m c 6 (by decide))).trans (V_arg m c main_arg5 (by decide))
    · exact ((hw 7).trans (arr_kept m c 7 (by decide))).trans (V_arg m c main_arg6 (by decide))
    · exact ((hw 8).trans (arr_kept m c 8 (by decide))).trans (V_arg m c main_arg7 (by decide))
    · exact ((hw 9).trans (arr_kept m c 9 (by decide))).trans (V_arg m c main_arg8 (by decide))
    · exact ((hw 10).trans (arr_kept m c 10 (by decide))).trans (V_arg m c main_arg9 (by decide))
    · exact ((hw 11).trans (arr_kept m c 11 (by decide))).trans (V_arg m c main_arg10 (by decide))
    · exact ((hw 12).trans (arr_kept m c 12 (by decide))).trans (V_arg m c main_arg11 (by decide))
    · exact ((hw 13).trans (arr_kept m c 13 (by decide))).trans (V_arg m c main_arg12 (by decide))

end Cert.Kernel.Net

end
-- ==== Proof.Base.lean ====
/-
  What every module of the frame proof is stated over: the resource algebra, the buffer contents at the
  region's entry (after the two reshapes of the point cloud), @main as host lines around the one region,
  a window's block at a grid point, the two branch conditions of the body in closed form over the
  16 × 8 grid (the first and the last chunk of an instance), where the result window is idle and where
  it is written back, and names for the staging memrefs the pipeline passes at a point.
-/
import proofs.«118771_j73547019976967_1_alg».proof.Proof.Gen.KernelIdeal.Launch
import proofs.«118771_j73547019976967_1_alg».proof.Proof.Gen.KernelIdeal.Skeleton
import proofs.«118771_j73547019976967_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the three host lines after it, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [_] from hostOps0_sub)
    (show List.Forall _ [_] from hostOps0_fresh) main_chain

/-! ## A window's block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body, over the grid -/

/-- The body resets the running maximum: the chunk is an instance's first. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- The body runs the head network and stores the result block: the chunk is an instance's last. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-- The result window is idle exactly off an instance's last chunk, and is not written back there. -/
theorem idle_res : ∀ t : Fin cfg0.N, ¬isLast (grid0.coords t) → cfg0.idle 14 (grid0.coords t) = true := by decide +kernel
theorem live_res : ∀ t : Fin cfg0.N, isLast (grid0.coords t) → cfg0.idle 14 (grid0.coords t) = false := by decide +kernel
theorem noFlush_res : ∀ t : Fin cfg0.N, ¬isLast (grid0.coords t) → (cfg0.win 14).flush t = false := by decide +kernel

/-! ## The memrefs the body is called with -/

/-- The scratch holding the running maximum, a whole scoped buffer. -/
abbrev scM : Memref sig .tc .vmem S256x1 .f32 := Memref.whole cc0_scratch0

/-- The region invariant of a body that names no scratch contents: the scratch at anything, the generator register at any state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Net

end
-- ==== Proof.Blocks.lean ====
/-
  The input blocks of a grid point under the literal vector types the body loads them at, the running
  maximum the scratch holds after each point, and the result block an instance's last chunk stores:
  pure terms over the blocks, at any float instance.
-/
import proofs.«118771_j73547019976967_1_alg».proof.Proof.Base

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

/-- All 128 points of the instance (the pair's second member ranges over them). -/
abbrev ptsAt (c : Dev nD) (t : Fin cfg0.N) : Vec F S1x128x3 .f32 := iblk m c 0 t
/-- The 16 points of this chunk (the pair's first member). -/
abbrev chunkAt (c : Dev nD) (t : Fin cfg0.N) : Vec F S1x16x3 .f32 := iblk m c 1 t
abbrev w1At (c : Dev nD) (t : Fin cfg0.N) : Vec F S64x6 .f32 := iblk m c 2 t
abbrev b1At (c : Dev nD) (t : Fin cfg0.N) : Vec F S64 .f32 := iblk m c 3 t
abbrev w2At (c : Dev nD) (t : Fin cfg0.N) : Vec F S128x64 .f32 := iblk m c 4 t
abbrev b2At (c : Dev nD) (t : Fin cfg0.N) : Vec F S128 .f32 := iblk m c 5 t
abbrev w3At (c : Dev nD) (t : Fin cfg0.N) : Vec F S256x128 .f32 := iblk m c 6 t
abbrev b3At (c : Dev nD) (t : Fin cfg0.N) : Vec F S256 .f32 := iblk m c 7 t
abbrev v1At (c : Dev nD) (t : Fin cfg0.N) : Vec F S512x256 .f32 := iblk m c 8 t
abbrev c1At (c : Dev nD) (t : Fin cfg0.N) : Vec F S512 .f32 := iblk m c 9 t
abbrev v2At (c : Dev nD) (t : Fin cfg0.N) : Vec F S256x512 .f32 := iblk m c 10 t
abbrev c2At (c : Dev nD) (t : Fin cfg0.N) : Vec F S256 .f32 := iblk m c 11 t
abbrev v3At (c : Dev nD) (t : Fin cfg0.N) : Vec F S40x256 .f32 := iblk m c 12 t
abbrev c3At (c : Dev nD) (t : Fin cfg0.N) : Vec F S40 .f32 := iblk m c 13 t

/-! ## What the body computes at a point -/

/-- The chunk's third-layer activations before the bias: 256 channels × (16 · 128) pairs. -/
abbrev pairActs (c : Dev nD) (t : Fin cfg0.N) : FVec F S256x2048 .f32 :=
  k0_pay4 (ptsAt m c t) (chunkAt m c t) (w1At m c t) (b1At m c t) (w2At m c t) (b2At m c t) (w3At m c t)

/-- THE RUNNING MAXIMUM: what the scratch holds after the body at position `n` — the chunk's per-channel maximum
    joined with what the point before left, or with −∞ at an instance's first chunk. -/
def accAt (c : Dev nD) : (n : ℕ) → n < cfg0.N → Vec F S256x1 .f32
  | 0, hn => k0_pay2 (pairActs m c ⟨0, hn⟩) (b3At m c ⟨0, hn⟩) (k0_pay1 (F := F))
  | n + 1, hn => k0_pay2 (pairActs m c ⟨n + 1, hn⟩) (b3At m c ⟨n + 1, hn⟩)
      (if (n + 1) % 8 = 0 then (k0_pay1 (F := F)) else accAt c n (Nat.lt_of_succ_lt hn))

/-- At an instance's first chunk the maximum restarts from −∞. -/
theorem accAt_first (c : Dev nD) (t : Fin cfg0.N) (h : t.val % 8 = 0) :
    accAt m c t.val t.isLt = k0_pay2 (pairActs m c t) (b3At m c t) (k0_pay1 (F := F)) := by
  obtain ⟨n, hn⟩ := t
  cases n with
  | zero => rfl
  | succ n => show k0_pay2 _ _ (if (n + 1) % 8 = 0 then _ else _) = _; rw [if_pos h]

/-- At any other chunk it continues from what the point before left. -/
theorem accAt_next (c : Dev nD) (t : Fin cfg0.N) (h : ¬t.val % 8 = 0) :
    accAt m c t.val t.isLt = k0_pay2 (pairActs m c t) (b3At m c t) (accAt m c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 8 = 0 then _ else _) = _; rw [if_neg h]; rfl

/-- The result block an instance's last chunk stores: the head network on the finished maximum. -/
def headAt (c : Dev nD) (t : Fin cfg0.N) : Vec F S1x1x40 .f32 :=
  k0_pay3 (accAt m c t.val t.isLt) (v1At m c t) (c1At m c t) (v2At m c t) (c2At m c t) (v3At m c t) (c3At m c t)

end Cert.KernelIdeal.Net

end
-- ==== Proof.Body.lean ====
/-
  The body of the kernel, run once per control case on whole staging memrefs: an instance's first chunk
  (the running maximum restarts from −∞), a middle chunk (it continues from what the scratch holds), and the last
  chunk (it continues, and the head network's result is stored into the result window). Each run hands the
  fourteen input buffers back as it found them and names what it leaves in the scratch, and in the result
  buffer where it stores one, by the body's own pure terms over the loaded blocks.
-/
import proofs.«118771_j73547019976967_1_alg».proof.Proof.Base
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, however the zeros are spelt. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer whose LAST store went through the whole-shape rectangle at zero offsets reads as that store's
    payload, whatever was stored before and whatever the buffer held. -/
private theorem read_writes_whole_last {Val : EltTy → Type} [∀ e, Nonempty (Val e)] {sig' : RefSig} {κ : Kind} {sp : Space}
    {S : Shape} {e : EltTy} (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

variable (m : (ℓ : Loc nD τ sig) → Buf (Elt F) ℓ) (ρ : Dev nD → PrngReg)

set_option maxHeartbeats 4000000 in
/-- An instance's FIRST chunk: the scratch, at anything, ends at this chunk's maximum joined with −∞; the result
    buffer is handed back untouched. -/
theorem run_first (c : Dev nD) (i : grid0.Coords) (a2 : Memref sig .tc .vmem S1x128x3 .f32) (ha2 : a2.IsWhole) (a3 : Memref sig .tc .vmem S1x16x3 .f32) (ha3 : a3.IsWhole) (a4 : Memref sig .tc .vmem S64x6 .f32) (ha4 : a4.IsWhole) (a5 : Memref sig .tc .vmem S64 .f32) (ha5 : a5.IsWhole) (a6 : Memref sig .tc .vmem S128x64 .f32) (ha6 : a6.IsWhole) (a7 : Memref sig .tc .vmem S128 .f32) (ha7 : a7.IsWhole) (a8 : Memref sig .tc .vmem S256x128 .f32) (ha8 : a8.IsWhole) (a9 : Memref sig .tc .vmem S256 .f32) (ha9 : a9.IsWhole) (a10 : Memref sig .tc .vmem S512x256 .f32) (ha10 : a10.IsWhole) (a11 : Memref sig .tc .vmem S512 .f32) (ha11 : a11.IsWhole) (a12 : Memref sig .tc .vmem S256x512 .f32) (ha12 : a12.IsWhole) (a13 : Memref sig .tc .vmem S256 .f32) (ha13 : a13.IsWhole) (a14 : Memref sig .tc .vmem S40x256 .f32) (ha14 : a14.IsWhole) (a15 : Memref sig .tc .vmem S40 .f32) (ha15 : a15.IsWhole) (a16 : Memref sig .tc .vmem S1x1x40 .f32) (ha16 : a16.IsWhole) (a17 : Memref sig .tc .vmem S256x1 .f32) (ha17 : a17.IsWhole)
    (hf : isFirst i) (hl : ¬isLast i) (x0 : Vec F S1x128x3 .f32) (x1 : Vec F S1x16x3 .f32) (w1 : Vec F S64x6 .f32) (b1 : Vec F S64 .f32) (w2 : Vec F S128x64 .f32) (b2 : Vec F S128 .f32) (w3 : Vec F S256x128 .f32) (b3 : Vec F S256 .f32) (v1 : Vec F S512x256 .f32) (c1 : Vec F S512 .f32) (v2 : Vec F S256x512 .f32) (c2 : Vec F S256 .f32) (v3 : Vec F S40x256 .f32) (c3 : Vec F S40 .f32) (xo : Vec F S1x1x40 .f32) (E : Set ℕ) (K : PUnit → sProp 𝕄) :
    iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo ∗ (∃ d, owns (c : Thread nD τ) a17 fullShare d)
        ∗ (iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo
            ∗ owns (c : Thread nD τ) a17 fullShare (k0_pay2 (k0_pay4 x0 x1 w1 b1 w2 b2 w3) b3 (k0_pay1 (F := F)))) -∗ K ⟨⟩))
      ⊢ wp frame (wpE (defs₀ (F := F)) Variants.none c none) E (cc0__kernel i a2 ha2 a3 ha3 a4 ha4 a5 ha5 a6 ha6 a7 ha7 a8 ha8 a9 ha9 a10 ha10 a11 ha11 a12 ha12 a13 ha13 a14 ha14 a15 ha15 a16 ha16 a17 ha17) K := by
  -- the body is its sequence of memory operations over the named payloads; each buffer is opened at the raw
  -- contents that read as the stated value
  simp only [cc0__kernel_eq_skeleton]; unfold cc0__kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11; obtain rfl := ha12.eq_unread hf12; obtain rfl := ha13.eq_unread hf13; obtain rfl := ha14.eq_unread hf14; obtain rfl := ha15.eq_unread hf15; obtain rfl := ha16.eq_unread hf16
  sl_exec (disch := first | exact hf | exact hl)
  sl_step
  iapply Hk
  -- the buffers that were only loaded are handed back as found
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  -- the scratch is stored whole twice and the last store wins; the value loaded between the two stores is
  -- the first store's payload, −∞ everywhere
  iexists _; isplitr [H17]
  swap
  · iexact H17
  · ipureintro
    refine (read_writes_whole_last _ _ hz2 _ _ _).trans ?_
    sl_unfold_words
    simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]

set_option maxHeartbeats 4000000 in
/-- A MIDDLE chunk: the scratch, at `xs`, ends at this chunk's maximum joined with `xs`; the result buffer is
    handed back untouched. -/
theorem run_mid (c : Dev nD) (i : grid0.Coords) (a2 : Memref sig .tc .vmem S1x128x3 .f32) (ha2 : a2.IsWhole) (a3 : Memref sig .tc .vmem S1x16x3 .f32) (ha3 : a3.IsWhole) (a4 : Memref sig .tc .vmem S64x6 .f32) (ha4 : a4.IsWhole) (a5 : Memref sig .tc .vmem S64 .f32) (ha5 : a5.IsWhole) (a6 : Memref sig .tc .vmem S128x64 .f32) (ha6 : a6.IsWhole) (a7 : Memref sig .tc .vmem S128 .f32) (ha7 : a7.IsWhole) (a8 : Memref sig .tc .vmem S256x128 .f32) (ha8 : a8.IsWhole) (a9 : Memref sig .tc .vmem S256 .f32) (ha9 : a9.IsWhole) (a10 : Memref sig .tc .vmem S512x256 .f32) (ha10 : a10.IsWhole) (a11 : Memref sig .tc .vmem S512 .f32) (ha11 : a11.IsWhole) (a12 : Memref sig .tc .vmem S256x512 .f32) (ha12 : a12.IsWhole) (a13 : Memref sig .tc .vmem S256 .f32) (ha13 : a13.IsWhole) (a14 : Memref sig .tc .vmem S40x256 .f32) (ha14 : a14.IsWhole) (a15 : Memref sig .tc .vmem S40 .f32) (ha15 : a15.IsWhole) (a16 : Memref sig .tc .vmem S1x1x40 .f32) (ha16 : a16.IsWhole) (a17 : Memref sig .tc .vmem S256x1 .f32) (ha17 : a17.IsWhole)
    (hf : ¬isFirst i) (hl : ¬isLast i) (x0 : Vec F S1x128x3 .f32) (x1 : Vec F S1x16x3 .f32) (w1 : Vec F S64x6 .f32) (b1 : Vec F S64 .f32) (w2 : Vec F S128x64 .f32) (b2 : Vec F S128 .f32) (w3 : Vec F S256x128 .f32) (b3 : Vec F S256 .f32) (v1 : Vec F S512x256 .f32) (c1 : Vec F S512 .f32) (v2 : Vec F S256x512 .f32) (c2 : Vec F S256 .f32) (v3 : Vec F S40x256 .f32) (c3 : Vec F S40 .f32) (xo : Vec F S1x1x40 .f32) (xs : Vec F S256x1 .f32) (E : Set ℕ) (K : PUnit → sProp 𝕄) :
    iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo ∗ owns (c : Thread nD τ) a17 fullShare xs
        ∗ (iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ owns (c : Thread nD τ) a16 fullShare xo
            ∗ owns (c : Thread nD τ) a17 fullShare (k0_pay2 (k0_pay4 x0 x1 w1 b1 w2 b2 w3) b3 xs)) -∗ K ⟨⟩))
      ⊢ wp frame (wpE (defs₀ (F := F)) Variants.none c none) E (cc0__kernel i a2 ha2 a3 ha3 a4 ha4 a5 ha5 a6 ha6 a7 ha7 a8 ha8 a9 ha9 a10 ha10 a11 ha11 a12 ha12 a13 ha13 a14 ha14 a15 ha15 a16 ha16 a17 ha17) K := by
  -- the body is its sequence of memory operations over the named payloads; each buffer is opened at the raw
  -- contents that read as the stated value
  simp only [cc0__kernel_eq_skeleton]; unfold cc0__kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11; obtain rfl := ha12.eq_unread hf12; obtain rfl := ha13.eq_unread hf13; obtain rfl := ha14.eq_unread hf14; obtain rfl := ha15.eq_unread hf15; obtain rfl := ha16.eq_unread hf16; obtain rfl := ha17.eq_unread hf17
  sl_exec (disch := first | exact hf | exact hl)
  sl_step
  iapply Hk
  -- the buffers that were only loaded are handed back as found
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  -- the scratch: its one whole-buffer store is the running maximum joined with this chunk's
  iexists _; isplitr [H17]
  swap
  · iexact H17
  · ipureintro
    refine (read_writes_whole_last _ _ hz2 _ _ _).trans ?_
    sl_unfold_words
    simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]

set_option maxHeartbeats 4000000 in
/-- An instance's LAST chunk: the scratch, at `xs`, ends at the finished maximum, and the result buffer, at
    anything, at the head network's value on it. -/
theorem run_last (c : Dev nD) (i : grid0.Coords) (a2 : Memref sig .tc .vmem S1x128x3 .f32) (ha2 : a2.IsWhole) (a3 : Memref sig .tc .vmem S1x16x3 .f32) (ha3 : a3.IsWhole) (a4 : Memref sig .tc .vmem S64x6 .f32) (ha4 : a4.IsWhole) (a5 : Memref sig .tc .vmem S64 .f32) (ha5 : a5.IsWhole) (a6 : Memref sig .tc .vmem S128x64 .f32) (ha6 : a6.IsWhole) (a7 : Memref sig .tc .vmem S128 .f32) (ha7 : a7.IsWhole) (a8 : Memref sig .tc .vmem S256x128 .f32) (ha8 : a8.IsWhole) (a9 : Memref sig .tc .vmem S256 .f32) (ha9 : a9.IsWhole) (a10 : Memref sig .tc .vmem S512x256 .f32) (ha10 : a10.IsWhole) (a11 : Memref sig .tc .vmem S512 .f32) (ha11 : a11.IsWhole) (a12 : Memref sig .tc .vmem S256x512 .f32) (ha12 : a12.IsWhole) (a13 : Memref sig .tc .vmem S256 .f32) (ha13 : a13.IsWhole) (a14 : Memref sig .tc .vmem S40x256 .f32) (ha14 : a14.IsWhole) (a15 : Memref sig .tc .vmem S40 .f32) (ha15 : a15.IsWhole) (a16 : Memref sig .tc .vmem S1x1x40 .f32) (ha16 : a16.IsWhole) (a17 : Memref sig .tc .vmem S256x1 .f32) (ha17 : a17.IsWhole)
    (hf : ¬isFirst i) (hl : isLast i) (x0 : Vec F S1x128x3 .f32) (x1 : Vec F S1x16x3 .f32) (w1 : Vec F S64x6 .f32) (b1 : Vec F S64 .f32) (w2 : Vec F S128x64 .f32) (b2 : Vec F S128 .f32) (w3 : Vec F S256x128 .f32) (b3 : Vec F S256 .f32) (v1 : Vec F S512x256 .f32) (c1 : Vec F S512 .f32) (v2 : Vec F S256x512 .f32) (c2 : Vec F S256 .f32) (v3 : Vec F S40x256 .f32) (c3 : Vec F S40 .f32) (xs : Vec F S256x1 .f32) (E : Set ℕ) (K : PUnit → sProp 𝕄) :
    iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3 ∗ (∃ d, owns (c : Thread nD τ) a16 fullShare d) ∗ owns (c : Thread nD τ) a17 fullShare xs
        ∗ (iprop(owns (c : Thread nD τ) a2 fullShare x0 ∗ owns (c : Thread nD τ) a3 fullShare x1 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare w3 ∗ owns (c : Thread nD τ) a9 fullShare b3 ∗ owns (c : Thread nD τ) a10 fullShare v1 ∗ owns (c : Thread nD τ) a11 fullShare c1 ∗ owns (c : Thread nD τ) a12 fullShare v2 ∗ owns (c : Thread nD τ) a13 fullShare c2 ∗ owns (c : Thread nD τ) a14 fullShare v3 ∗ owns (c : Thread nD τ) a15 fullShare c3
            ∗ owns (c : Thread nD τ) a16 fullShare (k0_pay3 (k0_pay2 (k0_pay4 x0 x1 w1 b1 w2 b2 w3) b3 xs) v1 c1 v2 c2 v3 c3)
            ∗ owns (c : Thread nD τ) a17 fullShare (k0_pay2 (k0_pay4 x0 x1 w1 b1 w2 b2 w3) b3 xs)) -∗ K ⟨⟩))
      ⊢ wp frame (wpE (defs₀ (F := F)) Variants.none c none) E (cc0__kernel i a2 ha2 a3 ha3 a4 ha4 a5 ha5 a6 ha6 a7 ha7 a8 ha8 a9 ha9 a10 ha10 a11 ha11 a12 ha12 a13 ha13 a14 ha14 a15 ha15 a16 ha16 a17 ha17) K := by
  -- the body is its sequence of memory operations over the named payloads; each buffer is opened at the raw
  -- contents that read as the stated value
  simp only [cc0__kernel_eq_skeleton]; unfold cc0__kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha11.eq_unread hf11; obtain rfl := ha12.eq_unread hf12; obtain rfl := ha13.eq_unread hf13; obtain rfl := ha14.eq_unread hf14; obtain rfl := ha15.eq_unread hf15; obtain rfl := ha17.eq_unread hf17
  sl_exec (disch := first | exact hf | exact hl)
  sl_step
  iapply Hk
  -- the buffers that were only loaded are handed back as found
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  -- the result buffer: one whole-buffer store of the head network's value on the scratch as loaded back
  -- after its store, which is that store's payload
  isplitl [H16]
  · iexists _; isplitr [H16]
    swap
    · iexact H16
    · ipureintro
      refine (read_writes_whole_last _ _ hz3 _ _ _).trans ?_
      sl_unfold_words
      simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]
  -- the scratch: its one whole-buffer store is the running maximum joined with this chunk's
  iexists _; isplitr [H17]
  swap
  · iexact H17
  · ipureintro
    refine (read_writes_whole_last _ _ hz2 _ _ _).trans ?_
    sl_unfold_words
    simp only [View.readAt_eq_ld, Memref.IsWhole.read_unread,
      View.readCov_unit_zero (S := S256x1) _ hz2,
      View.ld_unit_zero (S := S1x128x3) hz3, View.ld_unit_zero (S := S1x16x3) hz3, View.ld_unit_zero (S := S64x6) hz2,
      View.ld_unit_zero (S := S64) hz1, View.ld_unit_zero (S := S128x64) hz2, View.ld_unit_zero (S := S128) hz1,
      View.ld_unit_zero (S := S256x128) hz2, View.ld_unit_zero (S := S256) hz1, View.ld_unit_zero (S := S256x1) hz2,
      View.ld_unit_zero (S := S512x256) hz2, View.ld_unit_zero (S := S512) hz1, View.ld_unit_zero (S := S256x512) hz2,
      View.ld_unit_zero (S := S40x256) hz2, View.ld_unit_zero (S := S40) hz1, View.ld_unit_zero (S := S1x1x40) hz3]

end Cert.KernelIdeal.Net

end
-- ==== Proof.Data.lean ====
/-
  The proof data of the one pipeline: each array as the region finds it; after the body each input buffer at
  its block, the result buffer at the head network's value on the finished maximum (consulted only at an
  instance's last chunk: elsewhere the window is idle and its buffer is handed back as found); the invariant
  carrying the scratch at the running maximum the point before left; the point cloud's array, which two windows
  read, held half by each; nothing owed. Then the body obligation at every point, from the three runs.
-/
import proofs.«118771_j73547019976967_1_alg».proof.Proof.Blocks
import proofs.«118771_j73547019976967_1_alg».proof.Proof.Body

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant: the scratch at the running maximum -/

/-- Before the first point the scratch holds anything; before position `n + 1`, what position `n` left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => headAt m c t
  Φ t := PhiS m c t.val (Nat.le_of_lt_succ t.isLt)
  q w := match w with
    | ⟨0, _⟩ => fullShare.left
    | ⟨1, _⟩ => fullShare.right
    | ⟨2, _⟩ => fullShare | ⟨3, _⟩ => fullShare | ⟨4, _⟩ => fullShare | ⟨5, _⟩ => fullShare | ⟨6, _⟩ => fullShare
    | ⟨7, _⟩ => fullShare | ⟨8, _⟩ => fullShare | ⟨9, _⟩ => fullShare | ⟨10, _⟩ => fullShare | ⟨11, _⟩ => fullShare
    | ⟨12, _⟩ => fullShare | ⟨13, _⟩ => fullShare | ⟨14, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

/-! ## What the body leaves, and finds, window by window -/

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_in12 (c : Dev nD) (t : Fin cfg0.N) : (dats m 0 c).after 12 t = iblk m c 12 t := by dsimp only [dats]
theorem after_in13 (c : Dev nD) (t : Fin cfg0.N) : (dats m 0 c).after 13 t = iblk m c 13 t := by dsimp only [dats]
theorem after_res (c : Dev nD) (t : Fin cfg0.N) : (dats m 0 c).after 14 t = headAt m c t := by dsimp only [dats]

/-- Each input's current staging buffer holds its block at every point, fetched there or not: the window is
    uncut, never idle, and the body leaves the block in place. -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl)
    (fun t => by rw [after_in6]; unfold Dat.blockOf iblk; rw [A_eq]; try rfl) t d).trans
    (by unfold Dat.fetched Dat.blockOf iblk; rw [A_eq]; try rfl)
theorem before_in7 (c : Dev nD) (t : Fin cfg0.N) (d) : (dats m 0 c).before 7 t d = iblk m c 7 t :=
  ((dats m 0 c).before_in_eq_fetched 7 rfl (fun _ => rfl) (fun _ _ _ => rfl)
    (fun t => by rw [after_in7]; unfold Dat.blockOf iblk; rw [A_eq]; try rfl) t d).trans
    (by unfold Dat.fetched Dat.blockOf iblk; rw [A_eq]; try rfl)
theorem before_in8 (c : Dev nD) (t : Fin cfg0.N) (d) : (dats m 0 c).before 8 t d = iblk m c 8 t :=
  ((dats m 0 c).before_in_eq_fetched 8 rfl (fun _ => rfl) (fun _ _ _ => rfl)
    (fun t => by rw [after_in8]; unfold Dat.blockOf iblk; rw [A_eq]; try rfl) t d).trans
    (by unfold Dat.fetched Dat.blockOf iblk; rw [A_eq]; try rfl)
theorem before_in9 (c : Dev nD) (t : Fin cfg0.N) (d) : (dats m 0 c).before 9 t d = iblk m c 9 t :=
  ((dats m 0 c).before_in_eq_fetched 9 rfl (fun _ => rfl) (fun _ _ _ => rfl)
    (fun t => by rw [after_in9]; unfold Dat.blockOf iblk; rw [A_eq]; try rfl) t d).trans
    (by unfold Dat.fetched Dat.blockOf iblk; rw [A_eq]; try rfl)
theorem before_in10 (c : Dev nD) (t : Fin cfg0.N) (d) : (dats m 0 c).before 10 t d = iblk m c 10 t :=
  ((dats m 0 c).before_in_eq_fetched 10 rfl (fun _ => rfl) (fun _ _ _ => rfl)
    (fun t => by rw [after_in10]; unfold Dat.blockOf iblk; rw [A_eq]; try rfl) t d).trans
    (by unfold Dat.fetched Dat.blockOf iblk; rw [A_eq]; try rfl)
theorem before_in11 (c : Dev nD) (t : Fin cfg0.N) (d) : (dats m 0 c).before 11 t d = iblk m c 11 t :=
  ((dats m 0 c).before_in_eq_fetched 11 rfl (fun _ => rfl) (fun _ _ _ => rfl)
    (fun t => by rw [after_in11]; unfold Dat.blockOf iblk; rw [A_eq]; try rfl) t d).trans
    (by unfold Dat.fetched Dat.blockOf iblk; rw [A_eq]; try rfl)
theorem before_in12 (c : Dev nD) (t : Fin cfg0.N) (d) : (dats m 0 c).before 12 t d = iblk m c 12 t :=
  ((dats m 0 c).before_in_eq_fetched 12 rfl (fun _ => rfl) (fun _ _ _ => rfl)
    (fun t => by rw [after_in12]; unfold Dat.blockOf iblk; rw [A_eq]; try rfl) t d).trans
    (by unfold Dat.fetched Dat.blockOf iblk; rw [A_eq]; try rfl)
theorem before_in13 (c : Dev nD) (t : Fin cfg0.N) (d) : (dats m 0 c).before 13 t d = iblk m c 13 t :=
  ((dats m 0 c).before_in_eq_fetched 13 rfl (fun _ => rfl) (fun _ _ _ => rfl)
    (fun t => by rw [after_in13]; unfold Dat.blockOf iblk; rw [A_eq]; try rfl) t d).trans
    (by unfold Dat.fetched Dat.blockOf iblk; rw [A_eq]; try rfl)

/-! ## The memrefs the body is called with at a point -/

/-- Each window's current staging memref at point `t`, and its wholeness. -/
private abbrev ms0 (t : Fin cfg0.N) : Memref sig .tc .vmem S1x128x3 .f32 := win0_0.stage (cfg0.slots t 0)
private abbrev hs0 (t : Fin cfg0.N) : (ms0 t).IsWhole := hstage0_0 ((cfg0.slots t 0).cast nbuf0_0)
private abbrev ms1 (t : Fin cfg0.N) : Memref sig .tc .vmem S1x16x3 .f32 := win0_1.stage (cfg0.slots t 1)
private abbrev hs1 (t : Fin cfg0.N) : (ms1 t).IsWhole := hstage0_1 ((cfg0.slots t 1).cast nbuf0_1)
private abbrev ms2 (t : Fin cfg0.N) : Memref sig .tc .vmem S64x6 .f32 := win0_2.stage (cfg0.slots t 2)
private abbrev hs2 (t : Fin cfg0.N) : (ms2 t).IsWhole := hstage0_2 ((cfg0.slots t 2).cast nbuf0_2)
private abbrev ms3 (t : Fin cfg0.N) : Memref sig .tc .vmem S64 .f32 := win0_3.stage (cfg0.slots t 3)
private abbrev hs3 (t : Fin cfg0.N) : (ms3 t).IsWhole := hstage0_3 ((cfg0.slots t 3).cast nbuf0_3)
private abbrev ms4 (t : Fin cfg0.N) : Memref sig .tc .vmem S128x64 .f32 := win0_4.stage (cfg0.slots t 4)
private abbrev hs4 (t : Fin cfg0.N) : (ms4 t).IsWhole := hstage0_4 ((cfg0.slots t 4).cast nbuf0_4)
private abbrev ms5 (t : Fin cfg0.N) : Memref sig .tc .vmem S128 .f32 := win0_5.stage (cfg0.slots t 5)
private abbrev hs5 (t : Fin cfg0.N) : (ms5 t).IsWhole := hstage0_5 ((cfg0.slots t 5).cast nbuf0_5)
private abbrev ms6 (t : Fin cfg0.N) : Memref sig .tc .vmem S256x128 .f32 := win0_6.stage (cfg0.slots t 6)
private abbrev hs6 (t : Fin cfg0.N) : (ms6 t).IsWhole := hstage0_6 ((cfg0.slots t 6).cast nbuf0_6)
private abbrev ms7 (t : Fin cfg0.N) : Memref sig .tc .vmem S256 .f32 := win0_7.stage (cfg0.slots t 7)
private abbrev hs7 (t : Fin cfg0.N) : (ms7 t).IsWhole := hstage0_7 ((cfg0.slots t 7).cast nbuf0_7)
private abbrev ms8 (t : Fin cfg0.N) : Memref sig .tc .vmem S512x256 .f32 := win0_8.stage (cfg0.slots t 8)
private abbrev hs8 (t : Fin cfg0.N) : (ms8 t).IsWhole := hstage0_8 ((cfg0.slots t 8).cast nbuf0_8)
private abbrev ms9 (t : Fin cfg0.N) : Memref sig .tc .vmem S512 .f32 := win0_9.stage (cfg0.slots t 9)
private abbrev hs9 (t : Fin cfg0.N) : (ms9 t).IsWhole := hstage0_9 ((cfg0.slots t 9).cast nbuf0_9)
private abbrev ms10 (t : Fin cfg0.N) : Memref sig .tc .vmem S256x512 .f32 := win0_10.stage (cfg0.slots t 10)
private abbrev hs10 (t : Fin cfg0.N) : (ms10 t).IsWhole := hstage0_10 ((cfg0.slots t 10).cast nbuf0_10)
private abbrev ms11 (t : Fin cfg0.N) : Memref sig .tc .vmem S256 .f32 := win0_11.stage (cfg0.slots t 11)
private abbrev hs11 (t : Fin cfg0.N) : (ms11 t).IsWhole := hstage0_11 ((cfg0.slots t 11).cast nbuf0_11)
private abbrev ms12 (t : Fin cfg0.N) : Memref sig .tc .vmem S40x256 .f32 := win0_12.stage (cfg0.slots t 12)
private abbrev hs12 (t : Fin cfg0.N) : (ms12 t).IsWhole := hstage0_12 ((cfg0.slots t 12).cast nbuf0_12)
private abbrev ms13 (t : Fin cfg0.N) : Memref sig .tc .vmem S40 .f32 := win0_13.stage (cfg0.slots t 13)
private abbrev hs13 (t : Fin cfg0.N) : (ms13 t).IsWhole := hstage0_13 ((cfg0.slots t 13).cast nbuf0_13)
private abbrev ms14 (t : Fin cfg0.N) : Memref sig .tc .vmem S1x1x40 .f32 := win0_14.stage (cfg0.slots t 14)
private abbrev hs14 (t : Fin cfg0.N) : (ms14 t).IsWhole := hstage0_14 ((cfg0.slots t 14).cast nbuf0_14)

/-- No input window is ever idle. -/
private theorem live_in0 : ∀ t : Fin cfg0.N, cfg0.idle 0 (grid0.coords t) = false := fun _ => rfl
private theorem live_in1 : ∀ t : Fin cfg0.N, cfg0.idle 1 (grid0.coords t) = false := fun _ => rfl
private theorem live_in2 : ∀ t : Fin cfg0.N, cfg0.idle 2 (grid0.coords t) = false := fun _ => rfl
private theorem live_in3 : ∀ t : Fin cfg0.N, cfg0.idle 3 (grid0.coords t) = false := fun _ => rfl
private theorem live_in4 : ∀ t : Fin cfg0.N, cfg0.idle 4 (grid0.coords t) = false := fun _ => rfl
private theorem live_in5 : ∀ t : Fin cfg0.N, cfg0.idle 5 (grid0.coords t) = false := fun _ => rfl
private theorem live_in6 : ∀ t : Fin cfg0.N, cfg0.idle 6 (grid0.coords t) = false := fun _ => rfl
private theorem live_in7 : ∀ t : Fin cfg0.N, cfg0.idle 7 (grid0.coords t) = false := fun _ => rfl
private theorem live_in8 : ∀ t : Fin cfg0.N, cfg0.idle 8 (grid0.coords t) = false := fun _ => rfl
private theorem live_in9 : ∀ t : Fin cfg0.N, cfg0.idle 9 (grid0.coords t) = false := fun _ => rfl
private theorem live_in10 : ∀ t : Fin cfg0.N, cfg0.idle 10 (grid0.coords t) = false := fun _ => rfl
private theorem live_in11 : ∀ t : Fin cfg0.N, cfg0.idle 11 (grid0.coords t) = false := fun _ => rfl
private theorem live_in12 : ∀ t : Fin cfg0.N, cfg0.idle 12 (grid0.coords t) = false := fun _ => rfl
private theorem live_in13 : ∀ t : Fin cfg0.N, cfg0.idle 13 (grid0.coords t) = false := fun _ => rfl

/-- An input window's buffer is handed back at its block. -/
private theorem leaves_in0 (c : Dev nD) (t : Fin cfg0.N) :
    (dats m 0 c).leavesExact 0 t = owns (c : Thread nD τ) (ms0 t) fullShare (iblk m c 0 t) := by
  unfold Dat.leavesExact; rw [live_in0 t, after_in0]
private theorem leaves_in1 (c : Dev nD) (t : Fin cfg0.N) :
    (dats m 0 c).leavesExact 1 t = owns (c : Thread nD τ) (ms1 t) fullShare (iblk m c 1 t) := by
  unfold Dat.leavesExact; rw [live_in1 t, after_in1]
private theorem leaves_in2 (c : Dev nD) (t : Fin cfg0.N) :
    (dats m 0 c).leavesExact 2 t = owns (c : Thread nD τ) (ms2 t) fullShare (iblk m c 2 t) := by
  unfold Dat.leavesExact; rw [live_in2 t, after_in2]
private theorem leaves_in3 (c : Dev nD) (t : Fin cfg0.N) :
    (dats m 0 c).leavesExact 3 t = owns (c : Thread nD τ) (ms3 t) fullShare (iblk m c 3 t) := by
  unfold Dat.leavesExact; rw [live_in3 t, after_in3]
private theorem leaves_in4 (c : Dev nD) (t : Fin cfg0.N) :
    (dats m 0 c).leavesExact 4 t = owns (c : Thread nD τ) (ms4 t) fullShare (iblk m c 4 t) := by
  unfold Dat.leavesExact; rw [live_in4 t, after_in4]
private theorem leaves_in5 (c : Dev nD) (t : Fin cfg0.N) :
    (dats m 0 c).leavesExact 5 t = owns (c : Thread nD τ) (ms5 t) fullShare (iblk m c 5 t) := by
  unfold Dat.leavesExact; rw [live_in5 t, after_in5]
private theorem leaves_in6 (c : Dev nD) (t : Fin cfg0.N) :
    (dats m 0 c).leavesExact 6 t = owns (c : Thread nD τ) (ms6 t) fullShare (iblk m c 6 t) := by
  unfold Dat.leavesExact; rw [live_in6 t, after_in6]
private theorem leaves_in7 (c : Dev nD) (t : Fin cfg0.N) :
    (dats m 0 c).leavesExact 7 t = owns (c : Thread nD τ) (ms7 t) fullShare (iblk m c 7 t) := by
  unfold Dat.leavesExact; rw [live_in7 t, after_in7]
private theorem leaves_in8 (c : Dev nD) (t : Fin cfg0.N) :
    (dats m 0 c).leavesExact 8 t = owns (c : Thread nD τ) (ms8 t) fullShare (iblk m c 8 t) := by
  unfold Dat.leavesExact; rw [live_in8 t, after_in8]
private theorem leaves_in9 (c : Dev nD) (t : Fin cfg0.N) :
    (dats m 0 c).leavesExact 9 t = owns (c : Thread nD τ) (ms9 t) fullShare (iblk m c 9 t) := by
  unfold Dat.leavesExact; rw [live_in9 t, after_in9]
private theorem leaves_in10 (c : Dev nD) (t : Fin cfg0.N) :
    (dats m 0 c).leavesExact 10 t = owns (c : Thread nD τ) (ms10 t) fullShare (iblk m c 10 t) := by
  unfold Dat.leavesExact; rw [live_in10 t, after_in10]
private theorem leaves_in11 (c : Dev nD) (t : Fin cfg0.N) :
    (dats m 0 c).leavesExact 11 t = owns (c : Thread nD τ) (ms11 t) fullShare (iblk m c 11 t) := by
  unfold Dat.leavesExact; rw [live_in11 t, after_in11]
private theorem leaves_in12 (c : Dev nD) (t : Fin cfg0.N) :
    (dats m 0 c).leavesExact 12 t = owns (c : Thread nD τ) (ms12 t) fullShare (iblk m c 12 t) := by
  unfold Dat.leavesExact; rw [live_in12 t, after_in12]
private theorem leaves_in13 (c : Dev nD) (t : Fin cfg0.N) :
    (dats m 0 c).leavesExact 13 t = owns (c : Thread nD τ) (ms13 t) fullShare (iblk m c 13 t) := by
  unfold Dat.leavesExact; rw [live_in13 t, after_in13]

/-! ## The body obligation -/

/-- What the body is called with at point `t`: the invariant, what the core owes, and the windows' current buffers one by one, -/
private def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- An instance's first chunk: the scratch is handed over at whatever it holds and comes back at this chunk's
    maximum joined with −∞; the result window is idle. -/
private theorem sound_first (c : Dev nD) (t : Fin cfg0.N) (h0 : t.val % 8 = 0) : bodyPre m c t ⊢ wp frame (wpE (defs₀ (F := F)) Variants.none c none) Set.univ (bodyAt0 t) (fun _ => bodyPost m c t) := by
  have hf : isFirst (grid0.coords t) := (isFirst_iff t).mpr h0
  have hl : ¬isLast (grid0.coords t) := fun h => by have := (isLast_iff t).mp h; omega
  unfold bodyPre bodyPost bodyAt0
  simp only [before_in0, before_in1, before_in2, before_in3, before_in4, before_in5, before_in6, before_in7, before_in8, before_in9, before_in10, before_in11, before_in12, before_in13]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t, leaves_in7 m c t, leaves_in8 m c t, leaves_in9 m c t, leaves_in10 m c t, leaves_in11 m c t, leaves_in12 m c t, leaves_in13 m c t]
  rw [Dat.leavesExact_idle (dats m 0 c) 14 t (idle_res t hl) (noFlush_res t hl)]
  rw [accAt_first m c t h0]
  by_cases hz : t.val = 0
  · rw [Phi_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) ((dats m 0 c).before 14 t d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists d14; iexact H14
  · rw [Phi_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) ((dats m 0 c).before 14 t d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS]; · iexists _; iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists d14; iexact H14

/-- A middle chunk: the scratch comes at what the point before left and goes back joined with this chunk's
    maximum; the result window is idle. -/
private theorem sound_mid (c : Dev nD) (t : Fin cfg0.N) (h0 : ¬t.val % 8 = 0) (h7 : ¬t.val % 8 = 7) : bodyPre m c t ⊢ wp frame (wpE (defs₀ (F := F)) Variants.none c none) Set.univ (bodyAt0 t) (fun _ => bodyPost m c t) := by
  have hf : ¬isFirst (grid0.coords t) := fun h => h0 ((isFirst_iff t).mp h)
  have hl : ¬isLast (grid0.coords t) := fun h => h7 ((isLast_iff t).mp h)
  have hz : t.val ≠ 0 := fun e => h0 (by rw [e])
  unfold bodyPre bodyPost bodyAt0
  simp only [before_in0, before_in1, before_in2, before_in3, before_in4, before_in5, before_in6, before_in7, before_in8, before_in9, before_in10, before_in11, before_in12, before_in13]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t, leaves_in7 m c t, leaves_in8 m c t, leaves_in9 m c t, leaves_in10 m c t, leaves_in11 m c t, leaves_in12 m c t, leaves_in13 m c t]
  rw [Dat.leavesExact_idle (dats m 0 c) 14 t (idle_res t hl) (noFlush_res t hl)]
  rw [accAt_next m c t h0]
  rw [Phi_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) ((dats m 0 c).before 14 t d14) (accAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d14; iexact H14

/-- An instance's last chunk: the scratch as at a middle chunk; the result buffer, at anything, comes back at the
    head network's value on the finished maximum, which is what the window holds after the body there. -/
private theorem sound_last (c : Dev nD) (t : Fin cfg0.N) (h7 : t.val % 8 = 7) : bodyPre m c t ⊢ wp frame (wpE (defs₀ (F := F)) Variants.none c none) Set.univ (bodyAt0 t) (fun _ => bodyPost m c t) := by
  have h0 : ¬t.val % 8 = 0 := by omega
  have hf : ¬isFirst (grid0.coords t) := fun h => h0 ((isFirst_iff t).mp h)
  have hl : isLast (grid0.coords t) := (isLast_iff t).mpr h7
  have hz : t.val ≠ 0 := fun e => h0 (by rw [e])
  unfold bodyPre bodyPost bodyAt0
  simp only [before_in0, before_in1, before_in2, before_in3, before_in4, before_in5, before_in6, before_in7, before_in8, before_in9, before_in10, before_in11, before_in12, before_in13]
  rw [show (dats m 0 c).owesAt () t.succ = (dats m 0 c).owesAt () t.castSucc from rfl]
  rw [show (dats m 0 c).Φ t.succ = PhiS m c (t.val + 1) t.isLt from rfl, PhiS_succ]
  rw [leaves_in0 m c t, leaves_in1 m c t, leaves_in2 m c t, leaves_in3 m c t, leaves_in4 m c t, leaves_in5 m c t, leaves_in6 m c t, leaves_in7 m c t, leaves_in8 m c t, leaves_in9 m c t, leaves_in10 m c t, leaves_in11 m c t, leaves_in12 m c t, leaves_in13 m c t]
  rw [show (dats m 0 c).leavesExact 14 t = owns (c : Thread nD τ) (ms14 t) fullShare (headAt m c t) from by
    unfold Dat.leavesExact; rw [live_res t hl, after_res]]
  unfold headAt
  rw [accAt_next m c t h0]
  rw [Phi_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) hf hl (ptsAt m c t) (chunkAt m c t) (w1At m c t) (b1At m c t) (w2At m c t) (b2At m c t) (w3At m c t) (b3At m c t) (v1At m c t) (c1At m c t) (v2At m c t) (c2At m c t) (v3At m c t) (c3At m c t) (accAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS]; · iexact HS
  iintro ⟨H0, H1, H2, H3, H4, H5, H6, H7, H8, H9, H10, H11, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point, by the point's case. -/
private theorem sound_body (c : Dev nD) (t : Fin cfg0.N) : bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h7
    · exact sound_mid m c t h0 h7

/-- The library's body obligation at every point: the point's case from the closed forms of the two conditions,
    that case's run on the point's memrefs, the scratch taken from and handed back to the invariant. -/
theorem body_obligation (c : Dev nD) : BodyObligation (dats (F := F) m 0 c) (defs₀ (F := F)) Variants.none () Set.univ := fun t => by
  rw [bigSep_W0, bigSep_W0]
  exact sound_body m c t

/-! ## The invariant's two ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, Hg⟩
  isplitl [HS0]
  · iexists _; iexact HS0
  iexact Hg

end Cert.KernelIdeal.Net

end
-- ==== Proof.Split.lean ====
/-
  The buffers behind the windows' arrays, each held whole, make the pipeline's arrays at their entry contents:
  the re-laid point cloud, which the first two windows both read, is split into two halves, one per window;
  every other array is read by one window and is held outright. And the arrays the region only reads end as they
  began, which for the twelve weight and bias arguments is the launch memory.
-/
import proofs.«118771_j73547019976967_1_alg».proof.Proof.Data
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the last window writes. -/
private theorem isOut_last : ∀ w : Fin cfg0.W, (cfg0.win w).isOut = true → w = 14 := by decide

/-- Every window but the last only reads. -/
private theorem isOut_in : ∀ w : Fin cfg0.W, w.val < 14 → (cfg0.win w).isOut = false := by decide

/-- The share a window's array is held at is the one the proof data name: the writing window's is the full share. -/
private theorem share_eq_q (c : Dev nD) (w : Fin cfg0.W) : (dats m 0 c).share w = (dats m 0 c).q w := by
  unfold Dat.share
  split
  · next h => rw [isOut_last w h]; dsimp only [dats]
  · rfl

/-- Every window's array is a whole buffer, so the arrays at entry are the buffers' points-tos, window by window. -/
private theorem arrays_entry (c : Dev nD) :
    (dats m 0 c).arrays ((dats m 0 c).arrAt · 0)
      = bigSep Finset.univ fun w : Fin 15 =>
          ((((c : Thread nD τ).loc (Pipeline.arrRef spec0 w)) ↦{(dats m 0 c).q w} V m c (Pipeline.arrRef spec0 w)) : sProp 𝕄) := by
  unfold Dat.arrays
  exact bigSep_congr fun w _ => by rw [(arr_whole0 w).set_eq_univ, share_eq_q m c w]; rfl

/-- The fifteen windows read fourteen distinct buffers: the one the first two windows share, the twelve arguments
    read by one window each, and the result. -/
private theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_arg5) ↦{fullShare} W main_arg5)
        ∗ (((c : Thread nD τ).loc main_arg6) ↦{fullShare} W main_arg6) ∗ (((c : Thread nD τ).loc main_arg7) ↦{fullShare} W main_arg7)
        ∗ (((c : Thread nD τ).loc main_arg8) ↦{fullShare} W main_arg8) ∗ (((c : Thread nD τ).loc main_arg9) ↦{fullShare} W main_arg9)
        ∗ (((c : Thread nD τ).loc main_arg10) ↦{fullShare} W main_arg10) ∗ (((c : Thread nD τ).loc main_arg11) ↦{fullShare} W main_arg11)
        ∗ (((c : Thread nD τ).loc main_arg12) ↦{fullShare} W main_arg12) ∗ (((c : Thread nD τ).loc main_v2) ↦{fullShare} W main_v2)) := by
  unfold Pipeline.arrBufs
  exact bigSep_eq_bigSepL_of_eq [main_v1, main_arg1, main_arg2, main_arg3, main_arg4, main_arg5, main_arg6, main_arg7,
    main_arg8, main_arg9, main_arg10, main_arg11, main_arg12, main_v2] (by decide) (by decide) _

/-- The launch's `hsplit`: from the distinct array buffers at `V` to `Dat.arrays` at entry, the shared array split
    by halves between windows 0 and 1. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, bigSep_W0, arrBufs_chain]
  dsimp only [dats]
  iintro ⟨H1, H2, H3, H4, H5, H6, H7, H8, H9, H10, H11, H12, H13, H14⟩
  -- the shared buffer's full share is its left half and its right half, one for each of the first two windows
  ihave H1 := (pointsTo_share (PosShare.mem_left_op_right fullShare)).1 $$ H1
  icases H1 with ⟨Ha, Hb⟩
  isplitl [Ha]; · iexact Ha
  isplitl [Hb]; · iexact Hb
  -- every other buffer goes whole to the one window that holds it
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The host lines before the region write no argument: each argument's entry contents are the launch memory's. -/
theorem V_arg (c : Dev nD) (b : Ref sig .tc)
    (hb : b ∈ ([main_arg0, main_arg1, main_arg2, main_arg3, main_arg4, main_arg5, main_arg6, main_arg7, main_arg8, main_arg9, main_arg10, main_arg11, main_arg12] : List (Ref sig .tc))) :
    V m c b = m ((c : Thread nD τ).loc b) := by
  -- the two reshapes before the region write the two intermediate buffers only, and no argument is one of them
  have hr : b ∉ ([main_v0, main_v1] : List (Ref sig .tc)) := by
    revert b; decide
  have hW : (hostOps0 : List (HloOp τ sig (Elt F))).Forall fun op =>
      op.writes ⊆ (([main_v0, main_v1] : List (Ref sig .tc)).map (Proc.devRef (τ := τ) .tc)).toFinset := by
    simp only [List.Forall, StableHlo.reshape_writes, List.map_cons, List.map_nil, List.toFinset_cons, List.toFinset_nil]
    constructor <;> simp
  show StableHlo.after (List.flatten [hostOps0]) (fun b => m (c, b)) (Proc.devRef .tc b) = _
  simp only [List.flatten_cons, List.flatten_nil, List.append_nil]
  rw [StableHlo.after_of_writes_sub hostOps0 _ hW hr]

/-- An input window's array is never written: after the region it is as the region found it. -/
theorem arr_kept (c : Dev nD) (w : Fin cfg0.W) (hw : w.val < 14) :
    (dats m 0 c).arrAt w cfg0.N = V m c (Pipeline.arrRef spec0 w) := by
  rw [(dats m 0 c).arrAt_in w (isOut_in w hw), A_eq]

end Cert.KernelIdeal.Net

end
-- ==== Proof.Res.lean ====
/-
  The two arrays the value claim is about: what the region leaves in its result array, and the program's result,
  the host's re-laying of it as [4, 4, 40] reduced by maximum from −∞ over the sub-cloud axis.
-/
import proofs.«118771_j73547019976967_1_alg».proof.Proof.Data

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region leaves in its result array `[16, 1, 40]`: the write-backs of all 128 points. -/
abbrev resArr (c : Dev nD) : (⟨S16x1x40, .f32⟩ : BufTy).Contents (Elt F) := (dats m 0 c).arrAt 14 cfg0.N

/-- The program's result `[4, 40]`: the region's result re-laid as `[4, 4, 40]` and reduced by maximum, from −∞,
    over the sub-cloud axis. -/
def result (c : Dev nD) : (⟨S4x40, .f32⟩ : BufTy).Contents (Elt F) :=
  Host.reduce FloatOps.maximumf (shapeCast S4x4x40 (resArr m c) shapeCasts_S16x1x40_S4x4x40)
    (constant S_ .f32 0xFF800000#32) reducesTo_S4x4x40_S4x40_d1 h_S_

end Cert.KernelIdeal.Net

end
-- ==== Proof.Launch.lean ====
/-
  The launch: from a memory with every counter at zero the program runs to the end, nothing faults, the
  thirteen arguments end as they began, and the result array holds the maximum over each cloud's four sub-clouds
  of what the region left in its result array. The region is entered after the two reshapes, its arrays split
  as the shared point cloud asks, and is continued by the three host lines that re-lay and reduce its result.
-/
import proofs.«118771_j73547019976967_1_alg».proof.Proof.Split
import proofs.«118771_j73547019976967_1_alg».proof.Proof.Res

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace LaunchAux

/-! ## The buffers when the region is left, and after the three host lines -/

/-- Core `c`'s buffer contents when the region is left: the result array at what the write-backs made of it,
    every other buffer as the region found it. -/
def Wexit (c : Dev nD) : Valuation τ sig (Elt F) := (StableHlo.nullary main_v2 (resArr m c)).result (V0 m c)

/-- Core `c`'s buffer contents after the three host lines that follow the region. -/
def Wend (c : Dev nD) : Valuation τ sig (Elt F) := StableHlo.after hostOps1 (Wexit m c)

/-- The same read at a TensorCore reference. -/
abbrev Vend (c : Dev nD) (b : Ref sig .tc) : Buf (Elt F) ((c : Thread nD τ).loc b) := Wend m c (Proc.devRef .tc b)

theorem Wexit_v2 (c : Dev nD) : Wexit m c (Proc.devRef .tc main_v2) = resArr m c := by
  unfold Wexit; rw [StableHlo.nullary_result]
theorem Wexit_v3 (c : Dev nD) : Wexit m c (Proc.devRef .tc main_v3) = V m c main_v3 := by
  unfold Wexit; rw [StableHlo.nullary_result_ne]; decide
theorem Wexit_cst (c : Dev nD) : Wexit m c (Proc.devRef .tc main_cst) = V m c main_cst := by
  unfold Wexit; rw [StableHlo.nullary_result_ne]; decide
theorem Wexit_v4 (c : Dev nD) : Wexit m c (Proc.devRef .tc main_v4) = V m c main_v4 := by
  unfold Wexit; rw [StableHlo.nullary_result_ne]; decide

/-- The lines leave the region's result array as it was. -/
theorem Wend_v2 (c : Dev nD) : Wend m c (Proc.devRef .tc main_v2) = resArr m c := by
  unfold Wend Wexit; after_results
/-- They write neither the point cloud nor its first re-laying. -/
theorem Wend_arg0 (c : Dev nD) : Wend m c (Proc.devRef .tc main_arg0) = V m c main_arg0 := by
  unfold Wend Wexit; after_results
theorem Wend_v0 (c : Dev nD) : Wend m c (Proc.devRef .tc main_v0) = V m c main_v0 := by
  unfold Wend Wexit; after_results
/-- The last line's buffer ends at the program's result. -/
theorem Wend_v4 (c : Dev nD) : Wend m c (Proc.devRef .tc main_v4) = result m c := by
  unfold Wend Wexit result; after_results; rfl

/-! ## The buffers the three lines touch -/

/-- The region's result array and the three buffers the lines write. -/
def tailRs : Finset (Ref sig .tc) := {main_v2, main_v3, main_cst, main_v4}
/-- The same as device buffers. -/
def tailS : Finset (DevRef τ sig) := tailRs.map ⟨Proc.devRef (sig := sig) .tc, Proc.devRef_injective _⟩

theorem mem_tailS {b : Ref sig .tc} (hb : b ∈ tailRs) : Proc.devRef (τ := τ) .tc b ∈ tailS :=
  Finset.mem_map_of_mem _ hb

/-- The four buffers held at a valuation, one by one. -/
theorem held_tailS (c : Dev nD) (W : Valuation τ sig (Elt F)) :
    (StableHlo.held (c.tc : Thread nD τ) tailS W : sProp 𝕄)
      = iprop((((c : Thread nD τ).loc main_v2) ↦{fullShare} W (Proc.devRef .tc main_v2))
          ∗ (((c : Thread nD τ).loc main_v3) ↦{fullShare} W (Proc.devRef .tc main_v3))
          ∗ (((c : Thread nD τ).loc main_cst) ↦{fullShare} W (Proc.devRef .tc main_cst))
          ∗ (((c : Thread nD τ).loc main_v4) ↦{fullShare} W (Proc.devRef .tc main_v4))) := by
  unfold StableHlo.held tailS tailRs
  rw [bigSep_map, bigSep_insert (by decide), bigSep_insert (by decide), bigSep_insert (by decide), bigSep_singleton]
  rfl

theorem hostOps1_tailS : ∀ op ∈ (hostOps1 : List (HloOp τ sig (Elt F))), op.bufs ⊆ tailS := by
  intro op hop
  simp only [hostOps1, List.mem_cons, List.mem_nil_iff, or_false] at hop
  rcases hop with rfl | rfl | rfl
  · rw [StableHlo.reshape_bufs]
    intro b hb
    simp only [Finset.mem_insert, Finset.mem_singleton] at hb
    rcases hb with rfl | rfl <;> exact mem_tailS (by decide)
  · rw [StableHlo.nullary_bufs]
    intro b hb
    simp only [Finset.mem_singleton] at hb
    rcases hb with rfl; exact mem_tailS (by decide)
  · rw [StableHlo.binary_bufs]
    intro b hb
    simp only [Finset.mem_insert, Finset.mem_singleton] at hb
    rcases hb with rfl | rfl | rfl <;> exact mem_tailS (by decide)

/-! ## The result window's array out of the pipeline's arrays -/

/-- The result window is an output: its array is held at the full share. -/
theorem share_res (c : Dev nD) : (dats m 0 c).share 14 = fullShare := rfl

/-- The input windows' arrays, each at its share. -/
def arrIn (c : Dev nD) (A : (w : Fin cfg0.W) → Buf (Elt F) ((cfg0.win w).arr.view.loc (c.tc : Thread nD τ))) : sProp 𝕄 :=
  bigSep (Finset.univ.erase (14 : Fin cfg0.W)) fun w : Fin cfg0.W =>
    (cfg0.win w).arr.view.loc (c.tc : Thread nD τ) ↦[(cfg0.win w).arr.view.set]{(dats m 0 c).share w} A w

/-- The pipeline's arrays are the result array, a whole buffer at the full share, and the input windows' arrays. -/
theorem arrays_res (c : Dev nD) (A : (w : Fin cfg0.W) → Buf (Elt F) ((cfg0.win w).arr.view.loc (c.tc : Thread nD τ))) :
    ((dats m 0 c).arrays A : sProp 𝕄)
      = iprop((((c : Thread nD τ).loc main_v2) ↦{fullShare} A 14) ∗ arrIn m c A) := by
  unfold Dat.arrays arrIn
  rw [bigSep_univ_split (14 : Fin cfg0.W), (arr_whole0 14).set_eq_univ, share_res]
  rfl

/-! ## Two of the buffers that bypass the region -/

theorem arg0_rest : main_arg0 ∈ (Finset.univ.filter fun b : Ref sig .tc => ¬ b.isScoped) \ Finset.univ.image (Pipeline.arrRef spec0) := by
  decide
theorem v4_rest : main_v4 ∈ (Finset.univ.filter fun b : Ref sig .tc => ¬ b.isScoped) \ Finset.univ.image (Pipeline.arrRef spec0) := by
  decide

/-- The three lines run from the four buffers at the region's exit contents to the same at the contents after them. -/
theorem tail_lines (c : Dev nD) (Q' : PUnit → sProp 𝕄) :
    iprop(boundary (c.tc : Thread nD τ)
        ∗ (((c : Thread nD τ).loc main_v2) ↦{fullShare} resArr m c)
        ∗ (((c : Thread nD τ).loc main_v3) ↦{fullShare} V m c main_v3)
        ∗ (((c : Thread nD τ).loc main_cst) ↦{fullShare} V m c main_cst)
        ∗ (((c : Thread nD τ).loc main_v4) ↦{fullShare} V m c main_v4))
      ⊢ iprop((iprop(boundary (c.tc : Thread nD τ)
            ∗ (((c : Thread nD τ).loc main_v2) ↦{fullShare} resArr m c)
            ∗ (((c : Thread nD τ).loc main_v3) ↦{fullShare} Vend m c main_v3)
            ∗ (((c : Thread nD τ).loc main_cst) ↦{fullShare} Vend m c main_cst)
            ∗ (((c : Thread nD τ).loc main_v4) ↦{fullShare} Vend m c main_v4)) -∗ |={Set.univ}=> Q' ⟨⟩)
        -∗ wp frame (wpE (Pipeline.defs (pcfgs (F := F)) defs₀) (Variants.lift Variants.none) (c.tc : Thread nD τ) none) Set.univ
            (Pipeline.chain [StableHlo.seq hostOps1]) Q') := by
  have hseq := StableHlo.wp_seq (defs := Pipeline.defs (pcfgs (F := F)) defs₀) (Ix := Unit) (Name := ℕ) (U := UR sig nD τ) (Lvl := ℕ)
    (Variants.lift Variants.none) none Set.univ c tailS (fun _ => Pipeline.chain []) (K := Q') hostOps1 hostOps1_tailS
    (fun op hop => (List.forall_iff_forall_mem.mp hostOps1_fresh) op hop) (Wexit m c)
  rw [held_tailS, held_tailS, Wexit_v2, Wexit_v3, Wexit_cst, Wexit_v4, Pipeline.chain_nil, wp_pure,
    show StableHlo.after hostOps1 (Wexit m c) (Proc.devRef .tc main_v2) = resArr m c from Wend_v2 m c] at hseq
  rw [Pipeline.chain_cons, Pipeline.chain_nil]
  exact hseq

/-- The lines after the region: from the region's exit they run within the result array and the three buffers they
    write, and hand back the arrays as they were and the bypassing buffers at the contents after the lines. -/
theorem htail (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_res, unscopedRest0_eq, unscopedRest0_eq,
    show Vend m c main_arg0 = V m c main_arg0 from Wend_arg0 m c, show Vend m c main_v0 = V m c main_v0 from Wend_v0 m c]
  iintro ⟨Hk, Hb, ⟨H2, HR⟩, Ha0, Hv0, Hv3, Hcst, Hv4⟩
  iapply (tail_lines m c Q') $$ [Hb H2 Hv3 Hcst Hv4]
  · isplitl [Hb]; · iexact Hb
    isplitl [H2]; · iexact H2
    isplitl [Hv3]; · iexact Hv3
    isplitl [Hcst]; · iexact Hcst
    iexact Hv4
  iintro ⟨Hb, H2, Hv3, Hcst, Hv4⟩
  imodintro
  iapply Hk
  isplitl [H2 HR]
  · isplitl [H2]
    · iexact H2
    · iexact HR
  isplitl [Ha0]; · iexact Ha0
  isplitl [Hv0]; · iexact Hv0
  isplitl [Hv3]; · iexact Hv3
  isplitl [Hcst]; · iexact Hcst
  iexact Hv4

end LaunchAux

open LaunchAux

/-- THE RUN, at any float instance. -/
theorem run_main : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  unfold defs
  refine Pipeline.θ_run_region_pf_tail (pcfgs (F := F)) (fun p => (cfgs p).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := ?hu) (V := V m) (hmain := hmain m Variants.none) (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := ?hX) (hin := ?hin) (hout := ?hout) (htail := htail m)
    (QY := fun c s => s.mem ((c.tc : Thread nD τ).loc main_arg0) = m ((c.tc : Thread nD τ).loc main_arg0)
        ∧ s.mem ((c.tc : Thread nD τ).loc main_v4) = result m c)
    (hY := ?hY) (hQ := ?hQ)
  case hu =>
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hX =>
    intro c
    rw [Pipeline.unscopedRestP_none]
    iintro ⟨HU, -, -, -, Hp, -⟩; imodintro
    isplitl [Hp]; · iexists _; iexact Hp
    iexact HU
  case hin =>
    intro c
    refine (show _ ⊢ Pipeline.ΦA spec0 c from ?_).trans (hin m c)
    unfold Pipeline.ΦA; iintro ⟨Hp, -, Hr⟩
    isplitl [Hr] <;> iassumption
  case hout =>
    intro c
    refine (hout m c).trans ?_
    rw [Pipeline.ownSems0_none]; unfold Pipeline.ΦA
    iintro ⟨Hr, Hp⟩
    isplitl [Hp]; · iexact Hp
    isplitr; · iempintro
    iexact Hr
  case hY =>
    intro c s'
    iintro ⟨-, HU, HSI⟩
    unfold Pipeline.unscopedRest
    imodintro
    ihave H := (pointsTo_read_all _ (fun b => (c.tc : Thread nD τ).loc b) (Vend m c) s') $$ [HU HSI]
    · isplitl [HU] <;> iassumption
    icases H with ⟨%h, HSI⟩
    isplitr
    · ipureintro
      refine ⟨?_, ?_⟩
      · rw [h main_arg0 arg0_rest]; exact (Wend_arg0 m c).trans (V_arg m c main_arg0 (by decide))
      · rw [h main_v4 v4_rest]; exact Wend_v4 m c
    · iexact HSI
  case hQ =>
    intro s h c
    obtain ⟨hw, -, h0, h4⟩ := h c
    refine ⟨h4, h0, ?_, ?_, ?_, ?_, ?_, ?_, ?_, ?_, ?_, ?_, ?_, ?_⟩
    · exact ((hw 2).trans (arr_kept m c 2 (by decide))).trans (V_arg m c main_arg1 (by decide))
    · exact ((hw 3).trans (arr_kept m c 3 (by decide))).trans (V_arg m c main_arg2 (by decide))
    · exact ((hw 4).trans (arr_kept m c 4 (by decide))).trans (V_arg m c main_arg3 (by decide))
    · exact ((hw 5).trans (arr_kept m c 5 (by decide))).trans (V_arg m c main_arg4 (by decide))
    · exact ((hw 6).trans (arr_kept m c 6 (by decide))).trans (V_arg m c main_arg5 (by decide))
    · exact ((hw 7).trans (arr_kept m c 7 (by decide))).trans (V_arg m c main_arg6 (by decide))
    · exact ((hw 8).trans (arr_kept m c 8 (by decide))).trans (V_arg m c main_arg7 (by decide))
    · exact ((hw 9).trans (arr_kept m c 9 (by decide))).trans (V_arg m c main_arg8 (by decide))
    · exact ((hw 10).trans (arr_kept m c 10 (by decide))).trans (V_arg m c main_arg9 (by decide))
    · exact ((hw 11).trans (arr_kept m c 11 (by decide))).trans (V_arg m c main_arg10 (by decide))
    · exact ((hw 12).trans (arr_kept m c 12 (by decide))).trans (V_arg m c main_arg11 (by decide))
    · exact ((hw 13).trans (arr_kept m c 13 (by decide))).trans (V_arg m c main_arg12 (by decide))

end Cert.KernelIdeal.Net

end
-- ==== Proof.Grid.lean ====
/-
  A grid point named by its instance (one of 16 sub-clouds) and its chunk (one of 8 groups of 16 rows): the
  point's position in the row-major 16 × 8 grid, the cloud and sub-cloud the instance stands for, and the row of
  the sub-cloud a chunk's local row is.
-/
import proofs.«118771_j73547019976967_1_alg».proof.Proof.Base

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Position 8 · I + s of the grid. -/
def ptOf (I : Fin 16) (s : Fin 8) : Fin cfg0.N :=
  ⟨8 * I.val + s.val, by have h1 := I.isLt; have h2 := s.isLt; have : cfg0.N = 128 := N_0; omega⟩

theorem ptOf_val (I : Fin 16) (s : Fin 8) : (ptOf I s).val = 8 * I.val + s.val := rfl

/-- Instance I is sub-cloud I % 4 of cloud I / 4. -/
def cloudOf (I : Fin 16) : Fin 4 := ⟨I.val / 4, by have := I.isLt; omega⟩
def subOf (I : Fin 16) : Fin 4 := ⟨I.val % 4, by omega⟩

/-- Local row r of chunk s is row 16 · s + r of the sub-cloud. -/
def rowOf (s : Fin 8) (r : Fin 16) : Fin 128 := ⟨16 * s.val + r.val, by have := s.isLt; have := r.isLt; omega⟩

/-- Pair (r, j) of a chunk is column 128 · r + j of the chunk's 2048. -/
def pairCol (r : Fin 16) (j : Fin 128) : Fin 2048 := ⟨128 * r.val + j.val, by have := r.isLt; have := j.isLt; omega⟩

end Cert.KernelIdeal.Net

end
-- ==== Proof.Out.lean ====
/-
  The region's result array row by row: row I of the `[16, 1, 40]` array is what the last chunk of instance I
  stored — the only point that writes that block back — so it holds the head network's value on the instance's
  finished maximum.
-/
import proofs.«118771_j73547019976967_1_alg».proof.Proof.Res
import proofs.«118771_j73547019976967_1_alg».proof.Proof.Grid
import Idealize.ShloMosaic.Lib.ValueIdx
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

namespace OutAux

/-- The result window's index map, decided over the grid: at point `t` the block is row `t / 8` of the array,
    at offset zero on the two other axes. -/
theorem res_index : ∀ t : Fin cfg0.N, win0_14.index t (0 : Fin 3) = t.val / 8
    ∧ win0_14.index t (1 : Fin 3) = 0 ∧ win0_14.index t (2 : Fin 3) = 0 :=
  (by decide +kernel : ∀ t : Fin grid0.N, _)

/-- The whole result array as one function of the points' blocks: row `i` is what instance `i`'s last chunk stored. -/
def resG (c : Dev nD) : S16x1x40.Idx → Elt F .f32 :=
  fun i => headAt m c (ptOf (i 0) 7) (ix3 (0 : Fin 1) (0 : Fin 1) (i 2))

/-- An index of the array is in point `t`'s block iff each coordinate is in the block's range on its axis. -/
theorem mem_res_blk (t : Fin cfg0.N) (i : S16x1x40.Idx) :
    i ∈ ((cfg0.win 14).blk t).view.set ↔ ∀ a : Fin 3, win0_14.index t a * S1x1x40.size a ≤ (i a).val ∧ (i a).val < win0_14.index t a * S1x1x40.size a + S1x1x40.size a := by
  show i ∈ ((View.whole main_v2).slice (win0_14.rect t)).set ↔ _
  rw [View.set_slice_whole, Rect.mem_set_unit]
  exact Iff.rfl

/-- What a last chunk writes back is its block of that one function: the block at point `t = 8·I + 7` is row `I`. -/
theorem res_flushed (c : Dev nD) (t : Fin cfg0.N) (hf : (cfg0.win 14).flush t = true) :
    (dats m 0 c).flushed 14 t = ((cfg0.win 14).blk t).view.read (Elt F) (resG m c) := by
  have h7 : t.val % 8 = 7 := (flush0_14 t).mp hf
  obtain ⟨e0, e1, e2⟩ := res_index t
  show (cfg0.win 14).cut (grid0.coords t) ((dats m 0 c).after 14 t) = _
  rw [after_res]
  funext y
  rw [View.read_apply]
  show headAt m c t y = resG m c (((cfg0.win 14).blk t).view.emb y)
  unfold resG
  have hy0 : (y 0).val < 1 := (y 0).isLt
  have hy1 : (y 1).val < 1 := (y 1).isLt
  have hy2 : (y 2).val < 40 := (y 2).isLt
  have h7v : ((7 : Fin 8) : ℕ) = 7 := rfl
  have c0 : ((((cfg0.win 14).blk t).view.emb y) 0).val = win0_14.index t (0 : Fin 3) * 1 + 1 * (y 0).val := rfl
  have c2 : ((((cfg0.win 14).blk t).view.emb y) 2).val = win0_14.index t (2 : Fin 3) * 40 + 1 * (y 2).val := rfl
  have ht : ptOf ((((cfg0.win 14).blk t).view.emb y) 0) 7 = t := Fin.ext (by
    show 8 * ((((cfg0.win 14).blk t).view.emb y) 0).val + 7 = t.val
    omega)
  have hy : (ix3 (0 : Fin 1) (0 : Fin 1) ((((cfg0.win 14).blk t).view.emb y) 2) : S1x1x40.Idx) = y := by
    funext a
    apply Fin.ext
    match a with
    | ⟨0, _⟩ => show 0 = (y 0).val; omega
    | ⟨1, _⟩ => show 0 = (y 1).val; omega
    | ⟨2, _⟩ => show ((((cfg0.win 14).blk t).view.emb y) 2).val = (y 2).val; omega
  have key : ∀ (t' : Fin cfg0.N) (y' : S1x1x40.Idx), t' = t → y' = y → headAt m c t y = headAt m c t' y' := by
    rintro _ _ rfl rfl; rfl
  exact key _ _ ht hy

end OutAux

open OutAux in
/-- Row I of the region's result array is the block instance I's last chunk stored. -/
theorem resArr_apply (c : Dev nD) (I : Fin 16) (o : Fin 40) :
    resArr m c (ix3 I (0 : Fin 1) o) = headAt m c (ptOf I 7) (ix3 (0 : Fin 1) (0 : Fin 1) o) := by
  have h7v : ((7 : Fin 8) : ℕ) = 7 := rfl
  have hpt : (ptOf I 7).val = 8 * I.val + 7 := by rw [ptOf_val, h7v]
  have hf : (cfg0.win 14).flush (ptOf I 7) = true := (flush0_14 _).mpr (by rw [hpt]; omega)
  have hmem : (ix3 I (0 : Fin 1) o : S16x1x40.Idx) ∈ ((cfg0.win 14).blk (ptOf I 7)).view.set := by
    rw [mem_res_blk]
    obtain ⟨e0, e1, e2⟩ := res_index (ptOf I 7)
    have ho := o.isLt
    intro a
    match a with
    | ⟨0, _⟩ => show win0_14.index (ptOf I 7) (0 : Fin 3) * 1 ≤ I.val ∧ I.val < win0_14.index (ptOf I 7) (0 : Fin 3) * 1 + 1; rw [e0, hpt]; omega
    | ⟨1, _⟩ => show win0_14.index (ptOf I 7) (1 : Fin 3) * 1 ≤ 0 ∧ 0 < win0_14.index (ptOf I 7) (1 : Fin 3) * 1 + 1; rw [e1]; omega
    | ⟨2, _⟩ => show win0_14.index (ptOf I 7) (2 : Fin 3) * 40 ≤ o.val ∧ o.val < win0_14.index (ptOf I 7) (2 : Fin 3) * 40 + 40; rw [e2]; omega
  exact (dats m 0 c).arrAt_apply_of_mem 14 (resG m c) (res_flushed m c) cfg0.N (ptOf I 7) _ (ptOf I 7).isLt hf hmem

end Cert.KernelIdeal.Net

end
-- ==== Proof.Spec.lean ====
/-
  THE SPECIFICATION both programs are read against, on the extended reals.

  A point cloud X : [4, 512, 3] is cut into 4 × 4 sub-clouds of 128 points. For a sub-cloud (b, d) and an
  ordered pair of its points (i, j) the pair's feature is x_j followed by x_i (6 numbers); three dense layers
  (6 → 64 → 128 → 256, the first two followed by max(·, 0)) give the pair's 256 activations; the sub-cloud's
  descriptor is their channel-wise supremum over all 128 · 128 pairs; three more dense layers
  (256 → 512 → 256 → 40, the first two followed by max(·, 0)) give the sub-cloud's 40 scores; the result at (b, o)
  is the supremum of the scores over the four sub-clouds d of cloud b.
  Every product is written activation × weight and every layer as (sum over the contracted index) + bias.
-/
import Idealize.ShloMosaic.PureOps.Ideal
import Idealize.ShloMosaic.Lib.ValueIdx

noncomputable section

open scoped BigOperators

namespace Cert.Spec

open Idealize.ShloMosaic Idealize.ShloMosaic.ValueIdx

abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The f32 zero, kept as its pattern (the same word on both sides is never evaluated). -/
abbrev zero : EReal := Ideal.ofBits .f32 0x00000000#32

/-- The thirteen argument arrays. -/
structure Args where
  X : A3 4 512 3
  W1 : A2 64 6
  b1 : A1 64
  W2 : A2 128 64
  b2 : A1 128
  W3 : A2 256 128
  b3 : A1 256
  V1 : A2 512 256
  c1 : A1 512
  V2 : A2 256 512
  c2 : A1 256
  V3 : A2 40 256
  c3 : A1 40

variable (a : Args)

/-- Coordinate `k` of point `j` of sub-cloud (b, d): row d · 128 + j of cloud b. -/
def pt (b d : Fin 4) (j : Fin 128) (k : Fin 3) : EReal :=
  a.X (ix3 b (⟨d.val * 128 + j.val, by have := d.isLt; have := j.isLt; omega⟩ : Fin 512) k)

/-- The pair (i, j)'s feature: x_j, then x_i. -/
def feat (b d : Fin 4) (i j : Fin 128) (k : Fin 6) : EReal :=
  if h : k.val < 3 then pt a b d j ⟨k.val, h⟩ else pt a b d i ⟨k.val - 3, by have := k.isLt; omega⟩

def hid1 (b d : Fin 4) (i j : Fin 128) (o : Fin 64) : EReal :=
  max (∑ k : Fin 6, feat a b d i j k * a.W1 (ix2 o k) + a.b1 (ix1 o)) zero

def hid2 (b d : Fin 4) (i j : Fin 128) (o : Fin 128) : EReal :=
  max (∑ k : Fin 64, hid1 a b d i j k * a.W2 (ix2 o k) + a.b2 (ix1 o)) zero

/-- The pair's activations (no max after the third layer). -/
def act3 (b d : Fin 4) (i j : Fin 128) (o : Fin 256) : EReal :=
  ∑ k : Fin 128, hid2 a b d i j k * a.W3 (ix2 o k) + a.b3 (ix1 o)

/-- The sub-cloud's descriptor: the supremum over all ordered pairs. -/
def pooled (b d : Fin 4) (o : Fin 256) : EReal := ⨆ i : Fin 128, ⨆ j : Fin 128, act3 a b d i j o

def fc1 (b d : Fin 4) (o : Fin 512) : EReal :=
  max (∑ k : Fin 256, pooled a b d k * a.V1 (ix2 o k) + a.c1 (ix1 o)) zero

def fc2 (b d : Fin 4) (o : Fin 256) : EReal :=
  max (∑ k : Fin 512, fc1 a b d k * a.V2 (ix2 o k) + a.c2 (ix1 o)) zero

/-- The sub-cloud's scores. -/
def score (b d : Fin 4) (o : Fin 40) : EReal :=
  ∑ k : Fin 256, fc2 a b d k * a.V3 (ix2 o k) + a.c3 (ix1 o)

/-- The result: the supremum of the scores over a cloud's four sub-clouds. -/
def out : A2 4 40 := fun i => ⨆ d : Fin 4, score a (i 0) d (i 1)

end Cert.Spec

end
-- ==== Proof.BlocksIdeal.lean ====
/-
  The blocks of a grid point as functions of the argument arrays, on the extended reals: the first window's
  block is the instance's whole sub-cloud, the second's the chunk's sixteen rows of it (both through the two
  reshapes [4, 512, 3] → [4, 4, 128, 3] → [16, 128, 3] done before the region), and each weight or bias window's
  block is its whole array.
-/
import proofs.«118771_j73547019976967_1_alg».proof.Proof.Blocks
import proofs.«118771_j73547019976967_1_alg».proof.Proof.Grid
import proofs.«118771_j73547019976967_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- The thirteen arguments as the launch memory holds them. -/
def argsOf (c : Dev nD) : Cert.Spec.Args where
  X := m ((c : Thread nD τ).loc main_arg0)
  W1 := m ((c : Thread nD τ).loc main_arg1)
  b1 := m ((c : Thread nD τ).loc main_arg2)
  W2 := m ((c : Thread nD τ).loc main_arg3)
  b2 := m ((c : Thread nD τ).loc main_arg4)
  W3 := m ((c : Thread nD τ).loc main_arg5)
  b3 := m ((c : Thread nD τ).loc main_arg6)
  V1 := m ((c : Thread nD τ).loc main_arg7)
  c1 := m ((c : Thread nD τ).loc main_arg8)
  V2 := m ((c : Thread nD τ).loc main_arg9)
  c2 := m ((c : Thread nD τ).loc main_arg10)
  V3 := m ((c : Thread nD τ).loc main_arg11)
  c3 := m ((c : Thread nD τ).loc main_arg12)

/-! ## The arrays at the region's entry -/

namespace BlocksIdealAux

/-- An array neither reshape writes holds at the region's entry what the launch memory holds. -/
theorem V_of_ne (c : Dev nD) (r : Ref sig .tc) (h0 : r ≠ main_v0) (h1 : r ≠ main_v1) :
    V m c r = m ((c : Thread nD τ).loc r) := by
  dsimp only [V, V0]
  simp only [hostOps0, List.flatten_cons, List.flatten_nil, List.append_nil, StableHlo.after_cons, StableHlo.after_nil]
  rw [StableHlo.reshape_result_ne (h := h1), StableHlo.reshape_result_ne (h := h0)]

/-- The sub-cloud array at the region's entry: the point cloud through the two reshapes. -/
theorem V_v1 (c : Dev nD) :
    V m c main_v1 = shapeCast S16x128x3 (shapeCast S4x4x128x3 (m ((c : Thread nD τ).loc main_arg0)) shapeCasts_S4x512x3_S4x4x128x3) shapeCasts_S4x4x128x3_S16x128x3 := by
  dsimp only [V, V0]
  simp only [hostOps0, List.flatten_cons, List.flatten_nil, List.append_nil]
  after_results
  rfl

/-- The twice reshaped point cloud at row j of instance I: row (I % 4) · 128 + j of cloud I / 4. -/
theorem subcloud_apply (c : Dev nD) (i : S16x128x3.Idx) (I : Fin 16) (j : Fin 128) (k : Fin 3)
    (h0 : (i 0).val = I.val) (h1 : (i 1).val = j.val) (h2 : (i 2).val = k.val) :
    shapeCast S16x128x3 (shapeCast S4x4x128x3 (m ((c : Thread nD τ).loc main_arg0)) shapeCasts_S4x512x3_S4x4x128x3) shapeCasts_S4x4x128x3_S16x128x3 i
      = Cert.Spec.pt (argsOf m c) (cloudOf I) (subOf I) j k := by
  have hI := I.isLt
  have hj := j.isLt
  have hk := k.isLt
  refine (shapeCast_apply _ shapeCasts_S4x4x128x3_S16x128x3 i (ix4 (cloudOf I) (subOf I) j k) ?_).trans ?_
  · rewrite [Shape.rowMajor_val_three, Shape.rowMajor_val_four]
    show (((I.val / 4) * 4 + I.val % 4) * 128 + j.val) * 3 + k.val = ((i 0).val * 128 + (i 1).val) * 3 + (i 2).val
    rw [h0, h1, h2]; omega
  · refine (shapeCast_apply _ shapeCasts_S4x512x3_S4x4x128x3 (ix4 (cloudOf I) (subOf I) j k)
      (ix3 (cloudOf I) (⟨(subOf I).val * 128 + j.val, by have := (subOf I).isLt; omega⟩ : Fin 512) k) ?_).trans rfl
    rewrite [Shape.rowMajor_val_three, Shape.rowMajor_val_four]
    show ((I.val / 4) * 512 + (I.val % 4 * 128 + j.val)) * 3 + k.val = (((I.val / 4) * 4 + I.val % 4) * 128 + j.val) * 3 + k.val
    omega

end BlocksIdealAux

/-- Row j of the instance's sub-cloud. -/
theorem ptsAt_apply (c : Dev nD) (I : Fin 16) (s : Fin 8) (j : Fin 128) (k : Fin 3) :
    ptsAt m c (ptOf I s) (ix3 (0 : Fin 1) j k) = Cert.Spec.pt (argsOf m c) (cloudOf I) (subOf I) j k := by
  have hi : ∀ t : Fin cfg0.N, win0_0.index t (0 : Fin 3) = t.val / 8 ∧ win0_0.index t (1 : Fin 3) = 0 ∧ win0_0.index t (2 : Fin 3) = 0 :=
    (by decide +kernel : ∀ t : Fin grid0.N, _)
  show V m c main_v1 (((cfg0.win 0).blk (ptOf I s)).view.emb (ix3 (0 : Fin 1) j k)) = _
  rw [BlocksIdealAux.V_v1]
  exact BlocksIdealAux.subcloud_apply m c _ I j k
    (by show win0_0.index (ptOf I s) 0 * 1 + 1 * (0 : Fin 1).val = I.val
        rw [(hi _).1, ptOf_val]; have := s.isLt; show (8 * I.val + s.val) / 8 * 1 + 1 * 0 = I.val; omega)
    (by show win0_0.index (ptOf I s) 1 * 128 + 1 * j.val = j.val; rw [(hi _).2.1]; omega)
    (by show win0_0.index (ptOf I s) 2 * 3 + 1 * k.val = k.val; rw [(hi _).2.2]; omega)

/-- Local row r of chunk s. -/
theorem chunkAt_apply (c : Dev nD) (I : Fin 16) (s : Fin 8) (r : Fin 16) (k : Fin 3) :
    chunkAt m c (ptOf I s) (ix3 (0 : Fin 1) r k) = Cert.Spec.pt (argsOf m c) (cloudOf I) (subOf I) (rowOf s r) k := by
  have hi : ∀ t : Fin cfg0.N, win0_1.index t (0 : Fin 3) = t.val / 8 ∧ win0_1.index t (1 : Fin 3) = t.val % 8 ∧ win0_1.index t (2 : Fin 3) = 0 :=
    (by decide +kernel : ∀ t : Fin grid0.N, _)
  show V m c main_v1 (((cfg0.win 1).blk (ptOf I s)).view.emb (ix3 (0 : Fin 1) r k)) = _
  rw [BlocksIdealAux.V_v1]
  exact BlocksIdealAux.subcloud_apply m c _ I (rowOf s r) k
    (by show win0_1.index (ptOf I s) 0 * 1 + 1 * (0 : Fin 1).val = I.val
        rw [(hi _).1, ptOf_val]; have := s.isLt; show (8 * I.val + s.val) / 8 * 1 + 1 * 0 = I.val; omega)
    (by show win0_1.index (ptOf I s) 1 * 16 + 1 * r.val = 16 * s.val + r.val
        rw [(hi _).2.1, ptOf_val]; have := s.isLt; omega)
    (by show win0_1.index (ptOf I s) 2 * 3 + 1 * k.val = k.val; rw [(hi _).2.2]; omega)

theorem w1At_eq (c : Dev nD) (t : Fin cfg0.N) : w1At m c t = (argsOf m c).W1 := by
  have hi : ∀ t : Fin cfg0.N, win0_2.index t (0 : Fin 2) = 0 ∧ win0_2.index t (1 : Fin 2) = 0 :=
    (by decide +kernel : ∀ t : Fin grid0.N, _)
  funext y
  show V m c main_arg1 (((cfg0.win 2).blk t).view.emb y) = m ((c : Thread nD τ).loc main_arg1) y
  rw [BlocksIdealAux.V_of_ne m c main_arg1 (by decide) (by decide)]
  refine congrArg _ (funext fun a => Fin.ext ?_)
  match a with
  | ⟨0, _⟩ => show win0_2.index t 0 * 64 + 1 * (y 0).val = (y 0).val; rw [(hi t).1]; omega
  | ⟨1, _⟩ => show win0_2.index t 1 * 6 + 1 * (y 1).val = (y 1).val; rw [(hi t).2]; omega
theorem b1At_eq (c : Dev nD) (t : Fin cfg0.N) : b1At m c t = (argsOf m c).b1 := by
  have hi : ∀ t : Fin cfg0.N, win0_3.index t (0 : Fin 1) = 0 :=
    (by decide +kernel : ∀ t : Fin grid0.N, _)
  funext y
  show V m c main_arg2 (((cfg0.win 3).blk t).view.emb y) = m ((c : Thread nD τ).loc main_arg2) y
  rw [BlocksIdealAux.V_of_ne m c main_arg2 (by decide) (by decide)]
  refine congrArg _ (funext fun a => Fin.ext ?_)
  match a with
  | ⟨0, _⟩ => show win0_3.index t 0 * 64 + 1 * (y 0).val = (y 0).val; rw [hi t]; omega
theorem w2At_eq (c : Dev nD) (t : Fin cfg0.N) : w2At m c t = (argsOf m c).W2 := by
  have hi : ∀ t : Fin cfg0.N, win0_4.index t (0 : Fin 2) = 0 ∧ win0_4.index t (1 : Fin 2) = 0 :=
    (by decide +kernel : ∀ t : Fin grid0.N, _)
  funext y
  show V m c main_arg3 (((cfg0.win 4).blk t).view.emb y) = m ((c : Thread nD τ).loc main_arg3) y
  rw [BlocksIdealAux.V_of_ne m c main_arg3 (by decide) (by decide)]
  refine congrArg _ (funext fun a => Fin.ext ?_)
  match a with
  | ⟨0, _⟩ => show win0_4.index t 0 * 128 + 1 * (y 0).val = (y 0).val; rw [(hi t).1]; omega
  | ⟨1, _⟩ => show win0_4.index t 1 * 64 + 1 * (y 1).val = (y 1).val; rw [(hi t).2]; omega
theorem b2At_eq (c : Dev nD) (t : Fin cfg0.N) : b2At m c t = (argsOf m c).b2 := by
  have hi : ∀ t : Fin cfg0.N, win0_5.index t (0 : Fin 1) = 0 :=
    (by decide +kernel : ∀ t : Fin grid0.N, _)
  funext y
  show V m c main_arg4 (((cfg0.win 5).blk t).view.emb y) = m ((c : Thread nD τ).loc main_arg4) y
  rw [BlocksIdealAux.V_of_ne m c main_arg4 (by decide) (by decide)]
  refine congrArg _ (funext fun a => Fin.ext ?_)
  match a with
  | ⟨0, _⟩ => show win0_5.index t 0 * 128 + 1 * (y 0).val = (y 0).val; rw [hi t]; omega
theorem w3At_eq (c : Dev nD) (t : Fin cfg0.N) : w3At m c t = (argsOf m c).W3 := by
  have hi : ∀ t : Fin cfg0.N, win0_6.index t (0 : Fin 2) = 0 ∧ win0_6.index t (1 : Fin 2) = 0 :=
    (by decide +kernel : ∀ t : Fin grid0.N, _)
  funext y
  show V m c main_arg5 (((cfg0.win 6).blk t).view.emb y) = m ((c : Thread nD τ).loc main_arg5) y
  rw [BlocksIdealAux.V_of_ne m c main_arg5 (by decide) (by decide)]
  refine congrArg _ (funext fun a => Fin.ext ?_)
  match a with
  | ⟨0, _⟩ => show win0_6.index t 0 * 256 + 1 * (y 0).val = (y 0).val; rw [(hi t).1]; omega
  | ⟨1, _⟩ => show win0_6.index t 1 * 128 + 1 * (y 1).val = (y 1).val; rw [(hi t).2]; omega
theorem b3At_eq (c : Dev nD) (t : Fin cfg0.N) : b3At m c t = (argsOf m c).b3 := by
  have hi : ∀ t : Fin cfg0.N, win0_7.index t (0 : Fin 1) = 0 :=
    (by decide +kernel : ∀ t : Fin grid0.N, _)
  funext y
  show V m c main_arg6 (((cfg0.win 7).blk t).view.emb y) = m ((c : Thread nD τ).loc main_arg6) y
  rw [BlocksIdealAux.V_of_ne m c main_arg6 (by decide) (by decide)]
  refine congrArg _ (funext fun a => Fin.ext ?_)
  match a with
  | ⟨0, _⟩ => show win0_7.index t 0 * 256 + 1 * (y 0).val = (y 0).val; rw [hi t]; omega
theorem v1At_eq (c : Dev nD) (t : Fin cfg0.N) : v1At m c t = (argsOf m c).V1 := by
  have hi : ∀ t : Fin cfg0.N, win0_8.index t (0 : Fin 2) = 0 ∧ win0_8.index t (1 : Fin 2) = 0 :=
    (by decide +kernel : ∀ t : Fin grid0.N, _)
  funext y
  show V m c main_arg7 (((cfg0.win 8).blk t).view.emb y) = m ((c : Thread nD τ).loc main_arg7) y
  rw [BlocksIdealAux.V_of_ne m c main_arg7 (by decide) (by decide)]
  refine congrArg _ (funext fun a => Fin.ext ?_)
  match a with
  | ⟨0, _⟩ => show win0_8.index t 0 * 512 + 1 * (y 0).val = (y 0).val; rw [(hi t).1]; omega
  | ⟨1, _⟩ => show win0_8.index t 1 * 256 + 1 * (y 1).val = (y 1).val; rw [(hi t).2]; omega
theorem c1At_eq (c : Dev nD) (t : Fin cfg0.N) : c1At m c t = (argsOf m c).c1 := by
  have hi : ∀ t : Fin cfg0.N, win0_9.index t (0 : Fin 1) = 0 :=
    (by decide +kernel : ∀ t : Fin grid0.N, _)
  funext y
  show V m c main_arg8 (((cfg0.win 9).blk t).view.emb y) = m ((c : Thread nD τ).loc main_arg8) y
  rw [BlocksIdealAux.V_of_ne m c main_arg8 (by decide) (by decide)]
  refine congrArg _ (funext fun a => Fin.ext ?_)
  match a with
  | ⟨0, _⟩ => show win0_9.index t 0 * 512 + 1 * (y 0).val = (y 0).val; rw [hi t]; omega
theorem v2At_eq (c : Dev nD) (t : Fin cfg0.N) : v2At m c t = (argsOf m c).V2 := by
  have hi : ∀ t : Fin cfg0.N, win0_10.index t (0 : Fin 2) = 0 ∧ win0_10.index t (1 : Fin 2) = 0 :=
    (by decide +kernel : ∀ t : Fin grid0.N, _)
  funext y
  show V m c main_arg9 (((cfg0.win 10).blk t).view.emb y) = m ((c : Thread nD τ).loc main_arg9) y
  rw [BlocksIdealAux.V_of_ne m c main_arg9 (by decide) (by decide)]
  refine congrArg _ (funext fun a => Fin.ext ?_)
  match a with
  | ⟨0, _⟩ => show win0_10.index t 0 * 256 + 1 * (y 0).val = (y 0).val; rw [(hi t).1]; omega
  | ⟨1, _⟩ => show win0_10.index t 1 * 512 + 1 * (y 1).val = (y 1).val; rw [(hi t).2]; omega
theorem c2At_eq (c : Dev nD) (t : Fin cfg0.N) : c2At m c t = (argsOf m c).c2 := by
  have hi : ∀ t : Fin cfg0.N, win0_11.index t (0 : Fin 1) = 0 :=
    (by decide +kernel : ∀ t : Fin grid0.N, _)
  funext y
  show V m c main_arg10 (((cfg0.win 11).blk t).view.emb y) = m ((c : Thread nD τ).loc main_arg10) y
  rw [BlocksIdealAux.V_of_ne m c main_arg10 (by decide) (by decide)]
  refine congrArg _ (funext fun a => Fin.ext ?_)
  match a with
  | ⟨0, _⟩ => show win0_11.index t 0 * 256 + 1 * (y 0).val = (y 0).val; rw [hi t]; omega
theorem v3At_eq (c : Dev nD) (t : Fin cfg0.N) : v3At m c t = (argsOf m c).V3 := by
  have hi : ∀ t : Fin cfg0.N, win0_12.index t (0 : Fin 2) = 0 ∧ win0_12.index t (1 : Fin 2) = 0 :=
    (by decide +kernel : ∀ t : Fin grid0.N, _)
  funext y
  show V m c main_arg11 (((cfg0.win 12).blk t).view.emb y) = m ((c : Thread nD τ).loc main_arg11) y
  rw [BlocksIdealAux.V_of_ne m c main_arg11 (by decide) (by decide)]
  refine congrArg _ (funext fun a => Fin.ext ?_)
  match a with
  | ⟨0, _⟩ => show win0_12.index t 0 * 40 + 1 * (y 0).val = (y 0).val; rw [(hi t).1]; omega
  | ⟨1, _⟩ => show win0_12.index t 1 * 256 + 1 * (y 1).val = (y 1).val; rw [(hi t).2]; omega
theorem c3At_eq (c : Dev nD) (t : Fin cfg0.N) : c3At m c t = (argsOf m c).c3 := by
  have hi : ∀ t : Fin cfg0.N, win0_13.index t (0 : Fin 1) = 0 :=
    (by decide +kernel : ∀ t : Fin grid0.N, _)
  funext y
  show V m c main_arg12 (((cfg0.win 13).blk t).view.emb y) = m ((c : Thread nD τ).loc main_arg12) y
  rw [BlocksIdealAux.V_of_ne m c main_arg12 (by decide) (by decide)]
  refine congrArg _ (funext fun a => Fin.ext ?_)
  match a with
  | ⟨0, _⟩ => show win0_13.index t 0 * 40 + 1 * (y 0).val = (y 0).val; rw [hi t]; omega

end Cert.KernelIdeal.Net

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PairNet.lean ====
/-
  The pair network of one chunk, on the extended reals, read at an index. Over the chunk's blocks — the
  sub-cloud's 128 points, the chunk's 16 points, three weight matrices and biases — the body's pre-bias
  third-layer term at channel o and column 128 · r + j, plus the third bias, is the three-layer network on the
  feature (x_j, x_r): the transposes, the two broadcasts, the join along the feature axis and the flattening of
  (r, j) only arrange the 6 × 2048 operand; each matrix unit product into a zero accumulator is a plain sum over
  the contracted index; a change of float format is the identity.
-/
import proofs.«118771_j73547019976967_1_alg».proof.Proof.Gen.KernelIdeal.Skeleton
import proofs.«118771_j73547019976967_1_alg».proof.Proof.Grid
import proofs.«118771_j73547019976967_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«118771_j73547019976967_1_alg».proof.Proof.LibPlainMatmul
import proofs.«118771_j73547019976967_1_alg».proof.Proof.LibKeepdims

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace PairNetAux

/-! ## One dense layer over all columns: product into zero, bias down the columns -/

section Layer

variable {N K P : Nat}

/-- A vector stood up as a column and repeated along the columns reads, at (o, p), its entry o. -/
theorem bias_apply (b : FVec Ideal ⟨1, ![N]⟩ .f32) (hsc : (⟨1, ![N]⟩ : Shape).ShapeCasts ⟨2, ![N, 1]⟩)
    (hbc : (⟨2, ![N, 1]⟩ : Shape).Broadcasts ⟨2, ![N, P]⟩) (o : Fin N) (p : Fin P) :
    broadcastTo ⟨2, ![N, P]⟩ (shapeCast ⟨2, ![N, 1]⟩ b hsc) hbc (ix2 o p) = b (ix1 o) := by
  exact (Cert.Keepdims.broadcastTo_a1_ab_apply _ hbc o p).trans (Cert.Keepdims.shapeCast_a_a1_apply b hsc o 0)

/-- The layer before its max: at (o, p), the sum over k of H(k, p) · W(o, k), plus b(o). -/
theorem layer_apply (d : DotDims ⟨2, ![N, K]⟩ ⟨2, ![K, P]⟩ ⟨2, ![N, P]⟩) (hd : d = DotDims.plain N K P)
    (W : FVec Ideal ⟨2, ![N, K]⟩ .f32) (H : FVec Ideal ⟨2, ![K, P]⟩ .f32) (b : FVec Ideal ⟨1, ![N]⟩ .f32)
    (hlt : FTy.bits .bf16 < FTy.bits .f32) (hsc : (⟨1, ![N]⟩ : Shape).ShapeCasts ⟨2, ![N, 1]⟩)
    (hbc : (⟨2, ![N, 1]⟩ : Shape).Broadcasts ⟨2, ![N, P]⟩) (o : Fin N) (p : Fin P) :
    addf (matmul d none (truncf .bf16 W hlt) (truncf .bf16 H hlt) (constant ⟨2, ![N, P]⟩ .f32 0x00000000#32))
        (broadcastTo ⟨2, ![N, P]⟩ (shapeCast ⟨2, ![N, 1]⟩ b hsc) hbc) (ix2 o p)
      = ∑ k : Fin K, H (ix2 k p) * W (ix2 o k) + b (ix1 o) := by
  subst hd
  refine (addf_apply _ _ _).trans ?_
  refine (congrArg₂ (· + ·) (Idealize.ShloMosaic.PlainMatmul.matmul_plain_zero_apply N K P none _ _ o p) (bias_apply b hsc hbc o p)).trans ?_
  refine congrArg (· + b (ix1 o)) (Finset.sum_congr rfl fun k _ => ?_)
  exact mul_comm (W (ix2 o k)) (H (ix2 k p))

/-- The product alone (the last layer, whose bias is added outside). -/
theorem product_apply (d : DotDims ⟨2, ![N, K]⟩ ⟨2, ![K, P]⟩ ⟨2, ![N, P]⟩) (hd : d = DotDims.plain N K P)
    (W : FVec Ideal ⟨2, ![N, K]⟩ .f32) (H : FVec Ideal ⟨2, ![K, P]⟩ .f32)
    (hlt : FTy.bits .bf16 < FTy.bits .f32) (o : Fin N) (p : Fin P) :
    matmul d none (truncf .bf16 W hlt) (truncf .bf16 H hlt) (constant ⟨2, ![N, P]⟩ .f32 0x00000000#32) (ix2 o p)
      = ∑ k : Fin K, H (ix2 k p) * W (ix2 o k) := by
  subst hd
  refine (Idealize.ShloMosaic.PlainMatmul.matmul_plain_zero_apply N K P none _ _ o p).trans ?_
  refine Finset.sum_congr rfl fun k _ => ?_
  exact mul_comm (W (ix2 o k)) (H (ix2 k p))

end Layer

end PairNetAux

namespace Blk

variable (x0 : Vec Ideal S1x128x3 .f32) (x1 : Vec Ideal S1x16x3 .f32) (w1 : Vec Ideal S64x6 .f32) (b1 : Vec Ideal S64 .f32)
  (w2 : Vec Ideal S128x64 .f32) (b2 : Vec Ideal S128 .f32) (w3 : Vec Ideal S256x128 .f32) (b3 : Vec Ideal S256 .f32)

/-- The pair (r, j)'s feature over the blocks: x_j, then x_r. -/
def feat (r : Fin 16) (j : Fin 128) (k : Fin 6) : EReal :=
  if h : k.val < 3 then x0 (ix3 (0 : Fin 1) j ⟨k.val, h⟩) else x1 (ix3 (0 : Fin 1) r ⟨k.val - 3, by have := k.isLt; omega⟩)

def hid1 (r : Fin 16) (j : Fin 128) (o : Fin 64) : EReal :=
  max (∑ k : Fin 6, feat x0 x1 r j k * w1 (ix2 o k) + b1 (ix1 o)) Cert.Spec.zero

def hid2 (r : Fin 16) (j : Fin 128) (o : Fin 128) : EReal :=
  max (∑ k : Fin 64, hid1 x0 x1 w1 b1 r j k * w2 (ix2 o k) + b2 (ix1 o)) Cert.Spec.zero

def act3 (r : Fin 16) (j : Fin 128) (o : Fin 256) : EReal :=
  ∑ k : Fin 128, hid2 x0 x1 w1 b1 w2 b2 r j k * w3 (ix2 o k) + b3 (ix1 o)

end Blk

variable (x0 : Vec Ideal S1x128x3 .f32) (x1 : Vec Ideal S1x16x3 .f32) (w1 : Vec Ideal S64x6 .f32) (b1 : Vec Ideal S64 .f32)
  (w2 : Vec Ideal S128x64 .f32) (b2 : Vec Ideal S128 .f32) (w3 : Vec Ideal S256x128 .f32) (b3 : Vec Ideal S256 .f32)

namespace PairNetAux

/-! ## The 6 × 2048 operand of the first product -/

/-- Rows 0–2 before the join: coordinate c of the sub-cloud's point j, the same for every r. -/
def ptsJ : FVec Ideal S3x16x128 .f32 :=
  broadcastTo S3x16x128
    (shapeCast S3x1x128
      (shapeCast S3x1x128
        (transpose S3x128 [1, 0] (shapeCast S128x3 x0 shapeCasts_S1x128x3_S128x3) transposes_S128x3_p1_0_S3x128)
        shapeCasts_S3x128_S3x1x128)
      shapeCasts_S3x1x128_S3x1x128)
    broadcasts_S3x1x128_S3x16x128

/-- Rows 3–5 before the join: coordinate c of the chunk's point r, the same for every j. -/
def ptsR : FVec Ideal S3x16x128 .f32 :=
  broadcastTo S3x16x128
    (shapeCast S3x16x1
      (shapeCast S3x16x1
        (transpose S3x16 [1, 0] (shapeCast S16x3 x1 shapeCasts_S1x16x3_S16x3) transposes_S16x3_p1_0_S3x16)
        shapeCasts_S3x16_S3x16x1)
      shapeCasts_S3x16x1_S3x16x1)
    broadcasts_S3x16x1_S3x16x128

/-- The operand: the two stacks joined along the feature axis, the pair (r, j) flattened to one column. -/
def featMat : FVec Ideal S6x2048 .f32 :=
  shapeCast S6x2048
    (concatenate S6x16x128 0 [⟨S3x16x128, ptsJ x0⟩, ⟨S3x16x128, ptsR x1⟩] concatenates_S3x16x128_S3x16x128_S6x16x128_d0)
    shapeCasts_S6x16x128_S6x2048

theorem ptsJ_apply (c : Fin 3) (r : Fin 16) (j : Fin 128) :
    ptsJ x0 (ix3 c r j) = x0 (ix3 (0 : Fin 1) j c) := by
  unfold ptsJ
  refine (broadcastTo_apply _ broadcasts_S3x1x128_S3x16x128 (ix3 c r j) (ix3 c (0 : Fin 1) j) fun a => ?_).trans ?_
  · match a with
    | ⟨0, _⟩ => rfl
    | ⟨1, _⟩ => rfl
    | ⟨2, _⟩ => rfl
  · rw [shapeCast_self]
    refine (shapeCast_apply _ shapeCasts_S3x128_S3x1x128 (ix3 c (0 : Fin 1) j) (ix2 c j) ?_).trans ?_
    · rw [Shape.rowMajor_val_two, Shape.rowMajor_val_three]
      show c.val * 128 + j.val = (c.val * 1 + 0) * 128 + j.val
      omega
    · refine (transpose_ix2_apply _ transposes_S128x3_p1_0_S3x128 c j).trans ?_
      exact shapeCast_1ab_ab_apply x0 shapeCasts_S1x128x3_S128x3 j c

theorem ptsR_apply (c : Fin 3) (r : Fin 16) (j : Fin 128) :
    ptsR x1 (ix3 c r j) = x1 (ix3 (0 : Fin 1) r c) := by
  unfold ptsR
  refine (broadcastTo_apply _ broadcasts_S3x16x1_S3x16x128 (ix3 c r j) (ix3 c r (0 : Fin 1)) fun a => ?_).trans ?_
  · match a with
    | ⟨0, _⟩ => rfl
    | ⟨1, _⟩ => rfl
    | ⟨2, _⟩ => rfl
  · rw [shapeCast_self]
    refine (shapeCast_apply _ shapeCasts_S3x16_S3x16x1 (ix3 c r (0 : Fin 1)) (ix2 c r) ?_).trans ?_
    · rw [Shape.rowMajor_val_two, Shape.rowMajor_val_three]
      show c.val * 16 + r.val = (c.val * 16 + r.val) * 1 + 0
      omega
    · refine (transpose_ix2_apply _ transposes_S16x3_p1_0_S3x16 c r).trans ?_
      exact shapeCast_1ab_ab_apply x1 shapeCasts_S1x16x3_S16x3 r c

/-- The operand at row k and the column of the pair (r, j) is the pair's feature. -/
theorem featMat_apply (r : Fin 16) (j : Fin 128) (k : Fin 6) :
    featMat x0 x1 (ix2 k (pairCol r j)) = Blk.feat x0 x1 r j k := by
  unfold featMat
  refine (shapeCast_apply _ shapeCasts_S6x16x128_S6x2048 (ix2 k (pairCol r j)) (ix3 k r j) ?_).trans ?_
  · rw [Shape.rowMajor_val_three, Shape.rowMajor_val_two]
    show (k.val * 16 + r.val) * 128 + j.val = k.val * 2048 + (128 * r.val + j.val)
    omega
  · unfold Blk.feat
    split
    · next h =>
      refine (concatenate_pair_apply_left (0 : Fin S6x16x128.rank) (ptsJ x0) (ptsR x1)
        concatenates_S3x16x128_S3x16x128_S6x16x128_d0 (ix3 k r j) rfl (ix3 (⟨k.val, h⟩ : Fin 3) r j) fun b => ?_).trans ?_
      · match b with
        | ⟨0, _⟩ => rfl
        | ⟨1, _⟩ => rfl
        | ⟨2, _⟩ => rfl
      · exact ptsJ_apply x0 ⟨k.val, h⟩ r j
    · next h =>
      have hk : k.val - 3 < 3 := by have := k.isLt; omega
      refine (concatenate_pair_apply_right (0 : Fin S6x16x128.rank) (ptsJ x0) (ptsR x1)
        concatenates_S3x16x128_S3x16x128_S6x16x128_d0 (ix3 k r j) rfl rfl (ix3 (⟨k.val - 3, hk⟩ : Fin 3) r j)
        (fun b hb => ?_) ?_).trans ?_
      · match b with
        | ⟨0, _⟩ => exact absurd rfl hb
        | ⟨1, _⟩ => rfl
        | ⟨2, _⟩ => rfl
      · show (k.val - 3) + 3 = k.val
        omega
      · exact ptsR_apply x1 ⟨k.val - 3, hk⟩ r j

/-! ## The three layers over the operand -/

/-- The first hidden layer over all 2048 columns. -/
def H1 : FVec Ideal S64x2048 .f32 :=
  maximumf
    (addf
      (matmul dot_S64x6_S6x2048_S64x2048_1_0_0_1_n_n none (truncf .bf16 w1 bitsLt_bf16_f32)
        (truncf .bf16 (featMat x0 x1) bitsLt_bf16_f32) (constant S64x2048 .f32 0x00000000#32))
      (broadcastTo S64x2048 (shapeCast S64x1 b1 shapeCasts_S64_S64x1) broadcasts_S64x1_S64x2048))
    (broadcast S64x2048 (Scalar.ofBits .f32 0x00000000#32))

/-- The second hidden layer over all 2048 columns. -/
def H2 : FVec Ideal S128x2048 .f32 :=
  maximumf
    (addf
      (matmul dot_S128x64_S64x2048_S128x2048_1_0_0_1_n_n none (truncf .bf16 w2 bitsLt_bf16_f32)
        (truncf .bf16 (H1 x0 x1 w1 b1) bitsLt_bf16_f32) (constant S128x2048 .f32 0x00000000#32))
      (broadcastTo S128x2048 (shapeCast S128x1 b2 shapeCasts_S128_S128x1) broadcasts_S128x1_S128x2048))
    (broadcast S128x2048 (Scalar.ofBits .f32 0x00000000#32))

/-- The body's pre-bias third-layer term is the third product over the second hidden layer. -/
theorem k0_pay4_eq :
    k0_pay4 (F := Ideal) x0 x1 w1 b1 w2 b2 w3
      = matmul dot_S256x128_S128x2048_S256x2048_1_0_0_1_n_n none (truncf .bf16 w3 bitsLt_bf16_f32)
          (truncf .bf16 (H2 x0 x1 w1 b1 w2 b2) bitsLt_bf16_f32) (constant S256x2048 .f32 0x00000000#32) := rfl

theorem H1_apply (r : Fin 16) (j : Fin 128) (o : Fin 64) :
    H1 x0 x1 w1 b1 (ix2 o (pairCol r j)) = Blk.hid1 x0 x1 w1 b1 r j o := by
  unfold H1 Blk.hid1
  refine (maximumf_apply _ _ _).trans ?_
  refine congrArg₂ max ?_ rfl
  refine (layer_apply dot_S64x6_S6x2048_S64x2048_1_0_0_1_n_n rfl w1 (featMat x0 x1) b1 bitsLt_bf16_f32
    shapeCasts_S64_S64x1 broadcasts_S64x1_S64x2048 o (pairCol r j)).trans ?_
  refine congrArg (· + b1 (ix1 o)) (Finset.sum_congr rfl fun k _ => ?_)
  rw [featMat_apply]

theorem H2_apply (r : Fin 16) (j : Fin 128) (o : Fin 128) :
    H2 x0 x1 w1 b1 w2 b2 (ix2 o (pairCol r j)) = Blk.hid2 x0 x1 w1 b1 w2 b2 r j o := by
  unfold H2 Blk.hid2
  refine (maximumf_apply _ _ _).trans ?_
  refine congrArg₂ max ?_ rfl
  refine (layer_apply dot_S128x64_S64x2048_S128x2048_1_0_0_1_n_n rfl w2 (H1 x0 x1 w1 b1) b2 bitsLt_bf16_f32
    shapeCasts_S128_S128x1 broadcasts_S128x1_S128x2048 o (pairCol r j)).trans ?_
  refine congrArg (· + b2 (ix1 o)) (Finset.sum_congr rfl fun k _ => ?_)
  rw [H1_apply]

end PairNetAux

/-- The chunk's activations at channel o and pair (r, j), once the third bias is added. -/
theorem pairActs_add_bias (o : Fin 256) (r : Fin 16) (j : Fin 128) :
    k0_pay4 (F := Ideal) x0 x1 w1 b1 w2 b2 w3 (ix2 o (pairCol r j)) + b3 (ix1 o)
      = Blk.act3 x0 x1 w1 b1 w2 b2 w3 b3 r j o := by
  rw [PairNetAux.k0_pay4_eq]
  unfold Blk.act3
  refine congrArg (· + b3 (ix1 o)) ?_
  refine (PairNetAux.product_apply dot_S256x128_S128x2048_S256x2048_1_0_0_1_n_n rfl w3
    (PairNetAux.H2 x0 x1 w1 b1 w2 b2) bitsLt_bf16_f32 o (pairCol r j)).trans ?_
  refine Finset.sum_congr rfl fun k _ => ?_
  rw [PairNetAux.H2_apply]

end Cert.KernelIdeal.Net

end
-- ==== Proof.LibSupFold.lean ====
/-
  A maximum taken by folding `max` from the bottom extended real over a whole finite type is the supremum of
  the family; so is a fold that starts from a value some member of the family already dominates; and a supremum
  over a product is the iterated one. General facts about extended reals, used to read a max-pool.
-/
import Mathlib.Data.EReal.Basic
import Mathlib.Order.CompleteLattice.Finset
import Mathlib.Data.Fintype.Prod
import Mathlib.Data.Fintype.Lattice
import Mathlib.Data.Finset.Lattice.Fold

namespace Idealize.ShloMosaic.SupFold

/-- Folding `max` from ⊥ over every index is the supremum of the family. -/
theorem fold_max_bot_eq_iSup {ι : Type*} [Fintype ι] (f : ι → EReal) :
    (Finset.univ : Finset ι).fold max ⊥ f = ⨆ i, f i := by
  rw [← Finset.sup_univ_eq_iSup]
  induction (Finset.univ : Finset ι) using Finset.cons_induction with
  | empty => rfl
  | cons a s ha ih => rw [Finset.fold_cons, Finset.sup_cons, ih]

/-- Folding `max` from any start is the start joined with the supremum. -/
theorem fold_max_eq_max_iSup {ι : Type*} [Fintype ι] (b : EReal) (f : ι → EReal) :
    (Finset.univ : Finset ι).fold max b f = max b (⨆ i, f i) := by
  rw [← fold_max_bot_eq_iSup]
  induction (Finset.univ : Finset ι) using Finset.cons_induction with
  | empty => simp
  | cons a s ha ih => rw [Finset.fold_cons, Finset.fold_cons, ih, max_left_comm]

/-- A supremum over pairs is the iterated supremum. -/
theorem iSup_pair {α β : Type*} (f : α × β → EReal) : (⨆ p, f p) = ⨆ a, ⨆ b, f (a, b) := iSup_prod

/-- A supremum may be re-indexed along a bijection. -/
theorem iSup_equiv {α β : Type*} (e : α ≃ β) (f : β → EReal) : (⨆ a, f (e a)) = ⨆ b, f b := e.iSup_comp

end Idealize.ShloMosaic.SupFold
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.HeadNet.lean ====
/-
  The other three pure terms of the body, on the extended reals, read at an index: the reset value of the
  running maximum is −∞, the bottom extended real; the update joins what the scratch held with the supremum,
  over the chunk's 2048 pairs, of the activations plus the third bias (a lane maximum from −∞ is a supremum);
  the head network on a 256-vector is three dense layers, each matrix unit product into a zero accumulator a
  plain sum, a change of float format the identity.
-/
import proofs.«118771_j73547019976967_1_alg».proof.Proof.Gen.KernelIdeal.Skeleton
import proofs.«118771_j73547019976967_1_alg».proof.Proof.Grid
import proofs.«118771_j73547019976967_1_alg».proof.Proof.Spec
import proofs.«118771_j73547019976967_1_alg».proof.Proof.LibSupFold
import proofs.«118771_j73547019976967_1_alg».proof.Proof.LibRowReduce
import proofs.«118771_j73547019976967_1_alg».proof.Proof.LibPlainMatmul
import proofs.«118771_j73547019976967_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace Blk

variable (xs : Vec Ideal S256x1 .f32) (v1 : Vec Ideal S512x256 .f32) (c1 : Vec Ideal S512 .f32) (v2 : Vec Ideal S256x512 .f32)
  (c2 : Vec Ideal S256 .f32) (v3 : Vec Ideal S40x256 .f32) (c3 : Vec Ideal S40 .f32)

def fc1 (o : Fin 512) : EReal :=
  max (∑ k : Fin 256, xs (ix2 k (0 : Fin 1)) * v1 (ix2 o k) + c1 (ix1 o)) Cert.Spec.zero

def fc2 (o : Fin 256) : EReal :=
  max (∑ k : Fin 512, fc1 xs v1 c1 k * v2 (ix2 o k) + c2 (ix1 o)) Cert.Spec.zero

def score (o : Fin 40) : EReal :=
  ∑ k : Fin 256, fc2 xs v1 c1 v2 c2 k * v3 (ix2 o k) + c3 (ix1 o)

end Blk

namespace HeadNetAux

/-! ### Layout steps on column vectors, read at an index -/

section Layout
variable {α : Type}

/-- A one-column matrix viewed as a vector: entry `o` is row `o` of the column. -/
theorem shapeCast_uncol_apply {a : Nat} (x : (⟨2, ![a, 1]⟩ : Shape).Idx → α)
    (h : (⟨2, ![a, 1]⟩ : Shape).ShapeCasts ⟨1, ![a]⟩) (o : Fin a) :
    shapeCast ⟨1, ![a]⟩ x h (ix1 o) = x (ix2 o (0 : Fin 1)) := by
  refine shapeCast_apply x h _ _ ?_
  rw [Shape.rowMajor_val_one, Shape.rowMajor_val_two]
  show o.val * 1 + 0 = o.val
  omega

/-- A vector viewed with two leading unit axes: entry (0, 0, o) is entry `o`. -/
theorem shapeCast_lead2_apply {a : Nat} (x : (⟨1, ![a]⟩ : Shape).Idx → α)
    (h : (⟨1, ![a]⟩ : Shape).ShapeCasts ⟨3, ![1, 1, a]⟩) (o : Fin a) :
    shapeCast ⟨3, ![1, 1, a]⟩ x h (ix3 (0 : Fin 1) (0 : Fin 1) o) = x (ix1 o) := by
  refine shapeCast_apply x h _ _ ?_
  rw [Shape.rowMajor_val_one, Shape.rowMajor_val_three]
  show o.val = (0 * 1 + 0) * a + o.val
  simp

end Layout

/-! ### One dense layer on a column vector -/

open Cert.Keepdims Idealize.ShloMosaic.PlainMatmul in
/-- One dense layer on a column vector: weight times column into a zero accumulator, plus the bias as a
    column, read at row `o`: the sum of activation times weight, plus the bias. -/
theorem dense_col_apply {M K : Nat} {φ₁ φ₂ : FTy} (W : FVec Ideal ⟨2, ![M, K]⟩ φ₁) (x : FVec Ideal ⟨2, ![K, 1]⟩ φ₂)
    (b : FVec Ideal ⟨1, ![M]⟩ .f32) (h : (⟨1, ![M]⟩ : Shape).ShapeCasts ⟨2, ![M, 1]⟩) (o : Fin M) :
    addf (matmul (DotDims.plain M K 1) none W x (constant ⟨2, ![M, 1]⟩ .f32 0x00000000#32))
        (shapeCast ⟨2, ![M, 1]⟩ b h) (ix2 o (0 : Fin 1))
      = ∑ k : Fin K, x (ix2 k (0 : Fin 1)) * W (ix2 o k) + b (ix1 o) := by
  rw [addf_apply, shapeCast_a_a1_apply]
  refine congrArg (· + b (ix1 o)) ?_
  refine (matmul_plain_zero_apply M K 1 none W x o 0).trans ?_
  exact Finset.sum_congr rfl fun k _ => mul_comm _ _

end HeadNetAux

open HeadNetAux Cert.Keepdims Idealize.ShloMosaic.PlainMatmul

/-- The reset value is −∞. -/
theorem reset_apply (o : Fin 256) : k0_pay1 (F := Ideal) (ix2 o (0 : Fin 1)) = (⊥ : EReal) := by
  unfold k0_pay1
  exact (congrFun (shapeCast_self _ _) _).trans RowReduce.ofBits_negInf_f32

/-- The update: the old value joined with the chunk's supremum of (activation + bias). -/
theorem update_apply (acts : FVec Ideal S256x2048 .f32) (b3 : Vec Ideal S256 .f32) (xs : Vec Ideal S256x1 .f32) (o : Fin 256) :
    k0_pay2 (F := Ideal) acts b3 xs (ix2 o (0 : Fin 1))
      = max (xs (ix2 o (0 : Fin 1))) (⨆ p : Fin 2048, (acts (ix2 o p) + b3 (ix1 o))) := by
  unfold k0_pay2
  refine (congrFun (shapeCast_self _ _) _).trans ?_
  refine (maximumf_apply _ _ _).trans (congrArg (max (xs (ix2 o (0 : Fin 1)))) ?_)
  refine (shapeCast_a_a1_apply _ _ o 0).trans ?_
  refine (RowReduce.multiReduction_maximumf_row _ _ _ _ _ o).trans ?_
  rw [RowReduce.ofBits_negInf_f32, SupFold.fold_max_bot_eq_iSup]
  refine iSup_congr fun p => ?_
  refine (addf_apply _ _ _).trans (congrArg (acts (ix2 o p) + ·) ?_)
  exact (broadcastTo_a1_ab_apply _ _ o p).trans (shapeCast_a_a1_apply _ _ o 0)

variable (xs : Vec Ideal S256x1 .f32) (v1 : Vec Ideal S512x256 .f32) (c1 : Vec Ideal S512 .f32) (v2 : Vec Ideal S256x512 .f32)
  (c2 : Vec Ideal S256 .f32) (v3 : Vec Ideal S40x256 .f32) (c3 : Vec Ideal S40 .f32)

/-- The head network's value at score o. -/
theorem head_apply (o : Fin 40) :
    k0_pay3 (F := Ideal) xs v1 c1 v2 c2 v3 c3 (ix3 (0 : Fin 1) (0 : Fin 1) o) = Blk.score xs v1 c1 v2 c2 v3 c3 o := by
  unfold k0_pay3
  refine (shapeCast_lead2_apply _ _ o).trans ?_
  refine (shapeCast_uncol_apply _ _ o).trans ?_
  refine (dense_col_apply _ _ _ _ o).trans ?_
  unfold Blk.score
  refine congrArg (· + c3 (ix1 o)) (Finset.sum_congr rfl fun k _ => congrArg (· * v3 (ix2 o k)) ?_)
  -- the second layer at row k
  refine (maximumf_apply _ _ _).trans ?_
  unfold Blk.fc2
  refine congrArg (max · Cert.Spec.zero) ?_
  refine (dense_col_apply _ _ _ _ k).trans ?_
  refine congrArg (· + c2 (ix1 k)) (Finset.sum_congr rfl fun l _ => congrArg (· * v2 (ix2 k l)) ?_)
  -- the first layer at row l
  refine (maximumf_apply _ _ _).trans ?_
  unfold Blk.fc1
  refine congrArg (max · Cert.Spec.zero) ?_
  exact dense_col_apply _ _ _ _ l

end Cert.KernelIdeal.Net

end
-- ==== Proof.Pool.lean ====
/-
  The running maximum, on the extended reals, as a supremum: after chunk s of instance I the scratch holds, at
  channel o, the supremum of the pair activations over the rows 0 … 16 (s + 1) − 1 of the sub-cloud and all its
  128 points; after the last chunk that is the sub-cloud's descriptor. By induction on the chunk: the first
  chunk joins −∞ with its own supremum, each later one what the chunk before left.
-/
import proofs.«118771_j73547019976967_1_alg».proof.Proof.BlocksIdeal
import proofs.«118771_j73547019976967_1_alg».proof.Proof.PairNet
import proofs.«118771_j73547019976967_1_alg».proof.Proof.HeadNet
import proofs.«118771_j73547019976967_1_alg».proof.Proof.LibSupFold

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

namespace PoolAux

/-! ## Suprema over initial segments of the naturals -/

/-- A supremum over Fin n only depends on n. -/
theorem iSup_fin_of_eq {n n' : ℕ} (h : n = n') (G : ℕ → EReal) :
    (⨆ i : Fin n, G i.val) = ⨆ i : Fin n', G i.val := by
  subst h; rfl

/-- A supremum over the first a + b naturals is the join of the supremum over the first a and the supremum
    over the next b. -/
theorem iSup_fin_add (a b : ℕ) (G : ℕ → EReal) :
    (⨆ i : Fin (a + b), G i.val) = max (⨆ i : Fin a, G i.val) (⨆ r : Fin b, G (a + r.val)) := by
  apply le_antisymm
  · refine iSup_le fun i => ?_
    have hi := i.isLt
    by_cases h : i.val < a
    · exact le_max_of_le_left (le_iSup (fun i : Fin a => G i.val) ⟨i.val, h⟩)
    · have e : i.val = a + (i.val - a) := by omega
      refine (le_of_eq (congrArg G e)).trans ?_
      exact le_max_of_le_right (le_iSup (fun r : Fin b => G (a + r.val)) ⟨i.val - a, by omega⟩)
  · refine max_le (iSup_le fun i => ?_) (iSup_le fun r => ?_)
    · exact le_iSup (fun i : Fin (a + b) => G i.val) ⟨i.val, by have := i.isLt; omega⟩
    · exact le_iSup (fun i : Fin (a + b) => G i.val) ⟨a + r.val, by have := r.isLt; omega⟩

/-- A supremum over the chunk's 2048 columns is the iterated one over its 16 rows and 128 points. -/
theorem iSup_pairCol (G : Fin 2048 → EReal) :
    (⨆ p, G p) = ⨆ r : Fin 16, ⨆ j : Fin 128, G (pairCol r j) := by
  apply le_antisymm
  · refine iSup_le fun p => ?_
    have hp := p.isLt
    have e : p = pairCol ⟨p.val / 128, by omega⟩ ⟨p.val % 128, by omega⟩ :=
      Fin.ext (by show p.val = 128 * (p.val / 128) + p.val % 128; omega)
    refine (le_of_eq (congrArg G e)).trans ?_
    exact le_iSup_of_le _ (le_iSup (fun j : Fin 128 => G (pairCol ⟨p.val / 128, by omega⟩ j)) _)
  · exact iSup_le fun r => iSup_le fun j => le_iSup G _

/-! ## The pair network over a point's blocks is the specification's -/

section Generic

variable (a : Cert.Spec.Args) (b d : Fin 4) (row : Fin 16 → Fin 128)
  (x0 : Vec Ideal S1x128x3 .f32) (x1 : Vec Ideal S1x16x3 .f32)
  (hx0 : ∀ j k, x0 (ix3 (0 : Fin 1) j k) = Cert.Spec.pt a b d j k)
  (hx1 : ∀ r k, x1 (ix3 (0 : Fin 1) r k) = Cert.Spec.pt a b d (row r) k)

include hx0 hx1

theorem blkFeat_eq (r : Fin 16) (j : Fin 128) (k : Fin 6) :
    Blk.feat x0 x1 r j k = Cert.Spec.feat a b d (row r) j k := by
  unfold Blk.feat Cert.Spec.feat
  by_cases h : k.val < 3
  · rw [dif_pos h, dif_pos h]; exact hx0 j _
  · rw [dif_neg h, dif_neg h]; exact hx1 r _

theorem blkHid1_eq (r : Fin 16) (j : Fin 128) (o : Fin 64) :
    Blk.hid1 x0 x1 a.W1 a.b1 r j o = Cert.Spec.hid1 a b d (row r) j o := by
  unfold Blk.hid1 Cert.Spec.hid1
  refine congrArg (max · Cert.Spec.zero) (congrArg (· + a.b1 (ix1 o)) (Finset.sum_congr rfl fun k _ => ?_))
  rw [blkFeat_eq a b d row x0 x1 hx0 hx1]

theorem blkHid2_eq (r : Fin 16) (j : Fin 128) (o : Fin 128) :
    Blk.hid2 x0 x1 a.W1 a.b1 a.W2 a.b2 r j o = Cert.Spec.hid2 a b d (row r) j o := by
  unfold Blk.hid2 Cert.Spec.hid2
  refine congrArg (max · Cert.Spec.zero) (congrArg (· + a.b2 (ix1 o)) (Finset.sum_congr rfl fun k _ => ?_))
  rw [blkHid1_eq a b d row x0 x1 hx0 hx1]

theorem blkAct3_eq (r : Fin 16) (j : Fin 128) (o : Fin 256) :
    Blk.act3 x0 x1 a.W1 a.b1 a.W2 a.b2 a.W3 a.b3 r j o = Cert.Spec.act3 a b d (row r) j o := by
  unfold Blk.act3 Cert.Spec.act3
  refine congrArg (· + a.b3 (ix1 o)) (Finset.sum_congr rfl fun k _ => ?_)
  rw [blkHid2_eq a b d row x0 x1 hx0 hx1]

end Generic

/-- Over the blocks of chunk s of instance I, local row r is row 16 s + r of the sub-cloud. -/
theorem act3_at (c : Dev nD) (I : Fin 16) (s : Fin 8) (r : Fin 16) (j : Fin 128) (o : Fin 256) :
    Blk.act3 (ptsAt m c (ptOf I s)) (chunkAt m c (ptOf I s)) (w1At m c (ptOf I s)) (b1At m c (ptOf I s))
        (w2At m c (ptOf I s)) (b2At m c (ptOf I s)) (w3At m c (ptOf I s)) (b3At m c (ptOf I s)) r j o
      = Cert.Spec.act3 (argsOf m c) (cloudOf I) (subOf I) (rowOf s r) j o := by
  rw [w1At_eq, b1At_eq, w2At_eq, b2At_eq, w3At_eq, b3At_eq]
  exact blkAct3_eq (argsOf m c) (cloudOf I) (subOf I) (rowOf s) _ _
    (ptsAt_apply m c I s) (chunkAt_apply m c I s) r j o

/-! ## The running maximum -/

/-- The supremum, over the sub-cloud's 128 points, of the activations of row n (−∞ past the last row). -/
def rowSup (a : Cert.Spec.Args) (b d : Fin 4) (o : Fin 256) (n : ℕ) : EReal :=
  if h : n < 128 then ⨆ j : Fin 128, Cert.Spec.act3 a b d ⟨n, h⟩ j o else ⊥

/-- The chunk's supremum, row by row. -/
theorem chunk_iSup (c : Dev nD) (I : Fin 16) (s : Fin 8) (o : Fin 256) :
    (⨆ p : Fin 2048, (pairActs m c (ptOf I s) (ix2 o p) + b3At m c (ptOf I s) (ix1 o)))
      = ⨆ r : Fin 16, rowSup (argsOf m c) (cloudOf I) (subOf I) o (16 * s.val + r.val) := by
  refine (iSup_pairCol (fun p => pairActs m c (ptOf I s) (ix2 o p) + b3At m c (ptOf I s) (ix1 o))).trans ?_
  refine iSup_congr fun r => ?_
  have hr : 16 * s.val + r.val < 128 := by have := s.isLt; have := r.isLt; omega
  unfold rowSup
  rw [dif_pos hr]
  refine iSup_congr fun j => ?_
  exact (pairActs_add_bias _ _ _ _ _ _ _ _ o r j).trans (act3_at m c I s r j o)

/-- Joining the supremum over the first 16 s rows with the next chunk's gives the first 16 (s + 1) rows'. -/
theorem join_step (a : Cert.Spec.Args) (b d : Fin 4) (o : Fin 256) (s : ℕ) (x : EReal)
    (hx : x = ⨆ i : Fin (16 * s), rowSup a b d o i.val) :
    max x (⨆ r : Fin 16, rowSup a b d o (16 * s + r.val)) = ⨆ i : Fin (16 * (s + 1)), rowSup a b d o i.val := by
  subst hx
  exact ((iSup_fin_of_eq (by omega) (rowSup a b d o)).trans (iSup_fin_add (16 * s) 16 (rowSup a b d o))).symm

/-- The scratch only depends on the position's value. -/
theorem accAt_congr (c : Dev nD) {n n' : ℕ} (h : n = n') (hn : n < cfg0.N) (hn' : n' < cfg0.N) :
    accAt m c n hn = accAt m c n' hn' := by
  subst h; rfl

theorem accAt_nat (c : Dev nD) (I : Fin 16) (o : Fin 256) : ∀ (s : ℕ) (hs : s < 8),
    accAt m c (ptOf I ⟨s, hs⟩).val (ptOf I ⟨s, hs⟩).isLt (ix2 o (0 : Fin 1))
      = ⨆ i : Fin (16 * (s + 1)), rowSup (argsOf m c) (cloudOf I) (subOf I) o i.val := by
  intro s
  induction s with
  | zero =>
    intro hs
    have h0 : (ptOf I ⟨0, hs⟩).val % 8 = 0 := by rw [ptOf_val]; show (8 * I.val + 0) % 8 = 0; omega
    refine (congrFun (accAt_first m c (ptOf I ⟨0, hs⟩) h0) _).trans ?_
    refine (update_apply _ _ _ o).trans ?_
    rw [chunk_iSup]
    refine join_step _ _ _ o 0 _ ?_
    rw [reset_apply]
    exact ((iSup_fin_of_eq (show 16 * 0 = 0 by omega) _).trans (iSup_of_empty _)).symm
  | succ s ih =>
    intro hs
    have h1 : ¬ (ptOf I ⟨s + 1, hs⟩).val % 8 = 0 := by
      rw [ptOf_val]; show ¬ (8 * I.val + (s + 1)) % 8 = 0; omega
    refine (congrFun (accAt_next m c (ptOf I ⟨s + 1, hs⟩) h1) _).trans ?_
    refine (update_apply _ _ _ o).trans ?_
    rw [chunk_iSup]
    refine join_step _ _ _ o (s + 1) _ ?_
    refine Eq.trans ?_ (ih (by omega))
    exact congrFun (accAt_congr m c (by rw [ptOf_val, ptOf_val]; show 8 * I.val + (s + 1) - 1 = 8 * I.val + s; omega) _ _) _

end PoolAux

open PoolAux

/-- After chunk s: the supremum over the first 16 (s + 1) rows. -/
theorem accAt_apply (c : Dev nD) (I : Fin 16) (s : Fin 8) (o : Fin 256) :
    accAt m c (ptOf I s).val (ptOf I s).isLt (ix2 o (0 : Fin 1))
      = ⨆ i : Fin (16 * (s.val + 1)), ⨆ j : Fin 128,
          Cert.Spec.act3 (argsOf m c) (cloudOf I) (subOf I) ⟨i.val, by have := i.isLt; have := s.isLt; omega⟩ j o := by
  refine (accAt_nat m c I o s.val s.isLt).trans ?_
  refine iSup_congr fun i => ?_
  have hi : i.val < 128 := by have := i.isLt; have := s.isLt; omega
  unfold rowSup
  rw [dif_pos hi]

/-- After the last chunk: the sub-cloud's descriptor. -/
theorem accAt_last (c : Dev nD) (I : Fin 16) (o : Fin 256) :
    accAt m c (ptOf I 7).val (ptOf I 7).isLt (ix2 o (0 : Fin 1)) = Cert.Spec.pooled (argsOf m c) (cloudOf I) (subOf I) o := by
  refine (accAt_nat m c I o 7 (by omega)).trans ?_
  refine (iSup_fin_of_eq (show 16 * (7 + 1) = 128 by omega) _).trans ?_
  unfold Cert.Spec.pooled
  refine iSup_congr fun i => ?_
  unfold rowSup
  rw [dif_pos i.isLt]

end Cert.KernelIdeal.Net

end
-- ==== Proof.Result.lean ====
/-
  The kernel's result on the extended reals is the specification's: row I of the region's result array is the
  head network on instance I's descriptor, that is the sub-cloud's scores; re-laid as [4, 4, 40] and reduced by
  maximum from −∞ over the sub-cloud axis it is the supremum of the scores over a cloud's four sub-clouds.
-/
import proofs.«118771_j73547019976967_1_alg».proof.Proof.Out
import proofs.«118771_j73547019976967_1_alg».proof.Proof.Pool

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace ResultAux

/-- In a rank-3 array reduced over its middle axis, the result index (r, q) with k put back on the reduced
    axis is the index (r, k, q). -/
theorem lift_mid {A D B : Nat} (h : (⟨3, ![A, D, B]⟩ : Shape).Reduces [1] (⟨2, ![A, B]⟩ : Shape)) (r : Fin A) (q : Fin B)
    (k : Fin ((⟨3, ![A, D, B]⟩ : Shape).size 1)) : h.lift (ix2 r q) k = ix3 r (⟨k.val, k.isLt⟩ : Fin D) q := by
  funext c; apply Fin.ext
  fin_cases c <;> rfl

/-- The host's reduce with a maximum body over the middle axis of a rank-3 array, at (r, q): the fold of `max`
    from the initial value over the entries (r, k, q). -/
theorem hostReduce_maximumf_mid {φ : FTy} {A D B : Nat} {u : Shape} (x : FVec Ideal ⟨3, ![A, D, B]⟩ φ) (init : u.Idx → Ideal φ)
    (h' : (⟨3, ![A, D, B]⟩ : Shape).ReducesTo [1] (⟨2, ![A, B]⟩ : Shape))
    (h : (⟨3, ![A, D, B]⟩ : Shape).Reduces [1] (⟨2, ![A, B]⟩ : Shape)) (hu : 0 < u.numel) (r : Fin A) (q : Fin B) :
    Host.reduce FloatOps.maximumf x init h' hu (ix2 r q)
      = (Finset.univ : Finset (Fin D)).fold max (init (Shape.Idx.first hu)) (fun k => x (ix3 r k q)) := by
  rw [Host.reduce_eq_fold_single FloatOps.maximumf x init h' h hu]
  have hf : (x ∘ h.lift (ix2 r q)) = fun k : Fin D => x (ix3 r k q) := funext fun k => congrArg x (lift_mid h r q k)
  exact congrArg (fun f => Finset.fold max (init (Shape.Idx.first hu)) f (Finset.univ : Finset (Fin D))) hf

/-- The head network on a block whose entries are a sub-cloud's descriptor and whose weights are the
    arguments' is the specification's score. -/
theorem score_eq (a : Cert.Spec.Args) (b d : Fin 4) (xs : Vec Ideal S256x1 .f32)
    (hx : ∀ k : Fin 256, xs (ix2 k (0 : Fin 1)) = Cert.Spec.pooled a b d k) (o : Fin 40) :
    Blk.score xs a.V1 a.c1 a.V2 a.c2 a.V3 a.c3 o = Cert.Spec.score a b d o := by
  unfold Blk.score Cert.Spec.score
  refine congrArg (· + a.c3 (ix1 o)) (Finset.sum_congr rfl fun k _ => congrArg (· * a.V3 (ix2 o k)) ?_)
  unfold Blk.fc2 Cert.Spec.fc2
  refine congrArg (max · Cert.Spec.zero) ?_
  refine congrArg (· + a.c2 (ix1 k)) (Finset.sum_congr rfl fun l _ => congrArg (· * a.V2 (ix2 k l)) ?_)
  unfold Blk.fc1 Cert.Spec.fc1
  refine congrArg (max · Cert.Spec.zero) ?_
  exact congrArg (· + a.c1 (ix1 l)) (Finset.sum_congr rfl fun p _ => congrArg (· * a.V1 (ix2 l p)) (hx p))

end ResultAux

variable (m : (ℓ : Loc nD τ sig) → Buf (Elt Ideal) ℓ)

/-- The block instance I's last chunk stores: the sub-cloud's scores. -/
theorem headAt_apply (c : Dev nD) (I : Fin 16) (o : Fin 40) :
    headAt m c (ptOf I 7) (ix3 (0 : Fin 1) (0 : Fin 1) o) = Cert.Spec.score (argsOf m c) (cloudOf I) (subOf I) o := by
  unfold headAt
  refine (head_apply _ _ _ _ _ _ _ o).trans ?_
  rw [v1At_eq, c1At_eq, v2At_eq, c2At_eq, v3At_eq, c3At_eq]
  exact ResultAux.score_eq (argsOf m c) (cloudOf I) (subOf I) _ (fun k => accAt_last m c I k) o

/-- The kernel's result is the specification's function of the arguments. -/
theorem result_eq (c : Dev nD) : result (F := Ideal) m c = Cert.Spec.out (argsOf m c) := by
  funext i
  obtain ⟨b, o, rfl⟩ : ∃ (b : Fin 4) (o : Fin 40), i = ix2 b o := ⟨i 0, i 1, eq_ix2 i⟩
  unfold result
  refine (ResultAux.hostReduce_maximumf_mid _ _ reducesTo_S4x4x40_S4x40_d1 (by decide) h_S_ b o).trans ?_
  -- the initial value is −∞, so the fold is the supremum over the four sub-clouds
  have hinit : (constant (F := Ideal) S_ .f32 0xFF800000#32) (Shape.Idx.first h_S_) = (⊥ : EReal) :=
    RowReduce.ofBits_negInf_f32
  rw [hinit, SupFold.fold_max_bot_eq_iSup]
  unfold Cert.Spec.out
  refine iSup_congr fun d => ?_
  -- entry (b, d, o) of the re-laid array is row 4 b + d of the region's result
  have hb := b.isLt
  have hd := d.isLt
  have ho := o.isLt
  refine (shapeCast_apply _ shapeCasts_S16x1x40_S4x4x40 (ix3 b d o)
    (ix3 (⟨4 * b.val + d.val, by omega⟩ : Fin 16) (0 : Fin 1) o) ?_).trans ?_
  · rewrite [Shape.rowMajor_val_three, Shape.rowMajor_val_three]
    show ((4 * b.val + d.val) * 1 + 0) * 40 + o.val = (b.val * 4 + d.val) * 40 + o.val
    omega
  · refine (resArr_apply m c _ o).trans ((headAt_apply m c _ o).trans ?_)
    have h1 : cloudOf (⟨4 * b.val + d.val, by omega⟩ : Fin 16) = b := Fin.ext (by show (4 * b.val + d.val) / 4 = b.val; omega)
    have h2 : subOf (⟨4 * b.val + d.val, by omega⟩ : Fin 16) = d := Fin.ext (by show (4 * b.val + d.val) % 4 = d.val; omega)
    rw [h1, h2]

end Cert.KernelIdeal.Net

end
-- ==== Proof.RefLayers.lean ====
/-
  The reference's pair activations, read one host operation at a time, are the specification's: the two
  broadcasts of the re-laid point cloud put x_j and x_i side by side at the pair (i, j), the join along the last
  axis makes the 6-feature, and each of the three contractions against a weight matrix is a plain sum over the
  contracted index, followed by the bias and (twice) the maximum with zero.
-/
import proofs.«118771_j73547019976967_1_alg».proof.Proof.Gen.ReferenceIdeal.Read
import proofs.«118771_j73547019976967_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

variable (x0 : (⟨S4x512x3, .f32⟩ : BufTy).Contents (Elt Ideal)) (x1 : (⟨S64x6, .f32⟩ : BufTy).Contents (Elt Ideal)) (x2 : (⟨S64, .f32⟩ : BufTy).Contents (Elt Ideal)) (x3 : (⟨S128x64, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S512x256, .f32⟩ : BufTy).Contents (Elt Ideal)) (x8 : (⟨S512, .f32⟩ : BufTy).Contents (Elt Ideal)) (x9 : (⟨S256x512, .f32⟩ : BufTy).Contents (Elt Ideal)) (x10 : (⟨S256, .f32⟩ : BufTy).Contents (Elt Ideal)) (x11 : (⟨S40x256, .f32⟩ : BufTy).Contents (Elt Ideal)) (x12 : (⟨S40, .f32⟩ : BufTy).Contents (Elt Ideal))

/-- The thirteen arguments, bundled. -/
abbrev argsOf : Cert.Spec.Args := ⟨x0, x1, x2, x3, x4, x5, x6, x7, x8, x9, x10, x11, x12⟩

/-- The re-laid cloud at (b, d, j, k) is row d · 128 + j of cloud b, coordinate k. -/
private theorem v0_apply (b d : Fin 4) (j : Fin 128) (k : Fin 3) :
    val_main_v0 (F := Ideal) x0 (ix4 b d j k)
      = x0 (ix3 b (⟨d.val * 128 + j.val, by have := d.isLt; have := j.isLt; omega⟩ : Fin 512) k) := by
  rw [val_main_v0_apply]
  refine congrArg x0 (funext fun a => Fin.ext ?_)
  have hb := b.isLt; have hd := d.isLt; have hj := j.isLt; have hk := k.isLt
  match a with
  | ⟨0, _⟩ => show (((b.val * 4 + d.val) * 128 + j.val) * 3 + k.val) / 1536 = b.val; omega
  | ⟨1, _⟩ => show (((b.val * 4 + d.val) * 128 + j.val) * 3 + k.val) / 3 % 512 = d.val * 128 + j.val; omega
  | ⟨2, _⟩ => show (((b.val * 4 + d.val) * 128 + j.val) * 3 + k.val) % 3 = k.val; omega

/-- The first broadcast pair puts point j's coordinates at every pair (i, j). -/
private theorem v2_apply (b d : Fin 4) (i j : Fin 128) (k : Fin 3) :
    val_main_v2 (F := Ideal) x0 (ix5 b d i j k) = Cert.Spec.pt (argsOf x0 x1 x2 x3 x4 x5 x6 x7 x8 x9 x10 x11 x12) b d j k := by
  rw [val_main_v2_apply, val_main_v1_apply]
  exact (congrArg (val_main_v0 (F := Ideal) x0) (funext fun a => Fin.ext (by
    match a with
    | ⟨0, _⟩ => rfl
    | ⟨1, _⟩ => rfl
    | ⟨2, _⟩ => rfl
    | ⟨3, _⟩ => rfl))).trans (v0_apply x0 b d j k)

/-- The second broadcast pair puts point i's coordinates at every pair (i, j). -/
private theorem v4_apply (b d : Fin 4) (i j : Fin 128) (k : Fin 3) :
    val_main_v4 (F := Ideal) x0 (ix5 b d i j k) = Cert.Spec.pt (argsOf x0 x1 x2 x3 x4 x5 x6 x7 x8 x9 x10 x11 x12) b d i k := by
  rw [val_main_v4_apply, val_main_v3_apply]
  exact (congrArg (val_main_v0 (F := Ideal) x0) (funext fun a => Fin.ext (by
    match a with
    | ⟨0, _⟩ => rfl
    | ⟨1, _⟩ => rfl
    | ⟨2, _⟩ => rfl
    | ⟨3, _⟩ => rfl))).trans (v0_apply x0 b d i k)

/-- The join along the last axis: coordinates 0, 1, 2 are x_j's and 3, 4, 5 are x_i's. -/
private theorem feat_apply (b d : Fin 4) (i j : Fin 128) (k : Fin 6) :
    val_main_v5 (F := Ideal) x0 (ix5 b d i j k) = Cert.Spec.feat (argsOf x0 x1 x2 x3 x4 x5 x6 x7 x8 x9 x10 x11 x12) b d i j k := by
  unfold val_main_v5 Cert.Spec.feat
  by_cases h : k.val < 3
  · rw [dif_pos h]
    refine (concatenate_pair_apply_left (t := S4x4x128x128x6) (s₁ := S4x4x128x128x3) (s₂ := S4x4x128x128x3) (4 : Fin 5) (val_main_v2 (F := Ideal) x0) (val_main_v4 (F := Ideal) x0) concatenates_S4x4x128x128x3_S4x4x128x128x3_S4x4x128x128x6_d4 (ix5 b d i j k) rfl (ix5 b d i j (⟨k.val, h⟩ : Fin 3)) (fun a => ?_)).trans
      (v2_apply x0 x1 x2 x3 x4 x5 x6 x7 x8 x9 x10 x11 x12 b d i j ⟨k.val, h⟩)
    match a with
    | ⟨0, _⟩ => rfl
    | ⟨1, _⟩ => rfl
    | ⟨2, _⟩ => rfl
    | ⟨3, _⟩ => rfl
    | ⟨4, _⟩ => rfl
  · rw [dif_neg h]
    have hk := k.isLt
    refine (concatenate_pair_apply_right (t := S4x4x128x128x6) (s₁ := S4x4x128x128x3) (s₂ := S4x4x128x128x3) (4 : Fin 5) (val_main_v2 (F := Ideal) x0) (val_main_v4 (F := Ideal) x0) concatenates_S4x4x128x128x3_S4x4x128x128x3_S4x4x128x128x6_d4 (ix5 b d i j k) rfl rfl (ix5 b d i j (⟨k.val - 3, by omega⟩ : Fin 3)) (fun a => ?_) ?_).trans
      (v4_apply x0 x1 x2 x3 x4 x5 x6 x7 x8 x9 x10 x11 x12 b d i j ⟨k.val - 3, by omega⟩)
    · match a with
      | ⟨0, _⟩ => exact fun _ => rfl
      | ⟨1, _⟩ => exact fun _ => rfl
      | ⟨2, _⟩ => exact fun _ => rfl
      | ⟨3, _⟩ => exact fun _ => rfl
      | ⟨4, _⟩ => exact fun hne => absurd rfl hne
    · show k.val - 3 + 3 = k.val
      omega

/-- The first layer: contraction of the 6-feature against the first weight matrix, bias, maximum with zero. -/
private theorem hid1_apply (b d : Fin 4) (i j : Fin 128) (o : Fin 64) :
    val_main_v10 (F := Ideal) x0 x1 x2 (ix5 b d i j o) = Cert.Spec.hid1 (argsOf x0 x1 x2 x3 x4 x5 x6 x7 x8 x9 x10 x11 x12) b d i j o := by
  rw [val_main_v10_apply, val_main_v9_apply, val_main_v6_apply, val_main_v8_apply, val_main_v7_apply,
    val_main_call0_v0_apply, val_main_call0_cst_apply]
  have e1 : ∀ k : Fin 6, val_main_v5 (F := Ideal) x0 (lidx_main_v6 (ix5 b d i j o) k) * x1 (ridx_main_v6 (ix5 b d i j o) k)
      = Cert.Spec.feat (argsOf x0 x1 x2 x3 x4 x5 x6 x7 x8 x9 x10 x11 x12) b d i j k * x1 (ix2 o k) := fun k => by
    have hl : lidx_main_v6 (ix5 b d i j o) k = ix5 b d i j k := funext fun a => by
      match a with
      | ⟨0, _⟩ => rfl
      | ⟨1, _⟩ => rfl
      | ⟨2, _⟩ => rfl
      | ⟨3, _⟩ => rfl
      | ⟨4, _⟩ => rfl
    have hr : ridx_main_v6 (ix5 b d i j o) k = ix2 o k := funext fun a => by
      match a with
      | ⟨0, _⟩ => rfl
      | ⟨1, _⟩ => rfl
    rw [hl, hr, feat_apply x0 x1 x2 x3 x4 x5 x6 x7 x8 x9 x10 x11 x12]
  have e2 : x2 (idx_main_v7 (idx_main_v8 (ix5 b d i j o))) = x2 (ix1 o) :=
    congrArg x2 (funext fun a => by match a with | ⟨0, _⟩ => rfl)
  rw [Finset.sum_congr rfl (fun k _ => e1 k), e2]
  rfl

/-- The second layer: contraction against the second weight matrix, bias, maximum with zero. -/
private theorem hid2_apply (b d : Fin 4) (i j : Fin 128) (o : Fin 128) :
    val_main_v15 (F := Ideal) x0 x1 x2 x3 x4 (ix5 b d i j o) = Cert.Spec.hid2 (argsOf x0 x1 x2 x3 x4 x5 x6 x7 x8 x9 x10 x11 x12) b d i j o := by
  rw [val_main_v15_apply, val_main_v14_apply, val_main_v11_apply, val_main_v13_apply, val_main_v12_apply,
    val_main_call1_v0_apply, val_main_call1_cst_apply]
  have e1 : ∀ k : Fin 64, val_main_v10 (F := Ideal) x0 x1 x2 (lidx_main_v11 (ix5 b d i j o) k) * x3 (ridx_main_v11 (ix5 b d i j o) k)
      = Cert.Spec.hid1 (argsOf x0 x1 x2 x3 x4 x5 x6 x7 x8 x9 x10 x11 x12) b d i j k * x3 (ix2 o k) := fun k => by
    have hl : lidx_main_v11 (ix5 b d i j o) k = ix5 b d i j k := funext fun a => by
      match a with
      | ⟨0, _⟩ => rfl
      | ⟨1, _⟩ => rfl
      | ⟨2, _⟩ => rfl
      | ⟨3, _⟩ => rfl
      | ⟨4, _⟩ => rfl
    have hr : ridx_main_v11 (ix5 b d i j o) k = ix2 o k := funext fun a => by
      match a with
      | ⟨0, _⟩ => rfl
      | ⟨1, _⟩ => rfl
    rw [hl, hr, hid1_apply x0 x1 x2 x3 x4 x5 x6 x7 x8 x9 x10 x11 x12]
  have e2 : x4 (idx_main_v12 (idx_main_v13 (ix5 b d i j o))) = x4 (ix1 o) :=
    congrArg x4 (funext fun a => by match a with | ⟨0, _⟩ => rfl)
  rw [Finset.sum_congr rfl (fun k _ => e1 k), e2]
  rfl

/-- The third layer's output (bias added, no maximum) at sub-cloud (b, d), pair (i, j), channel o. -/
theorem acts_apply (b d : Fin 4) (i j : Fin 128) (o : Fin 256) :
    val_main_v19 (F := Ideal) x0 x1 x2 x3 x4 x5 x6 (ix5 b d i j o)
      = Cert.Spec.act3 (argsOf x0 x1 x2 x3 x4 x5 x6 x7 x8 x9 x10 x11 x12) b d i j o := by
  rw [val_main_v19_apply, val_main_v16_apply, val_main_v18_apply, val_main_v17_apply]
  have e1 : ∀ k : Fin 128, val_main_v15 (F := Ideal) x0 x1 x2 x3 x4 (lidx_main_v16 (ix5 b d i j o) k) * x5 (ridx_main_v16 (ix5 b d i j o) k)
      = Cert.Spec.hid2 (argsOf x0 x1 x2 x3 x4 x5 x6 x7 x8 x9 x10 x11 x12) b d i j k * x5 (ix2 o k) := fun k => by
    have hl : lidx_main_v16 (ix5 b d i j o) k = ix5 b d i j k := funext fun a => by
      match a with
      | ⟨0, _⟩ => rfl
      | ⟨1, _⟩ => rfl
      | ⟨2, _⟩ => rfl
      | ⟨3, _⟩ => rfl
      | ⟨4, _⟩ => rfl
    have hr : ridx_main_v16 (ix5 b d i j o) k = ix2 o k := funext fun a => by
      match a with
      | ⟨0, _⟩ => rfl
      | ⟨1, _⟩ => rfl
    rw [hl, hr, hid2_apply x0 x1 x2 x3 x4 x5 x6 x7 x8 x9 x10 x11 x12]
  have e2 : x6 (idx_main_v17 (idx_main_v18 (ix5 b d i j o))) = x6 (ix1 o) :=
    congrArg x6 (funext fun a => by match a with | ⟨0, _⟩ => rfl)
  rw [Finset.sum_congr rfl (fun k _ => e1 k), e2]
  rfl

end Cert.ReferenceIdeal.RefValue

end
-- ==== Proof.RefValue.lean ====
/-
  The reference's result, read off its run one host operation at a time, is the specification's function of the
  argument arrays: the maximum over the two pair axes, from −∞, is the supremum over all pairs; the head's three
  contractions are plain sums; the last maximum over the sub-cloud axis, from −∞, the supremum over the four
  sub-clouds.
-/
import proofs.«118771_j73547019976967_1_alg».proof.Proof.RefLayers
import proofs.«118771_j73547019976967_1_alg».proof.Proof.LibSupFold
import proofs.«118771_j73547019976967_1_alg».proof.Proof.LibRowReduce

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

variable (x0 : (⟨S4x512x3, .f32⟩ : BufTy).Contents (Elt Ideal)) (x1 : (⟨S64x6, .f32⟩ : BufTy).Contents (Elt Ideal)) (x2 : (⟨S64, .f32⟩ : BufTy).Contents (Elt Ideal)) (x3 : (⟨S128x64, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S512x256, .f32⟩ : BufTy).Contents (Elt Ideal)) (x8 : (⟨S512, .f32⟩ : BufTy).Contents (Elt Ideal)) (x9 : (⟨S256x512, .f32⟩ : BufTy).Contents (Elt Ideal)) (x10 : (⟨S256, .f32⟩ : BufTy).Contents (Elt Ideal)) (x11 : (⟨S40x256, .f32⟩ : BufTy).Contents (Elt Ideal)) (x12 : (⟨S40, .f32⟩ : BufTy).Contents (Elt Ideal))

namespace RefValueAux

/-- A fold of `max` from ⊥ over the members of a finite type that satisfy `p` is the supremum over any family
    that runs through exactly those members. -/
theorem fold_filter_eq_iSup {ι κ : Type} [Fintype ι] (p : ι → Prop) [DecidablePred p] (f : ι → EReal) (g : κ → ι)
    (hg : ∀ k, p (g k)) (hs : ∀ i, p i → ∃ k, g k = i) :
    (Finset.univ.filter p).fold max ⊥ f = ⨆ k, f (g k) := by
  have e : ∀ S : Finset ι, S.fold max ⊥ f = S.sup f := fun S => by
    induction S using Finset.cons_induction with
    | empty => rfl
    | cons a s ha ih => rw [Finset.fold_cons, Finset.sup_cons, ih]
  rw [e]
  apply le_antisymm
  · refine Finset.sup_le fun i hi => ?_
    obtain ⟨k, rfl⟩ := hs i (Finset.mem_filter.1 hi).2
    exact le_iSup (fun k => f (g k)) k
  · exact iSup_le fun k => Finset.le_sup (f := f) (Finset.mem_filter.2 ⟨Finset.mem_univ _, hg k⟩)

end RefValueAux

/-- The sub-cloud's descriptor. -/
theorem pooled_apply (b d : Fin 4) (o : Fin 256) :
    val_main_v20 (F := Ideal) x0 x1 x2 x3 x4 x5 x6 (ix3 b d o) = Cert.Spec.pooled (argsOf x0 x1 x2 x3 x4 x5 x6 x7 x8 x9 x10 x11 x12) b d o := by
  unfold val_main_v20 Cert.Spec.pooled
  refine (Host.reduce_eq_fold FloatOps.maximumf _ _ _ _ _).trans ?_
  rw [show val_main_cst (F := Ideal) (Shape.Idx.first h_S_) = (⊥ : EReal) from RowReduce.ofBits_negInf_f32]
  change Finset.fold max ⊥ _ _ = _
  refine (RefValueAux.fold_filter_eq_iSup _ (val_main_v19 (F := Ideal) x0 x1 x2 x3 x4 x5 x6)
    (fun k : Fin 128 × Fin 128 => ix5 b d k.1 k.2 o) (fun k => ?_) (fun i hi => ?_)).trans ?_
  · -- the pair (i, j) put on the two reduced axes drops back to (b, d, o)
    funext c
    apply Fin.ext
    match c with
    | ⟨0, _⟩ => exact reducesTo_S4x4x128x128x256_S4x4x256_d2_3.drop_apply_val_of_eq _ 0 0
    | ⟨1, _⟩ => exact reducesTo_S4x4x128x128x256_S4x4x256_d2_3.drop_apply_val_of_eq _ 1 1
    | ⟨2, _⟩ => exact reducesTo_S4x4x128x128x256_S4x4x256_d2_3.drop_apply_val_of_eq _ 2 4
  · -- an index that drops to (b, d, o) is (b, d, i, j, o) for its own two reduced coordinates
    have h0 : ((reducesTo_S4x4x128x128x256_S4x4x256_d2_3.drop i) 0 : Nat) = i 0 :=
      reducesTo_S4x4x128x128x256_S4x4x256_d2_3.drop_apply_val_of_eq i 0 0
    have h1 : ((reducesTo_S4x4x128x128x256_S4x4x256_d2_3.drop i) 1 : Nat) = i 1 :=
      reducesTo_S4x4x128x128x256_S4x4x256_d2_3.drop_apply_val_of_eq i 1 1
    have h2 : ((reducesTo_S4x4x128x128x256_S4x4x256_d2_3.drop i) 2 : Nat) = i 4 :=
      reducesTo_S4x4x128x128x256_S4x4x256_d2_3.drop_apply_val_of_eq i 2 4
    rw [hi] at h0 h1 h2
    refine ⟨(⟨(i 2).val, (i 2).isLt⟩, ⟨(i 3).val, (i 3).isLt⟩), ?_⟩
    funext c
    apply Fin.ext
    match c with
    | ⟨0, _⟩ => exact h0
    | ⟨1, _⟩ => exact h1
    | ⟨2, _⟩ => rfl
    | ⟨3, _⟩ => rfl
    | ⟨4, _⟩ => exact h2
  · rw [SupFold.iSup_pair]
    exact iSup_congr fun i => iSup_congr fun j => acts_apply x0 x1 x2 x3 x4 x5 x6 x7 x8 x9 x10 x11 x12 b d i j o

/-- The head's first layer: contraction of the descriptor against the first head matrix, bias, maximum with zero. -/
private theorem fc1_apply (b d : Fin 4) (o : Fin 512) :
    val_main_v25 (F := Ideal) x0 x1 x2 x3 x4 x5 x6 x7 x8 (ix3 b d o) = Cert.Spec.fc1 (argsOf x0 x1 x2 x3 x4 x5 x6 x7 x8 x9 x10 x11 x12) b d o := by
  rw [val_main_v25_apply, val_main_v24_apply, val_main_v21_apply, val_main_v23_apply, val_main_v22_apply,
    val_main_call2_v0_apply, val_main_call2_cst_apply]
  have e1 : ∀ k : Fin 256, val_main_v20 (F := Ideal) x0 x1 x2 x3 x4 x5 x6 (lidx_main_v21 (ix3 b d o) k) * x7 (ridx_main_v21 (ix3 b d o) k)
      = Cert.Spec.pooled (argsOf x0 x1 x2 x3 x4 x5 x6 x7 x8 x9 x10 x11 x12) b d k * x7 (ix2 o k) := fun k => by
    have hl : lidx_main_v21 (ix3 b d o) k = ix3 b d k := funext fun a => by
      match a with
      | ⟨0, _⟩ => rfl
      | ⟨1, _⟩ => rfl
      | ⟨2, _⟩ => rfl
    have hr : ridx_main_v21 (ix3 b d o) k = ix2 o k := funext fun a => by
      match a with
      | ⟨0, _⟩ => rfl
      | ⟨1, _⟩ => rfl
    rw [hl, hr, pooled_apply x0 x1 x2 x3 x4 x5 x6 x7 x8 x9 x10 x11 x12]
  have e2 : x8 (idx_main_v22 (idx_main_v23 (ix3 b d o))) = x8 (ix1 o) :=
    congrArg x8 (funext fun a => by match a with | ⟨0, _⟩ => rfl)
  rw [Finset.sum_congr rfl (fun k _ => e1 k), e2]
  rfl

/-- The head's second layer: contraction against the second head matrix, bias, maximum with zero. -/
private theorem fc2_apply (b d : Fin 4) (o : Fin 256) :
    val_main_v30 (F := Ideal) x0 x1 x2 x3 x4 x5 x6 x7 x8 x9 x10 (ix3 b d o) = Cert.Spec.fc2 (argsOf x0 x1 x2 x3 x4 x5 x6 x7 x8 x9 x10 x11 x12) b d o := by
  rw [val_main_v30_apply, val_main_v29_apply, val_main_v26_apply, val_main_v28_apply, val_main_v27_apply,
    val_main_call3_v0_apply, val_main_call3_cst_apply]
  have e1 : ∀ k : Fin 512, val_main_v25 (F := Ideal) x0 x1 x2 x3 x4 x5 x6 x7 x8 (lidx_main_v26 (ix3 b d o) k) * x9 (ridx_main_v26 (ix3 b d o) k)
      = Cert.Spec.fc1 (argsOf x0 x1 x2 x3 x4 x5 x6 x7 x8 x9 x10 x11 x12) b d k * x9 (ix2 o k) := fun k => by
    have hl : lidx_main_v26 (ix3 b d o) k = ix3 b d k := funext fun a => by
      match a with
      | ⟨0, _⟩ => rfl
      | ⟨1, _⟩ => rfl
      | ⟨2, _⟩ => rfl
    have hr : ridx_main_v26 (ix3 b d o) k = ix2 o k := funext fun a => by
      match a with
      | ⟨0, _⟩ => rfl
      | ⟨1, _⟩ => rfl
    rw [hl, hr, fc1_apply x0 x1 x2 x3 x4 x5 x6 x7 x8 x9 x10 x11 x12]
  have e2 : x10 (idx_main_v27 (idx_main_v28 (ix3 b d o))) = x10 (ix1 o) :=
    congrArg x10 (funext fun a => by match a with | ⟨0, _⟩ => rfl)
  rw [Finset.sum_congr rfl (fun k _ => e1 k), e2]
  rfl

/-- The sub-cloud's scores. -/
theorem score_apply (b d : Fin 4) (o : Fin 40) :
    val_main_v34 (F := Ideal) x0 x1 x2 x3 x4 x5 x6 x7 x8 x9 x10 x11 x12 (ix3 b d o) = Cert.Spec.score (argsOf x0 x1 x2 x3 x4 x5 x6 x7 x8 x9 x10 x11 x12) b d o := by
  rw [val_main_v34_apply, val_main_v31_apply, val_main_v33_apply, val_main_v32_apply]
  have e1 : ∀ k : Fin 256, val_main_v30 (F := Ideal) x0 x1 x2 x3 x4 x5 x6 x7 x8 x9 x10 (lidx_main_v31 (ix3 b d o) k) * x11 (ridx_main_v31 (ix3 b d o) k)
      = Cert.Spec.fc2 (argsOf x0 x1 x2 x3 x4 x5 x6 x7 x8 x9 x10 x11 x12) b d k * x11 (ix2 o k) := fun k => by
    have hl : lidx_main_v31 (ix3 b d o) k = ix3 b d k := funext fun a => by
      match a with
      | ⟨0, _⟩ => rfl
      | ⟨1, _⟩ => rfl
      | ⟨2, _⟩ => rfl
    have hr : ridx_main_v31 (ix3 b d o) k = ix2 o k := funext fun a => by
      match a with
      | ⟨0, _⟩ => rfl
      | ⟨1, _⟩ => rfl
    rw [hl, hr, fc2_apply x0 x1 x2 x3 x4 x5 x6 x7 x8 x9 x10 x11 x12]
  have e2 : x12 (idx_main_v32 (idx_main_v33 (ix3 b d o))) = x12 (ix1 o) :=
    congrArg x12 (funext fun a => by match a with | ⟨0, _⟩ => rfl)
  rw [Finset.sum_congr rfl (fun k _ => e1 k), e2]
  rfl

/-- The result at (b, o): the supremum of the four sub-clouds' scores. -/
private theorem out_apply (b : Fin 4) (o : Fin 40) :
    val_main_v35 (F := Ideal) x0 x1 x2 x3 x4 x5 x6 x7 x8 x9 x10 x11 x12 (ix2 b o) = ⨆ d : Fin 4, Cert.Spec.score (argsOf x0 x1 x2 x3 x4 x5 x6 x7 x8 x9 x10 x11 x12) b d o := by
  unfold val_main_v35
  refine (Host.reduce_eq_fold FloatOps.maximumf _ _ _ _ _).trans ?_
  rw [show val_main_cst_0 (F := Ideal) (Shape.Idx.first h_S_) = (⊥ : EReal) from RowReduce.ofBits_negInf_f32]
  change Finset.fold max ⊥ _ _ = _
  refine (RefValueAux.fold_filter_eq_iSup _ (val_main_v34 (F := Ideal) x0 x1 x2 x3 x4 x5 x6 x7 x8 x9 x10 x11 x12)
    (fun d : Fin 4 => ix3 b d o) (fun d => ?_) (fun i hi => ?_)).trans ?_
  · -- the sub-cloud d put on the reduced axis drops back to (b, o)
    funext c
    apply Fin.ext
    match c with
    | ⟨0, _⟩ => exact reducesTo_S4x4x40_S4x40_d1.drop_apply_val_of_eq _ 0 0
    | ⟨1, _⟩ => exact reducesTo_S4x4x40_S4x40_d1.drop_apply_val_of_eq _ 1 2
  · -- an index that drops to (b, o) is (b, d, o) for its own reduced coordinate
    have h0 : ((reducesTo_S4x4x40_S4x40_d1.drop i) 0 : Nat) = i 0 :=
      reducesTo_S4x4x40_S4x40_d1.drop_apply_val_of_eq i 0 0
    have h1 : ((reducesTo_S4x4x40_S4x40_d1.drop i) 1 : Nat) = i 2 :=
      reducesTo_S4x4x40_S4x40_d1.drop_apply_val_of_eq i 1 2
    rw [hi] at h0 h1
    refine ⟨⟨(i 1).val, (i 1).isLt⟩, ?_⟩
    funext c
    apply Fin.ext
    match c with
    | ⟨0, _⟩ => exact h0
    | ⟨1, _⟩ => rfl
    | ⟨2, _⟩ => exact h1
  · exact iSup_congr fun d => score_apply x0 x1 x2 x3 x4 x5 x6 x7 x8 x9 x10 x11 x12 b d o

/-- The reference's result is the specification's. -/
theorem out_eq : val_main_v35 (F := Ideal) x0 x1 x2 x3 x4 x5 x6 x7 x8 x9 x10 x11 x12 = Cert.Spec.out (argsOf x0 x1 x2 x3 x4 x5 x6 x7 x8 x9 x10 x11 x12) := by
  funext i
  rw [eq_ix2 i]
  exact out_apply x0 x1 x2 x3 x4 x5 x6 x7 x8 x9 x10 x11 x12 (i 0) (i 1)

end Cert.ReferenceIdeal.RefValue

end
-- ==== Proof.lean ====
/-
  A point cloud of 4 × 512 points is cut into 16 sub-clouds of 128 points. For every ordered pair of points of a
  sub-cloud a three-layer network on the pair's six coordinates gives 256 activations; their channel-wise maximum
  over all 16384 pairs is the sub-cloud's descriptor; a second three-layer network turns it into 40 scores; the
  result is, per cloud, the maximum of the scores over its four sub-clouds.

  The kernel walks a sub-cloud in eight chunks of sixteen rows, keeps the running maximum in a scratch buffer
  (reset to −∞ at a sub-cloud's first chunk), runs the second network at the last chunk and stores the scores,
  and the host re-lays and reduces the sixteen score rows. The reference builds all pairs at once on the host.
  On the extended reals both are the function `Cert.Spec.out` of the thirteen arguments: a change of float format is
  the identity, a matrix product into a zero accumulator is the plain sum the host contraction is, a maximum from
  −∞ is a supremum, and a supremum over 128 × 128 pairs taken chunk by chunk is the supremum over all of them. No
  law used needs the inputs finite.

  Frames: the kernel's two programs by the launch of their one region (two of its windows read one array, split
  between them by halves), the reference's by its run. The idealization rewrote nothing.
-/
import proofs.«118771_j73547019976967_1_alg».proof.Defs
import proofs.«118771_j73547019976967_1_alg».proof.Proof.Gen.Kernel
import proofs.«118771_j73547019976967_1_alg».proof.Proof.Gen.KernelIdeal
import proofs.«118771_j73547019976967_1_alg».proof.Proof.Gen.ReferenceIdeal
import proofs.«118771_j73547019976967_1_alg».proof.Proof.Gen.Pre_finite_inputs
import proofs.«118771_j73547019976967_1_alg».proof.Proof.Gen.ReferenceIdeal.Run
import proofs.«118771_j73547019976967_1_alg».proof.Proof.Bits.Launch
import proofs.«118771_j73547019976967_1_alg».proof.Proof.Launch
import proofs.«118771_j73547019976967_1_alg».proof.Proof.Result
import proofs.«118771_j73547019976967_1_alg».proof.Proof.RefValue
import Idealize.ShloMosaic.Adequacy
import Idealize.ShloMosaic.Init

noncomputable section

namespace Cert.Proof

open Idealize.ShloMosaic Idealize.SL.Sem

/-- The word-level kernel runs to the end and keeps its arguments: the run's post without the result. -/
theorem frame_k [Cert.Kernel.Facts] [Cert.Pre_finite_inputs.Facts] : Cert.frame_Kernel := fun m ρ _ =>
  (θ_run Cert.Kernel.defs _ _).mono (fun _ h c => (h c).2) (Cert.Kernel.Net.run_main (F := Bits) m ρ)

theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Net.run_main (F := Ideal) m ρ)

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end at `Cert.Spec.out` of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.out (Cert.KernelIdeal.Net.argsOf m c), ?_, ?_⟩
  · exact (θ_run Cert.KernelIdeal.defs _ _).mono
      (fun _ h c => ⟨(h c).1.trans (Cert.KernelIdeal.Net.result_eq m c), (h c).2⟩)
      (Cert.KernelIdeal.Net.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefValue.out_eq]
    obtain ⟨h0, h1, h2, h3, h4, h5, h6, h7, h8, h9, h10, h11, h12⟩ := hagree c
    show Cert.Spec.out ⟨_, _, _, _, _, _, _, _, _, _, _, _, _⟩ = Cert.Spec.out ⟨_, _, _, _, _, _, _, _, _, _, _, _, _⟩
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
